-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S64x8 : Shape := ⟨2, ![64, 8]⟩
abbrev S8 : Shape := ⟨1, ![8]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x8 : S_.BroadcastsInDim S64x8 (![] : Fin 0 → Fin S64x8.rank)
  reducesTo_S64x8_S_d0_1 : S64x8.ReducesTo [0, 1] S_
  bcast_S_S8 : S_.BroadcastsInDim S8 (![] : Fin 0 → Fin S8.rank)
  reducesTo_S8_S_d0 : S8.ReducesTo [0] S_

variable [Facts]

def fn_part2 {F : FTy → Type} [FloatOps F] (main_arg9 : FVec F S64x8 .f32) (main_arg10 : FVec F S8 .f32) (main_v33 : IVec S_ 1) : IVec S_ 1 :=
  let main_v34 : FVec F S64x8 .f32 := Host.absf main_arg9
  let main_cst_12 : FVec F S_ .f32 := constant S_ .f32 0x7F800000#32
  let main_v35 : FVec F S64x8 .f32 := broadcastInDim S64x8 ![] bcast_S_S64x8 main_cst_12
  let main_v36 : IVec S64x8 1 := cmpf .olt main_v34 main_v35
  let main_c_13 : IVec S_ 1 := constantI S_ 1 1#1
  let main_v37 : IVec S_ 1 := (fun x v => Host.reduce IntOp.andi x v reducesTo_S64x8_S_d0_1 h_S_) main_v36 main_c_13
  let main_v38 : IVec S_ 1 := andi main_v33 main_v37
  let main_v39 : FVec F S8 .f32 := Host.absf main_arg10
  let main_cst_14 : FVec F S_ .f32 := constant S_ .f32 0x7F800000#32
  let main_v40 : FVec F S8 .f32 := broadcastInDim S8 ![] bcast_S_S8 main_cst_14
  let main_v41 : IVec S8 1 := cmpf .olt main_v39 main_v40
  let main_c_15 : IVec S_ 1 := constantI S_ 1 1#1
  let main_v42 : IVec S_ 1 := (fun x v => Host.reduce IntOp.andi x v reducesTo_S8_S_d0 h_S_) main_v41 main_c_15
  let main_v43 : IVec S_ 1 := andi main_v38 main_v42
  main_v43

def fn_part1 {F : FTy → Type} [FloatOps F] (main_arg6 : FVec F S64 .f32) (main_arg7 : FVec F S64x64 .f32) (main_arg8 : FVec F S64 .f32) (main_arg9 : FVec F S64x8 .f32) (main_arg10 : FVec F S8 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_v33

def fn {F : FTy → Type} [FloatOps F] (main_arg0 : FVec F S100000x64 .f32) (main_arg1 : IVec S2x1600000 32) (main_arg2 : IVec S100000 32) (main_arg3 : FVec F S64x64 .f32) (main_arg4 : FVec F S64 .f32) (main_arg5 : FVec F S64x64 .f32) (main_arg6 : FVec F S64 .f32) (main_arg7 : FVec F S64x64 .f32) (main_arg8 : FVec F S64 .f32) (main_arg9 : FVec F S64x8 .f32) (main_arg10 : FVec F S8 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_v13 main_v16
-- ==== Kernel.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S64x8 : Shape := ⟨2, ![64, 8]⟩
abbrev S8 : Shape := ⟨1, ![8]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S10000x64 : Shape := ⟨2, ![10000, 64]⟩
abbrev S1600000x64 : Shape := ⟨2, ![1600000, 64]⟩
abbrev S8000x64 : Shape := ⟨2, ![8000, 64]⟩
abbrev S8000x1 : Shape := ⟨2, ![8000, 1]⟩
abbrev S1x64 : Shape := ⟨2, ![1, 64]⟩
abbrev S10000x1 : Shape := ⟨2, ![10000, 1]⟩
abbrev S64x1 : Shape := ⟨2, ![64, 1]⟩
abbrev S1x8 : Shape := ⟨2, ![1, 8]⟩

abbrev nBuf : Space → Nat
  | .hbm => 98
  | .vmem => 51
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S100000, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x8, .f32⟩
  | .hbm, ⟨10, _⟩ => ⟨S8, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000, .f32⟩
  | .hbm, ⟨45, _⟩ => ⟨S1600000, .f32⟩
  | .hbm, ⟨46, _⟩ => ⟨S1600000x1, .f32⟩
  | .hbm, ⟨47, _⟩ => ⟨S100000x64, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x64, .f32⟩
  | .hbm, ⟨57, _⟩ => ⟨S1600000x64, .f32⟩
  | .hbm, ⟨58, _⟩ => ⟨S_, .f32⟩
  | .hbm, ⟨59, _⟩ => ⟨S100000x64, .f32⟩
  | .hbm, ⟨60, _⟩ => ⟨S1600000x1, .i32⟩
  | .hbm, ⟨61, _⟩ => ⟨S100000x64, .f32⟩
  | .hbm, ⟨62, _⟩ => ⟨S1x64, .f32⟩
  | .hbm, ⟨63, _⟩ => ⟨S100000x64, .f32⟩
  | .hbm, ⟨64, _⟩ => ⟨S100000x64, .f32⟩
  | .hbm, ⟨65, _⟩ => ⟨S_, .i32⟩
  | .hbm, ⟨66, _⟩ => ⟨S1600000, .i32⟩
  | .hbm, ⟨67, _⟩ => ⟨S1600000, .i1⟩
  | .hbm, ⟨68, _⟩ => ⟨S_, .i32⟩
  | .hbm, ⟨69, _⟩ => ⟨S1600000, .i32⟩
  | .hbm, ⟨70, _⟩ => ⟨S1600000, .i32⟩
  | .hbm, ⟨71, _⟩ => ⟨S1600000, .i32⟩
  | .hbm, ⟨72, _⟩ => ⟨S1600000x1, .i32⟩
  | .hbm, ⟨73, _⟩ => ⟨S1600000x64, .f32⟩
  | .hbm, ⟨74, _⟩ => ⟨S1600000x64, .f32⟩
  | .hbm, ⟨75, _⟩ => ⟨S_, .f32⟩
  | .hbm, ⟨76, _⟩ => ⟨S100000x64, .f32⟩
  | .hbm, ⟨77, _⟩ => ⟨S1600000x1, .i32⟩
  | .hbm, ⟨78, _⟩ => ⟨S100000x64, .f32⟩
  | .hbm, ⟨79, _⟩ => ⟨S1x64, .f32⟩
  | .hbm, ⟨80, _⟩ => ⟨S100000x64, .f32⟩
  | .hbm, ⟨81, _⟩ => ⟨S100000x1, .i32⟩
  | .hbm, ⟨82, _⟩ => ⟨S64x64, .f32⟩
  | .hbm, ⟨83, _⟩ => ⟨S_, .f32⟩
  | .hbm, ⟨84, _⟩ => ⟨S100000, .f32⟩
  | .hbm, ⟨85, _⟩ => ⟨S_, .f32⟩
  | .hbm, ⟨86, _⟩ => ⟨S64, .f32⟩
  | .hbm, ⟨87, _⟩ => ⟨S100000x1, .i32⟩
  | .hbm, ⟨88, _⟩ => ⟨S64, .f32⟩
  | .hbm, ⟨89, _⟩ => ⟨S_, .f32⟩
  | .hbm, ⟨90, _⟩ => ⟨S64, .f32⟩
  | .hbm, ⟨91, _⟩ => ⟨S64, .f32⟩
  | .hbm, ⟨92, _⟩ => ⟨S64x1, .f32⟩
  | .hbm, ⟨93, _⟩ => ⟨S64x64, .f32⟩
  | .hbm, ⟨94, _⟩ => ⟨S64x64, .f32⟩
  | .hbm, ⟨95, _⟩ => ⟨S1x64, .f32⟩
  | .hbm, ⟨96, _⟩ => ⟨S1x8, .f32⟩
  | .hbm, ⟨97, _⟩ => ⟨S64x8, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S8000x64, .f32⟩
  | .local _ .vmem, ⟨6, _⟩ => ⟨S8000x64, .f32⟩
  | .local _ .vmem, ⟨7, _⟩ => ⟨S8000x1, .f32⟩
  | .local _ .vmem, ⟨8, _⟩ => ⟨S8000x1, .f32⟩
  | .local _ .vmem, ⟨9, _⟩ => ⟨S8000x64, .f32⟩
  | .local _ .vmem, ⟨10, _⟩ => ⟨S8000x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x1, .f32⟩
  | .local _ .vmem, ⟨16, _⟩ => ⟨S10000x1, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S64x64, .f32⟩
  | .local _ .vmem, ⟨23, _⟩ => ⟨S10000x64, .f32⟩
  | .local _ .vmem, ⟨24, _⟩ => ⟨S10000x64, .f32⟩
  | .local _ .vmem, ⟨25, _⟩ => ⟨S8000x64, .f32⟩
  | .local _ .vmem, ⟨26, _⟩ => ⟨S8000x64, .f32⟩
  | .local _ .vmem, ⟨27, _⟩ => ⟨S8000x1, .f32⟩
  | .local _ .vmem, ⟨28, _⟩ => ⟨S8000x1, .f32⟩
  | .local _ .vmem, ⟨29, _⟩ => ⟨S8000x64, .f32⟩
  | .local _ .vmem, ⟨30, _⟩ => ⟨S8000x64, .f32⟩
  | .local _ .vmem, ⟨31, _⟩ => ⟨S10000x64, .f32⟩
  | .local _ .vmem, ⟨32, _⟩ => ⟨S10000x64, .f32⟩
  | .local _ .vmem, ⟨33, _⟩ => ⟨S10000x64, .f32⟩
  | .local _ .vmem, ⟨34, _⟩ => ⟨S10000x64, .f32⟩
  | .local _ .vmem, ⟨35, _⟩ => ⟨S10000x1, .f32⟩
  | .local _ .vmem, ⟨36, _⟩ => ⟨S10000x1, .f32⟩
  | .local _ .vmem, ⟨37, _⟩ => ⟨S1x64, .f32⟩
  | .local _ .vmem, ⟨38, _⟩ => ⟨S10000x64, .f32⟩
  | .local _ .vmem, ⟨39, _⟩ => ⟨S10000x64, .f32⟩
  | .local _ .vmem, ⟨40, _⟩ => ⟨S10000x64, .f32⟩
  | .local _ .vmem, ⟨41, _⟩ => ⟨S10000x64, .f32⟩
  | .local _ .vmem, ⟨42, _⟩ => ⟨S10000x1, .i32⟩
  | .local _ .vmem, ⟨43, _⟩ => ⟨S10000x1, .i32⟩
  | .local _ .vmem, ⟨44, _⟩ => ⟨S64x64, .f32⟩
  | .local _ .vmem, ⟨45, _⟩ => ⟨S64x64, .f32⟩
  | .local _ .vmem, ⟨46, _⟩ => ⟨S64x64, .f32⟩
  | .local _ .vmem, ⟨47, _⟩ => ⟨S1x64, .f32⟩
  | .local _ .vmem, ⟨48, _⟩ => ⟨S64x8, .f32⟩
  | .local _ .vmem, ⟨49, _⟩ => ⟨S1x8, .f32⟩
  | .local _ .vmem, ⟨50, _⟩ => ⟨S64x8, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_v13 : Ref sig .tc := ⟨.hbm, 28, rfl⟩
abbrev main_v14 : Ref sig .tc := ⟨.hbm, 29, rfl⟩
abbrev main_c_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c_3 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_7 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_c_8 : Ref sig .tc := ⟨.hbm, 65, rfl⟩
abbrev main_v44 : Ref sig .tc := ⟨.hbm, 66, rfl⟩
abbrev main_v45 : Ref sig .tc := ⟨.hbm, 67, rfl⟩
abbrev main_c_9 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_10 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_11 : Ref sig .tc := ⟨.hbm, 83, rfl⟩
abbrev main_v59 : Ref sig .tc := ⟨.hbm, 84, rfl⟩
abbrev main_cst_12 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_13 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg4_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg2_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg1_1 : Ref sig .tc := ⟨.vmem, 28, rfl⟩
abbrev cc4_stg2_0 : Ref sig .tc := ⟨.vmem, 29, rfl⟩
abbrev cc4_stg2_1 : Ref sig .tc := ⟨.vmem, 30, rfl⟩
abbrev cc5_stg0_0 : Ref sig .tc := ⟨.vmem, 31, rfl⟩
abbrev cc5_stg0_1 : Ref sig .tc := ⟨.vmem, 32, rfl⟩
abbrev cc5_stg1_0 : Ref sig .tc := ⟨.vmem, 33, rfl⟩
abbrev cc5_stg1_1 : Ref sig .tc := ⟨.vmem, 34, rfl⟩
abbrev cc5_stg2_0 : Ref sig .tc := ⟨.vmem, 35, rfl⟩
abbrev cc5_stg2_1 : Ref sig .tc := ⟨.vmem, 36, rfl⟩
abbrev cc5_stg3_0 : Ref sig .tc := ⟨.vmem, 37, rfl⟩
abbrev cc5_stg4_0 : Ref sig .tc := ⟨.vmem, 38, rfl⟩
abbrev cc5_stg4_1 : Ref sig .tc := ⟨.vmem, 39, rfl⟩
abbrev cc6_stg0_0 : Ref sig .tc := ⟨.vmem, 40, rfl⟩
abbrev cc6_stg0_1 : Ref sig .tc := ⟨.vmem, 41, rfl⟩
abbrev cc6_stg1_0 : Ref sig .tc := ⟨.vmem, 42, rfl⟩
abbrev cc6_stg1_1 : Ref sig .tc := ⟨.vmem, 43, rfl⟩
abbrev cc6_stg2_0 : Ref sig .tc := ⟨.vmem, 44, rfl⟩
abbrev cc7_stg0_0 : Ref sig .tc := ⟨.vmem, 45, rfl⟩
abbrev cc7_stg1_0 : Ref sig .tc := ⟨.vmem, 46, rfl⟩
abbrev cc7_stg2_0 : Ref sig .tc := ⟨.vmem, 47, rfl⟩
abbrev cc7_stg3_0 : Ref sig .tc := ⟨.vmem, 48, rfl⟩
abbrev cc7_stg4_0 : Ref sig .tc := ⟨.vmem, 49, rfl⟩
abbrev cc7_stg5_0 : Ref sig .tc := ⟨.vmem, 50, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc2_sem3_0 : DmaSem sig := 17
abbrev cc2_sem4_0 : DmaSem sig := 18
abbrev cc2_sem4_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem2_1 : DmaSem sig := 24
abbrev cc4_sem0_0 : DmaSem sig := 25
abbrev cc4_sem0_1 : DmaSem sig := 26
abbrev cc4_sem1_0 : DmaSem sig := 27
abbrev cc4_sem1_1 : DmaSem sig := 28
abbrev cc4_sem2_0 : DmaSem sig := 29
abbrev cc4_sem2_1 : DmaSem sig := 30
abbrev cc5_sem0_0 : DmaSem sig := 31
abbrev cc5_sem0_1 : DmaSem sig := 32
abbrev cc5_sem1_0 : DmaSem sig := 33
abbrev cc5_sem1_1 : DmaSem sig := 34
abbrev cc5_sem2_0 : DmaSem sig := 35
abbrev cc5_sem2_1 : DmaSem sig := 36
abbrev cc5_sem3_0 : DmaSem sig := 37
abbrev cc5_sem4_0 : DmaSem sig := 38
abbrev cc5_sem4_1 : DmaSem sig := 39
abbrev cc6_sem0_0 : DmaSem sig := 40
abbrev cc6_sem0_1 : DmaSem sig := 41
abbrev cc6_sem1_0 : DmaSem sig := 42
abbrev cc6_sem1_1 : DmaSem sig := 43
abbrev cc6_sem2_0 : DmaSem sig := 44
abbrev cc7_sem0_0 : DmaSem sig := 45
abbrev cc7_sem1_0 : DmaSem sig := 46
abbrev cc7_sem2_0 : DmaSem sig := 47
abbrev cc7_sem3_0 : DmaSem sig := 48
abbrev cc7_sem4_0 : DmaSem sig := 49
abbrev cc7_sem5_0 : DmaSem sig := 50

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S10000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![200], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S8000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S10000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S10000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S10000x1 .i32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S64x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev grid7 : Pipeline.Grid := ⟨1, ![1], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 1 → Memref sig .tc .vmem S64x64 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![false]

abbrev stage7_1 : Fin 1 → Memref sig .tc .vmem S64x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S64x8 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x8 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S64x8 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  shapeCasts_S1600000_S1600000x1 : S1600000.ShapeCasts S1600000x1
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  broadcasts_S8000x1_S8000x64 : S8000x1.Broadcasts S8000x64
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  iota_S10000x64_d1_w32 : S10000x64.Iotas .tc 32 [1]
  natLt_1_32 : 1 < 32
  shapeCasts_S64x64_S64x64 : S64x64.ShapeCasts S64x64
  bcast_S_S64 : S_.BroadcastsInDim S64 (![] : Fin 0 → Fin S64.rank)
  bcast_S100000_S100000x1_0 : S100000.BroadcastsInDim S100000x1 (![0] : Fin 1 → Fin S100000x1.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  shapeCasts_S8_S1x8 : S8.ShapeCasts S1x8
  broadcasts_S1x64_S64x64 : S1x64.Broadcasts S64x64
  inb_S64x8_S64x8_0_0 : ∀ a, (![0, 0] : Fin 2 → Nat) a + S64x8.size a ≤ S64x8.size a
  h_S64x8 : 0 < S64x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S64x8 : S1x8.Broadcasts S64x8
  reduces_S64x8_S64 : S64x8.Reduces [1] S64
  shapeCasts_S64_S64x1 : S64.ShapeCasts S64x1
  broadcasts_S64x1_S64x8 : S64x1.Broadcasts S64x8
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S10000x64_S64x64_S10000x64_1_0_0_1_n_n_wf : DotDims.WF S10000x64 S64x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S10000x64_S64x64_0_0_1_1_n_n_wf : DotDims.WF S10000x64 S10000x64 S64x64 [0] [0] [1] [1] [] []
  scatter_S64_S100000x1_S100000_n_0_0_1_wf : ScatterDims.WF S64 S100000x1 S100000 [] [0] [0] 1
  dot_S64x64_S64x64_S64x64_1_0_0_1_n_n_wf : DotDims.WF S64x64 S64x64 S64x64 [1] [0] [0] [1] [] []
  dot_S64x64_S64x8_S64x8_1_0_0_1_n_n_wf : DotDims.WF S64x64 S64x8 S64x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x64.size a ≤ S1600000x64.size a
  hwx1_0 : ∀ i : grid1.Coords, EltTy.bits .f32 = 32 ∨ (Rect.block (s := S1600000x64) S8000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x1.size a ≤ S1600000x1.size a
  hwx1_1 : ∀ i : grid1.Coords, EltTy.bits .f32 = 32 ∨ (Rect.block (s := S1600000x1) S8000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x64.size a ≤ S1600000x64.size a
  hwx1_2 : ∀ i : grid1.Coords, EltTy.bits .f32 = 32 ∨ (Rect.block (s := S1600000x64) S8000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .f32 = 32 ∨ (Rect.block (s := S100000x64) S10000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x1.size a ≤ S100000x1.size a
  hwx2_2 : ∀ i : grid2.Coords, EltTy.bits .f32 = 32 ∨ (Rect.block (s := S100000x1) S10000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x64.size a ≤ S100000x64.size a
  hwx2_4 : ∀ i : grid2.Coords, EltTy.bits .f32 = 32 ∨ (Rect.block (s := S100000x64) S10000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8000x64.size a ≤ S1600000x64.size a
  hwx4_0 : ∀ i : grid4.Coords, EltTy.bits .f32 = 32 ∨ (Rect.block (s := S1600000x64) S8000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8000x1.size a ≤ S1600000x1.size a
  hwx4_1 : ∀ i : grid4.Coords, EltTy.bits .f32 = 32 ∨ (Rect.block (s := S1600000x1) S8000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S8000x64.size a ≤ S1600000x64.size a
  hwx4_2 : ∀ i : grid4.Coords, EltTy.bits .f32 = 32 ∨ (Rect.block (s := S1600000x64) S8000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x64.size a ≤ S100000x64.size a
  hwx5_1 : ∀ i : grid5.Coords, EltTy.bits .f32 = 32 ∨ (Rect.block (s := S100000x64) S10000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x1.size a ≤ S100000x1.size a
  hwx5_2 : ∀ i : grid5.Coords, EltTy.bits .f32 = 32 ∨ (Rect.block (s := S100000x1) S10000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S10000x64.size a ≤ S100000x64.size a
  hwx5_4 : ∀ i : grid5.Coords, EltTy.bits .f32 = 32 ∨ (Rect.block (s := S100000x64) S10000x64.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S100000x64.size a
  hwx6_0 : ∀ i : grid6.Coords, EltTy.bits .f32 = 32 ∨ (Rect.block (s := S100000x64) S10000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S10000x1.size a ≤ S100000x1.size a
  hwx6_1 : ∀ i : grid6.Coords, EltTy.bits .i32 = 32 ∨ (Rect.block (s := S100000x1) S10000x1.size (cc6_transform_1 i) (hinb6_1 i)).WholeWords (EltTy.packing .i32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64x64.size a ≤ S64x64.size a
  hwx6_2 : ∀ i : grid6.Coords, EltTy.bits .f32 = 32 ∨ (Rect.block (s := S64x64) S64x64.size (cc6_transform_2 i) (hinb6_2 i)).WholeWords (EltTy.packing .f32)
  hrank7 : 0 < grid7.rank
  hstage7_0 : ∀ j, (stage7_0 j).IsWhole
  nbuf7_0 : grid7.bufCount reads7_0 true = 1
  hreads7_0 : ∀ i i' : grid7.Coords, (∀ a, reads7_0 a = true → i a = i' a) → cc7_transform_0 i = cc7_transform_0 i'
  hinb7_0 : ∀ (i : grid7.Coords) a, (cc7_transform_0 i a + 1) * S64x64.size a ≤ S64x64.size a
  hwx7_0 : ∀ i : grid7.Coords, EltTy.bits .f32 = 32 ∨ (Rect.block (s := S64x64) S64x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S64x64.size a ≤ S64x64.size a
  hwx7_1 : ∀ i : grid7.Coords, EltTy.bits .f32 = 32 ∨ (Rect.block (s := S64x64) S64x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S64x8.size a ≤ S64x8.size a
  hwx7_3 : ∀ i : grid7.Coords, EltTy.bits .f32 = 32 ∨ (Rect.block (s := S64x8) S64x8.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x8.size a ≤ S1x8.size a
  hwx7_4 : ∀ i : grid7.Coords, EltTy.bits .f32 = 32 ∨ (Rect.block (s := S1x8) S1x8.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S64x8.size a ≤ S64x8.size a
  hwx7_5 : ∀ i : grid7.Coords, EltTy.bits .f32 = 32 ∨ (Rect.block (s := S64x8) S64x8.size (cc7_transform_5 i) (hinb7_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S10000x64_S64x64_0_0_1_1_n_n : DotDims S10000x64 S10000x64 S64x64 where
  lhsContracting := [0]
  rhsContracting := [0]
  lhsNonContracting := [1]
  rhsNonContracting := [1]
  lhsBatch := []
  rhsBatch := []
  wf := dot_S10000x64_S10000x64_S64x64_0_0_1_1_n_n_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x64_S64x64_S64x64_1_0_0_1_n_n : DotDims S64x64 S64x64 S64x64 where
  lhsContracting := [1]
  rhsContracting := [0]
  lhsNonContracting := [0]
  rhsNonContracting := [1]
  lhsBatch := []
  rhsBatch := []
  wf := dot_S64x64_S64x64_S64x64_1_0_0_1_n_n_wf
def dot_S64x64_S64x8_S64x8_1_0_0_1_n_n : DotDims S64x64 S64x8 S64x8 where
  lhsContracting := [1]
  rhsContracting := [0]
  lhsNonContracting := [0]
  rhsNonContracting := [1]
  lhsBatch := []
  rhsBatch := []
  wf := dot_S64x64_S64x8_S64x8_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v36) S8000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S8000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v37) S8000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v40) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S10000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v41) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v42) S10000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v42) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v43) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v50) S8000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v28) S8000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v51) S8000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v54) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v43) S10000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v12) S10000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v55) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v56) S10000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v56) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v57) S10000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v58) S64x64.size cc6_transform_2 reads6_2 true true 1 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v67) S64x64.size cc7_transform_0 reads7_0 false true 1 stage7_0 sem7_0
    hrank7 hreads7_0 hinb7_0 nbuf7_0 (Memref.isWhole_whole _) hwx7_0 hstage7_0

abbrev win7_1 : Pipeline.Window sig grid7 :=
  Pipeline.Window.ofSpec (Memref.whole main_arg7) S64x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v68) S1x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_arg9) S64x8.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v69) S1x8.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v70) S64x8.size cc7_transform_5 reads7_5 true true 1 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S100000 : Shape := ⟨1, ![100000]⟩
abbrev S64x64 : Shape := ⟨2, ![64, 64]⟩
abbrev S64 : Shape := ⟨1, ![64]⟩
abbrev S64x8 : Shape := ⟨2, ![64, 8]⟩
abbrev S8 : Shape := ⟨1, ![8]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩
abbrev S64x1 : Shape := ⟨2, ![64, 1]⟩
abbrev S1x8 : Shape := ⟨2, ![1, 8]⟩

abbrev nBuf : Space → Nat
  | .hbm => 161
  | .vmem => 0
  | .smem => 0
  | _ => 0

abbrev hbmTy0_0 (i : Nat) : BufTy := match i % 128 with
  | 0 => ⟨S100000x64, .f32⟩
  | 1 => ⟨S2x1600000, .i32⟩
  | 2 => ⟨S100000, .i32⟩
  | 3 => ⟨S64x64, .f32⟩
  | 4 => ⟨S64, .f32⟩
  | 5 => ⟨S64x64, .f32⟩
  | 6 => ⟨S64, .f32⟩
  | 7 => ⟨S64x64, .f32⟩
  | 8 => ⟨S64, .f32⟩
  | 9 => ⟨S64x8, .f32⟩
  | 10 => ⟨S8, .f32⟩
  | 11 => ⟨S1x1600000, .i32⟩
  | 12 => ⟨S1600000, .i32⟩
  | 13 => ⟨S1x1600000, .i32⟩
  | 14 => ⟨S1600000, .i32⟩
  | 15 => ⟨S_, .f32⟩
  | 16 => ⟨S1600000, .f32⟩
  | 17 => ⟨S_, .f32⟩
  | 18 => ⟨S100000, .f32⟩
  | 19 => ⟨S1600000x1, .i32⟩
  | 20 => ⟨S100000, .f32⟩
  | 21 => ⟨S_, .f32⟩
  | 22 => ⟨S100000, .f32⟩
  | 23 => ⟨S100000, .f32⟩
  | 24 => ⟨S100000, .f32⟩
  | 25 => ⟨S100000x64, .f32⟩
  | 26 => ⟨S_, .i32⟩
  | 27 => ⟨S1600000, .i32⟩
  | 28 => ⟨S1600000, .i1⟩
  | 29 => ⟨S_, .i32⟩
  | 30 => ⟨S1600000, .i32⟩
  | 31 => ⟨S1600000, .i32⟩
  | 32 => ⟨S1600000, .i32⟩
  | 33 => ⟨S1600000x1, .i32⟩
  | 34 => ⟨S1600000, .f32⟩
  | 35 => ⟨S_, .i32⟩
  | 36 => ⟨S1600000, .i32⟩
  | 37 => ⟨S1600000, .i1⟩
  | 38 => ⟨S_, .i32⟩
  | 39 => ⟨S1600000, .i32⟩
  | 40 => ⟨S1600000, .i32⟩
  | 41 => ⟨S1600000, .i32⟩
  | 42 => ⟨S1600000x1, .i32⟩
  | 43 => ⟨S1600000, .f32⟩
  | 44 => ⟨S1600000, .f32⟩
  | 45 => ⟨S_, .i32⟩
  | 46 => ⟨S1600000, .i32⟩
  | 47 => ⟨S1600000, .i1⟩
  | 48 => ⟨S_, .i32⟩
  | 49 => ⟨S1600000, .i32⟩
  | 50 => ⟨S1600000, .i32⟩
  | 51 => ⟨S1600000, .i32⟩
  | 52 => ⟨S1600000x1, .i32⟩
  | 53 => ⟨S1600000x64, .f32⟩
  | 54 => ⟨S1600000x1, .f32⟩
  | 55 => ⟨S1600000x64, .f32⟩
  | 56 => ⟨S1600000x64, .f32⟩
  | 57 => ⟨S_, .f32⟩
  | 58 => ⟨S100000x64, .f32⟩
  | 59 => ⟨S1600000x1, .i32⟩
  | 60 => ⟨S100000x64, .f32⟩
  | 61 => ⟨S100000, .f32⟩
  | 62 => ⟨S100000x1, .f32⟩
  | 63 => ⟨S100000x64, .f32⟩
  | 64 => ⟨S100000x64, .f32⟩
  | 65 => ⟨S100000x64, .f32⟩
  | 66 => ⟨S1x64, .f32⟩
  | 67 => ⟨S100000x64, .f32⟩
  | 68 => ⟨S100000x64, .f32⟩
  | 69 => ⟨S_, .f32⟩
  | 70 => ⟨S100000x64, .f32⟩
  | 71 => ⟨S100000x64, .f32⟩
  | 72 => ⟨S100000x64, .f32⟩
  | 73 => ⟨S_, .i32⟩
  | 74 => ⟨S1600000, .i32⟩
  | 75 => ⟨S1600000, .i1⟩
  | 76 => ⟨S_, .i32⟩
  | 77 => ⟨S1600000, .i32⟩
  | 78 => ⟨S1600000, .i32⟩
  | 79 => ⟨S1600000, .i32⟩
  | 80 => ⟨S1600000x1, .i32⟩
  | 81 => ⟨S1600000, .f32⟩
  | 82 => ⟨S_, .i32⟩
  | 83 => ⟨S1600000, .i32⟩
  | 84 => ⟨S1600000, .i1⟩
  | 85 => ⟨S_, .i32⟩
  | 86 => ⟨S1600000, .i32⟩
  | 87 => ⟨S1600000, .i32⟩
  | 88 => ⟨S1600000, .i32⟩
  | 89 => ⟨S1600000x1, .i32⟩
  | 90 => ⟨S1600000, .f32⟩
  | 91 => ⟨S1600000, .f32⟩
  | 92 => ⟨S_, .i32⟩
  | 93 => ⟨S1600000, .i32⟩
  | 94 => ⟨S1600000, .i1⟩
  | 95 => ⟨S_, .i32⟩
  | 96 => ⟨S1600000, .i32⟩
  | 97 => ⟨S1600000, .i32⟩
  | 98 => ⟨S1600000, .i32⟩
  | 99 => ⟨S1600000x1, .i32⟩
  | 100 => ⟨S1600000x64, .f32⟩
  | 101 => ⟨S1600000x1, .f32⟩
  | 102 => ⟨S1600000x64, .f32⟩
  | 103 => ⟨S1600000x64, .f32⟩
  | 104 => ⟨S_, .f32⟩
  | 105 => ⟨S100000x64, .f32⟩
  | 106 => ⟨S1600000x1, .i32⟩
  | 107 => ⟨S100000x64, .f32⟩
  | 108 => ⟨S100000, .f32⟩
  | 109 => ⟨S100000x1, .f32⟩
  | 110 => ⟨S100000x64, .f32⟩
  | 111 => ⟨S100000x64, .f32⟩
  | 112 => ⟨S100000x64, .f32⟩
  | 113 => ⟨S1x64, .f32⟩
  | 114 => ⟨S100000x64, .f32⟩
  | 115 => ⟨S100000x64, .f32⟩
  | 116 => ⟨S_, .f32⟩
  | 117 => ⟨S100000x64, .f32⟩
  | 118 => ⟨S100000x64, .f32⟩
  | 119 => ⟨S_, .f32⟩
  | 120 => ⟨S64x64, .f32⟩
  | 121 => ⟨S100000x1, .i32⟩
  | 122 => ⟨S64x64, .f32⟩
  | 123 => ⟨S_, .f32⟩
  | 124 => ⟨S100000, .f32⟩
  | 125 => ⟨S_, .f32⟩
  | 126 => ⟨S64, .f32⟩
  | 127 => ⟨S100000x1, .i32⟩
  | _ => ⟨S100000x64, .f32⟩

abbrev hbmTy0_1 (i : Nat) : BufTy := match i % 128 with
  | 0 => ⟨S64, .f32⟩
  | 1 => ⟨S_, .f32⟩
  | 2 => ⟨S64, .f32⟩
  | 3 => ⟨S64, .f32⟩
  | 4 => ⟨S64x1, .f32⟩
  | 5 => ⟨S64x64, .f32⟩
  | 6 => ⟨S64x64, .f32⟩
  | 7 => ⟨S64x64, .f32⟩
  | 8 => ⟨S1x64, .f32⟩
  | 9 => ⟨S64x64, .f32⟩
  | 10 => ⟨S64x64, .f32⟩
  | 11 => ⟨S_, .f32⟩
  | 12 => ⟨S64x64, .f32⟩
  | 13 => ⟨S64x64, .f32⟩
  | 14 => ⟨S64x8, .f32⟩
  | 15 => ⟨S1x8, .f32⟩
  | 16 => ⟨S64x8, .f32⟩
  | 17 => ⟨S64x8, .f32⟩
  | 18 => ⟨S_, .f32⟩
  | 19 => ⟨S64, .f32⟩
  | 20 => ⟨S_, .f32⟩
  | 21 => ⟨S64, .f32⟩
  | 22 => ⟨S64, .f32⟩
  | 23 => ⟨S64x1, .f32⟩
  | 24 => ⟨S64x8, .f32⟩
  | 25 => ⟨S64x8, .f32⟩
  | 26 => ⟨S64x8, .f32⟩
  | 27 => ⟨S_, .f32⟩
  | 28 => ⟨S64, .f32⟩
  | 29 => ⟨S64x1, .f32⟩
  | 30 => ⟨S64x1, .f32⟩
  | 31 => ⟨S64x8, .f32⟩
  | 32 => ⟨S64x8, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_c_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_c_6 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_7 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_call0_cst : Ref sig .tc := ⟨.hbm, 69, rfl⟩
abbrev main_call0_v0 : Ref sig .tc := ⟨.hbm, 70, rfl⟩
abbrev main_v48 : Ref sig .tc := ⟨.hbm, 71, rfl⟩
abbrev main_v49 : Ref sig .tc := ⟨.hbm, 72, rfl⟩
abbrev main_c_8 : Ref sig .tc := ⟨.hbm, 73, rfl⟩
abbrev main_v50 : Ref sig .tc := ⟨.hbm, 74, rfl⟩
abbrev main_v51 : Ref sig .tc := ⟨.hbm, 75, rfl⟩
abbrev main_c_9 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_c_10 : Ref sig .tc := ⟨.hbm, 82, rfl⟩
abbrev main_v57 : Ref sig .tc := ⟨.hbm, 83, rfl⟩
abbrev main_v58 : Ref sig .tc := ⟨.hbm, 84, rfl⟩
abbrev main_c_11 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_c_12 : Ref sig .tc := ⟨.hbm, 92, rfl⟩
abbrev main_v65 : Ref sig .tc := ⟨.hbm, 93, rfl⟩
abbrev main_v66 : Ref sig .tc := ⟨.hbm, 94, rfl⟩
abbrev main_c_13 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_14 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_call1_cst : Ref sig .tc := ⟨.hbm, 116, rfl⟩
abbrev main_call1_v0 : Ref sig .tc := ⟨.hbm, 117, rfl⟩
abbrev main_v86 : Ref sig .tc := ⟨.hbm, 118, rfl⟩
abbrev main_cst_15 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_cst_16 : Ref sig .tc := ⟨.hbm, 123, rfl⟩
abbrev main_v90 : Ref sig .tc := ⟨.hbm, 124, rfl⟩
abbrev main_cst_17 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_cst_18 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_call2_cst : Ref sig .tc := ⟨.hbm, 139, rfl⟩
abbrev main_call2_v0 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_call3_cst : Ref sig .tc := ⟨.hbm, 146, rfl⟩
abbrev main_call3_v0 : Ref sig .tc := ⟨.hbm, 147, rfl⟩
abbrev main_call3_cst_0 : Ref sig .tc := ⟨.hbm, 148, rfl⟩
abbrev main_call3_v1 : Ref sig .tc := ⟨.hbm, 149, rfl⟩
abbrev main_call3_v2 : Ref sig .tc := ⟨.hbm, 150, rfl⟩
abbrev main_call3_v3 : Ref sig .tc := ⟨.hbm, 151, rfl⟩
abbrev main_call3_v4 : Ref sig .tc := ⟨.hbm, 152, rfl⟩
abbrev main_call3_v5 : Ref sig .tc := ⟨.hbm, 153, rfl⟩
abbrev main_call3_v6 : Ref sig .tc := ⟨.hbm, 154, rfl⟩
abbrev main_call3_cst_1 : Ref sig .tc := ⟨.hbm, 155, rfl⟩
abbrev main_call3_v7 : Ref sig .tc := ⟨.hbm, 156, rfl⟩
abbrev main_call3_v8 : Ref sig .tc := ⟨.hbm, 157, rfl⟩
abbrev main_call3_v9 : Ref sig .tc := ⟨.hbm, 158, rfl⟩
abbrev main_call3_v10 : Ref sig .tc := ⟨.hbm, 159, rfl⟩
abbrev main_v108 : Ref sig .tc := ⟨.hbm, 160, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64x64 : S_.BroadcastsInDim S64x64 (![] : Fin 0 → Fin S64x64.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S1x64_S64x64_0_1 : S1x64.BroadcastsInDim S64x64 (![0, 1] : Fin 2 → Fin S64x64.rank)
  bcast_S8_S1x8_1 : S8.BroadcastsInDim S1x8 (![1] : Fin 1 → Fin S1x8.rank)
  bcast_S1x8_S64x8_0_1 : S1x8.BroadcastsInDim S64x8 (![0, 1] : Fin 2 → Fin S64x8.rank)
  reducesTo_S64x8_S64_d1 : S64x8.ReducesTo [1] S64
  h_S_ : 0 < S_.numel
  bcast_S64x1_S64x8_0_1 : S64x1.BroadcastsInDim S64x8 (![0, 1] : Fin 2 → Fin S64x8.rank)
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S64x64_S100000x1_S100000x64_1_0_0_1_wf : ScatterDims.WF S64x64 S100000x1 S100000x64 [1] [0] [0] 1
  scatter_S64_S100000x1_S100000_n_0_0_1_wf : ScatterDims.WF S64 S100000x1 S100000 [] [0] [0] 1
  dot_S64x64_S64x64_S64x64_1_0_0_1_n_n_wf : DotDims.WF S64x64 S64x64 S64x64 [1] [0] [0] [1] [] []
  dot_S64x64_S64x8_S64x8_1_0_0_1_n_n_wf : DotDims.WF S64x64 S64x8 S64x8 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x64_S64x64_S64x64_1_0_0_1_n_n : DotDims S64x64 S64x64 S64x64 where
  lhsContracting := [1]
  rhsContracting := [0]
  lhsNonContracting := [0]
  rhsNonContracting := [1]
  lhsBatch := []
  rhsBatch := []
  wf := dot_S64x64_S64x64_S64x64_1_0_0_1_n_n_wf
def dot_S64x64_S64x8_S64x8_1_0_0_1_n_n : DotDims S64x64 S64x8 S64x8 where
  lhsContracting := [1]
  rhsContracting := [0]
  lhsNonContracting := [0]
  rhsNonContracting := [1]
  lhsBatch := []
  rhsBatch := []
  wf := dot_S64x64_S64x8_S64x8_1_0_0_1_n_n_wf

class Facts : Prop extends Facts₀ where

variable [Facts]
-- ==== Proof.Host.lean ====
/- What each stretch of host operations of the kernel's @main computes, as a function of the buffer contents it
   starts from: the same gathers, scatter-adds and index arithmetic as the reference's, so each result is the
   reference's stage of the same operands.  Every statement holds at any float instance. -/
import proofs.«422269_j16982300688846_2_alg».proof.Proof.Gen.KernelIdeal.Frame
import proofs.«422269_j16982300688846_2_alg».proof.Proof.Gen.ReferenceIdeal.Read
import Idealize.ShloMosaic.Lib.StableHlo.Run

set_option maxRecDepth 16384

noncomputable section

namespace Cert.KernelIdeal.Host

open Cert.KernelIdeal Cert.KernelIdeal.Gen Idealize.ShloMosaic Idealize.ShloMosaic.TcCoe Idealize.SL.Sem Idealize.ShloMosaic.StableHlo
open Cert.ReferenceIdeal.Read

variable {F : FTy → Type} [FloatOps F] (X : Valuation τ sig (Elt F))
variable (x0 : (⟨Cert.ReferenceIdeal.S100000x64, .f32⟩ : BufTy).Contents (Elt F)) (x1 : (⟨Cert.ReferenceIdeal.S2x1600000, .i32⟩ : BufTy).Contents (Elt F)) (x2 : (⟨Cert.ReferenceIdeal.S100000, .i32⟩ : BufTy).Contents (Elt F))
  (x3 : (⟨Cert.ReferenceIdeal.S64x64, .f32⟩ : BufTy).Contents (Elt F)) (x4 : (⟨Cert.ReferenceIdeal.S64, .f32⟩ : BufTy).Contents (Elt F)) (x5 : (⟨Cert.ReferenceIdeal.S64x64, .f32⟩ : BufTy).Contents (Elt F)) (x6 : (⟨Cert.ReferenceIdeal.S64, .f32⟩ : BufTy).Contents (Elt F))

/-! ## The first stretch: the edge list split into source rows and target columns, the degrees by a scatter-add of
    ones, their inverse square roots, the squared factors as a column and the edge coefficients as a column -/

set_option maxHeartbeats 4000000 in
/-- The source-row indices. -/
theorem host0_v1 : StableHlo.after hostOps0 X (Proc.devRef .tc main_v1) = val_main_v1 (F := F) (X (Proc.devRef .tc main_arg1)) := by
  after_results
  rfl

set_option maxHeartbeats 4000000 in
/-- The target-column indices. -/
theorem host0_v3 : StableHlo.after hostOps0 X (Proc.devRef .tc main_v3) = val_main_v3 (F := F) (X (Proc.devRef .tc main_arg1)) := by
  after_results
  rfl

set_option maxHeartbeats 4000000 in
/-- The squared inverse-root degrees, as a column. -/
theorem host0_v12 : StableHlo.after hostOps0 X (Proc.devRef .tc main_v12)
    = shapeCast S100000x1 (val_main_v40 (F := F) (X (Proc.devRef .tc main_arg1))) shapeCasts_S100000_S100000x1 := by
  after_results
  rfl

set_option maxHeartbeats 4000000 in
/-- The edge coefficients dinv[row] * dinv[col], as a column. -/
theorem host0_v28 : StableHlo.after hostOps0 X (Proc.devRef .tc main_v28)
    = shapeCast S1600000x1 (val_main_v26 (F := F) (X (Proc.devRef .tc main_arg1))) shapeCasts_S1600000_S1600000x1 := by
  after_results
  rfl

/-! ## Layer one's gather, scatter-add and bias row -/

set_option maxHeartbeats 4000000 in
/-- The gather of the projected features at the source rows. -/
theorem host1_v36 (h29 : X (Proc.devRef .tc main_v29) = val_main_v11 (F := F) x0 x3) (h1 : X (Proc.devRef .tc main_v1) = val_main_v1 (F := F) x1) :
    StableHlo.after hostOps1 X (Proc.devRef .tc main_v36) = val_main_v33 (F := F) x0 x1 x3 := by
  after_results
  rw [h29, h1]
  rfl

set_option maxHeartbeats 4000000 in
/-- The scatter-add of the scaled messages at the target columns. -/
theorem host2_v40 (h3 : X (Proc.devRef .tc main_v3) = val_main_v3 (F := F) x1) (h37 : X (Proc.devRef .tc main_v37) = val_main_v36 (F := F) x0 x1 x3) :
    StableHlo.after hostOps2 X (Proc.devRef .tc main_v40) = val_main_v39 (F := F) x0 x1 x3 := by
  after_results
  rw [h3, h37]
  rfl

set_option maxHeartbeats 4000000 in
/-- The bias as a row. -/
theorem host2_v41 : StableHlo.after hostOps2 X (Proc.devRef .tc main_v41) = shapeCast S1x64 (X (Proc.devRef .tc main_arg4)) shapeCasts_S64_S1x64 := by
  after_results
  rfl

/-! ## Layer two's -/

set_option maxHeartbeats 4000000 in
theorem host4_v50 (h43 : X (Proc.devRef .tc main_v43) = val_main_v49 (F := F) x0 x1 x3 x4 x5) (h1 : X (Proc.devRef .tc main_v1) = val_main_v1 (F := F) x1) :
    StableHlo.after hostOps4 X (Proc.devRef .tc main_v50) = val_main_v71 (F := F) x0 x1 x3 x4 x5 := by
  after_results
  rw [h43, h1]
  rfl

set_option maxHeartbeats 4000000 in
theorem host5_v54 (h3 : X (Proc.devRef .tc main_v3) = val_main_v3 (F := F) x1) (h51 : X (Proc.devRef .tc main_v51) = val_main_v74 (F := F) x0 x1 x3 x4 x5) :
    StableHlo.after hostOps5 X (Proc.devRef .tc main_v54) = val_main_v77 (F := F) x0 x1 x3 x4 x5 := by
  after_results
  rw [h3, h51]
  rfl

set_option maxHeartbeats 4000000 in
theorem host5_v55 : StableHlo.after hostOps5 X (Proc.devRef .tc main_v55) = shapeCast S1x64 (X (Proc.devRef .tc main_arg6)) shapeCasts_S64_S1x64 := by
  after_results
  rfl

/-! ## The pooling's graph ids as a column, the mean's quotient, the head's bias rows -/

set_option maxHeartbeats 4000000 in
theorem host6_v57 : StableHlo.after hostOps6 X (Proc.devRef .tc main_v57) = shapeCast S100000x1 (X (Proc.devRef .tc main_arg2)) shapeCasts_S100000_S100000x1 := by
  after_results
  rfl

set_option maxHeartbeats 4000000 in
/-- The per-graph sums divided by max(count, 1). -/
theorem host7_v67 (h58 : X (Proc.devRef .tc main_v58) = val_main_v89 (F := F) x0 x1 x2 x3 x4 x5 x6) (h2 : X (Proc.devRef .tc main_arg2) = x2) :
    StableHlo.after hostOps7 X (Proc.devRef .tc main_v67) = val_main_v98 (F := F) x0 x1 x2 x3 x4 x5 x6 := by
  after_results
  rw [h58, h2]
  rfl

set_option maxHeartbeats 4000000 in
theorem host7_v68 : StableHlo.after hostOps7 X (Proc.devRef .tc main_v68) = shapeCast S1x64 (X (Proc.devRef .tc main_arg8)) shapeCasts_S64_S1x64 := by
  after_results
  rfl

set_option maxHeartbeats 4000000 in
theorem host7_v69 : StableHlo.after hostOps7 X (Proc.devRef .tc main_v69) = shapeCast S1x8 (X (Proc.devRef .tc main_arg10)) shapeCasts_S8_S1x8 := by
  after_results
  rfl

end Cert.KernelIdeal.Host

end
-- ==== Proof.Keep.lean ====
/- Which buffers pass through which stretch of @main untouched.  @main is fifteen segments (host stretches and
   kernel regions); a buffer that a segment neither writes nor has as an output array holds after it what it held
   before.  These are the reads the value proof makes of a buffer some segments after the one that produced it. -/
import proofs.«422269_j16982300688846_2_alg».proof.Proof.Gen.KernelIdeal.Frame
import Idealize.ShloMosaic.Lib.StableHlo.Run

set_option maxRecDepth 16384

noncomputable section

namespace Cert.KernelIdeal.Keep

open Cert.KernelIdeal Cert.KernelIdeal.Gen Idealize.ShloMosaic Idealize.ShloMosaic.TcCoe Idealize.SL.Sem Idealize.ShloMosaic.StableHlo
open Idealize.ShloMosaic.Pipeline (Dat Cfg Window)

variable {F : FTy → Type} [FloatOps F]
variable (m : (ℓ : Loc nD τ sig) → Buf (Elt F) ℓ) (ρ : Dev nD → PrngReg) (c : Dev nD)

local macro "writes_sub" ops:ident : tactic => `(tactic| (
  simp only [$ops:ident, List.Forall, StableHlo.nullary_writes, StableHlo.unary_writes, StableHlo.binary_writes,
    StableHlo.ternary_writes, StableHlo.quaternary_writes, StableHlo.reshape_writes, StableHlo.binaryIndexed_writes,
    Finset.singleton_subset_iff]
  repeat' apply And.intro
  all_goals exact List.mem_toFinset.mpr (List.mem_map_of_mem (by decide))))

/-- The references the host stretch 0 writes, in order. -/
def wr0 : List (Ref sig .tc) := [main_v0, main_v1, main_v2, main_v3, main_cst, main_v4, main_cst_0, main_v5, main_v6, main_v7, main_cst_1, main_v8, main_v9, main_v10, main_v11, main_v12, main_c, main_v13, main_v14, main_c_2, main_v15, main_v16, main_v17, main_v18, main_v19, main_c_3, main_v20, main_v21, main_c_4, main_v22, main_v23, main_v24, main_v25, main_v26, main_v27, main_v28]
theorem wr0_sub : (hostOps0 : List (HloOp τ sig (Elt F))).Forall fun op =>
    op.writes ⊆ (wr0.map (Proc.devRef (τ := τ) .tc)).toFinset := by
  writes_sub hostOps0
/-- A reference the stretch does not write holds after it what it held before. -/
theorem host0 (X : Valuation τ sig (Elt F)) (b : Ref sig .tc) (hb : b ∉ wr0) :
    StableHlo.after hostOps0 X (Proc.devRef .tc b) = X (Proc.devRef .tc b) :=
  StableHlo.after_of_writes_sub hostOps0 X wr0_sub hb

/-- The references the host stretch 1 writes, in order. -/
def wr1 : List (Ref sig .tc) := [main_c_5, main_v30, main_v31, main_c_6, main_v32, main_v33, main_v34, main_v35, main_v36]
theorem wr1_sub : (hostOps1 : List (HloOp τ sig (Elt F))).Forall fun op =>
    op.writes ⊆ (wr1.map (Proc.devRef (τ := τ) .tc)).toFinset := by
  writes_sub hostOps1
/-- A reference the stretch does not write holds after it what it held before. -/
theorem host1 (X : Valuation τ sig (Elt F)) (b : Ref sig .tc) (hb : b ∉ wr1) :
    StableHlo.after hostOps1 X (Proc.devRef .tc b) = X (Proc.devRef .tc b) :=
  StableHlo.after_of_writes_sub hostOps1 X wr1_sub hb

/-- The references the host stretch 2 writes, in order. -/
def wr2 : List (Ref sig .tc) := [main_cst_7, main_v38, main_v39, main_v40, main_v41]
theorem wr2_sub : (hostOps2 : List (HloOp τ sig (Elt F))).Forall fun op =>
    op.writes ⊆ (wr2.map (Proc.devRef (τ := τ) .tc)).toFinset := by
  writes_sub hostOps2
/-- A reference the stretch does not write holds after it what it held before. -/
theorem host2 (X : Valuation τ sig (Elt F)) (b : Ref sig .tc) (hb : b ∉ wr2) :
    StableHlo.after hostOps2 X (Proc.devRef .tc b) = X (Proc.devRef .tc b) :=
  StableHlo.after_of_writes_sub hostOps2 X wr2_sub hb

/-- The references the host stretch 4 writes, in order. -/
def wr4 : List (Ref sig .tc) := [main_c_8, main_v44, main_v45, main_c_9, main_v46, main_v47, main_v48, main_v49, main_v50]
theorem wr4_sub : (hostOps4 : List (HloOp τ sig (Elt F))).Forall fun op =>
    op.writes ⊆ (wr4.map (Proc.devRef (τ := τ) .tc)).toFinset := by
  writes_sub hostOps4
/-- A reference the stretch does not write holds after it what it held before. -/
theorem host4 (X : Valuation τ sig (Elt F)) (b : Ref sig .tc) (hb : b ∉ wr4) :
    StableHlo.after hostOps4 X (Proc.devRef .tc b) = X (Proc.devRef .tc b) :=
  StableHlo.after_of_writes_sub hostOps4 X wr4_sub hb

/-- The references the host stretch 5 writes, in order. -/
def wr5 : List (Ref sig .tc) := [main_cst_10, main_v52, main_v53, main_v54, main_v55]
theorem wr5_sub : (hostOps5 : List (HloOp τ sig (Elt F))).Forall fun op =>
    op.writes ⊆ (wr5.map (Proc.devRef (τ := τ) .tc)).toFinset := by
  writes_sub hostOps5
/-- A reference the stretch does not write holds after it what it held before. -/
theorem host5 (X : Valuation τ sig (Elt F)) (b : Ref sig .tc) (hb : b ∉ wr5) :
    StableHlo.after hostOps5 X (Proc.devRef .tc b) = X (Proc.devRef .tc b) :=
  StableHlo.after_of_writes_sub hostOps5 X wr5_sub hb

/-- The references the host stretch 6 writes, in order. -/
def wr6 : List (Ref sig .tc) := [main_v57]
theorem wr6_sub : (hostOps6 : List (HloOp τ sig (Elt F))).Forall fun op =>
    op.writes ⊆ (wr6.map (Proc.devRef (τ := τ) .tc)).toFinset := by
  writes_sub hostOps6
/-- A reference the stretch does not write holds after it what it held before. -/
theorem host6 (X : Valuation τ sig (Elt F)) (b : Ref sig .tc) (hb : b ∉ wr6) :
    StableHlo.after hostOps6 X (Proc.devRef .tc b) = X (Proc.devRef .tc b) :=
  StableHlo.after_of_writes_sub hostOps6 X wr6_sub hb

/-- The references the host stretch 7 writes, in order. -/
def wr7 : List (Ref sig .tc) := [main_cst_11, main_v59, main_cst_12, main_v60, main_v61, main_v62, main_cst_13, main_v63, main_v64, main_v65, main_v66, main_v67, main_v68, main_v69]
theorem wr7_sub : (hostOps7 : List (HloOp τ sig (Elt F))).Forall fun op =>
    op.writes ⊆ (wr7.map (Proc.devRef (τ := τ) .tc)).toFinset := by
  writes_sub hostOps7
/-- A reference the stretch does not write holds after it what it held before. -/
theorem host7 (X : Valuation τ sig (Elt F)) (b : Ref sig .tc) (hb : b ∉ wr7) :
    StableHlo.after hostOps7 X (Proc.devRef .tc b) = X (Proc.devRef .tc b) :=
  StableHlo.after_of_writes_sub hostOps7 X wr7_sub hb

/-! ## One segment at a time

`kN`: a buffer the segment ending at boundary `N` neither writes (a host stretch) nor has as an array (a kernel
region) holds at boundary `N` what it held at boundary `N - 1`. -/
theorem k1 (b : Ref sig .tc) (hb : b ∉ wr0) :
    W1 m ρ c (Proc.devRef .tc b) = W0 m ρ c (Proc.devRef .tc b) := host0 _ b hb
theorem k2 (b : Ref sig .tc) (hb : ∀ w, Pipeline.arrRef spec0 w ≠ b) :
    W2 m ρ c (Proc.devRef .tc b) = W1 m ρ c (Proc.devRef .tc b) := W2_of_ne m ρ c b hb
theorem k3 (b : Ref sig .tc) (hb : b ∉ wr1) :
    W3 m ρ c (Proc.devRef .tc b) = W2 m ρ c (Proc.devRef .tc b) := host1 _ b hb
theorem k4 (b : Ref sig .tc) (hb : ∀ w, Pipeline.arrRef spec1 w ≠ b) :
    W4 m ρ c (Proc.devRef .tc b) = W3 m ρ c (Proc.devRef .tc b) := W4_of_ne m ρ c b hb
theorem k5 (b : Ref sig .tc) (hb : b ∉ wr2) :
    W5 m ρ c (Proc.devRef .tc b) = W4 m ρ c (Proc.devRef .tc b) := host2 _ b hb
theorem k6 (b : Ref sig .tc) (hb : ∀ w, Pipeline.arrRef spec2 w ≠ b) :
    W6 m ρ c (Proc.devRef .tc b) = W5 m ρ c (Proc.devRef .tc b) := W6_of_ne m ρ c b hb
theorem k7 (b : Ref sig .tc) (hb : ∀ w, Pipeline.arrRef spec3 w ≠ b) :
    W7 m ρ c (Proc.devRef .tc b) = W6 m ρ c (Proc.devRef .tc b) := W7_of_ne m ρ c b hb
theorem k8 (b : Ref sig .tc) (hb : b ∉ wr4) :
    W8 m ρ c (Proc.devRef .tc b) = W7 m ρ c (Proc.devRef .tc b) := host4 _ b hb
theorem k9 (b : Ref sig .tc) (hb : ∀ w, Pipeline.arrRef spec4 w ≠ b) :
    W9 m ρ c (Proc.devRef .tc b) = W8 m ρ c (Proc.devRef .tc b) := W9_of_ne m ρ c b hb
theorem k10 (b : Ref sig .tc) (hb : b ∉ wr5) :
    W10 m ρ c (Proc.devRef .tc b) = W9 m ρ c (Proc.devRef .tc b) := host5 _ b hb
theorem k11 (b : Ref sig .tc) (hb : ∀ w, Pipeline.arrRef spec5 w ≠ b) :
    W11 m ρ c (Proc.devRef .tc b) = W10 m ρ c (Proc.devRef .tc b) := W11_of_ne m ρ c b hb
theorem k12 (b : Ref sig .tc) (hb : b ∉ wr6) :
    W12 m ρ c (Proc.devRef .tc b) = W11 m ρ c (Proc.devRef .tc b) := host6 _ b hb
theorem k13 (b : Ref sig .tc) (hb : ∀ w, Pipeline.arrRef spec6 w ≠ b) :
    W13 m ρ c (Proc.devRef .tc b) = W12 m ρ c (Proc.devRef .tc b) := W13_of_ne m ρ c b hb
theorem k14 (b : Ref sig .tc) (hb : b ∉ wr7) :
    W14 m ρ c (Proc.devRef .tc b) = W13 m ρ c (Proc.devRef .tc b) := host7 _ b hb

/-- At the launch a buffer holds the launch memory. -/
theorem to0 (b : Ref sig .tc) (hb : b ∉ wr0) :
    W1 m ρ c (Proc.devRef .tc b) = m ((c : Thread nD τ).loc b) := (k1 m ρ c b hb).trans rfl

/-! ## From boundary `N` back to boundary 1

`okN b`: no segment after the first stretch up to boundary `N` touches `b`; then (`upN`) `b` holds at boundary `N`
what the first stretch left. -/
abbrev ok1 (b : Ref sig .tc) : Prop := True
theorem up1 (b : Ref sig .tc) (h : ok1 b) : W1 m ρ c (Proc.devRef .tc b) = W1 m ρ c (Proc.devRef .tc b) := rfl
abbrev ok2 (b : Ref sig .tc) : Prop := ok1 b ∧ ∀ w, Pipeline.arrRef spec0 w ≠ b
theorem up2 (b : Ref sig .tc) (h : ok2 b) : W2 m ρ c (Proc.devRef .tc b) = W1 m ρ c (Proc.devRef .tc b) :=
  (k2 m ρ c b h.2).trans (up1 m ρ c b h.1)
abbrev ok3 (b : Ref sig .tc) : Prop := ok2 b ∧ b ∉ wr1
theorem up3 (b : Ref sig .tc) (h : ok3 b) : W3 m ρ c (Proc.devRef .tc b) = W1 m ρ c (Proc.devRef .tc b) :=
  (k3 m ρ c b h.2).trans (up2 m ρ c b h.1)
abbrev ok4 (b : Ref sig .tc) : Prop := ok3 b ∧ ∀ w, Pipeline.arrRef spec1 w ≠ b
theorem up4 (b : Ref sig .tc) (h : ok4 b) : W4 m ρ c (Proc.devRef .tc b) = W1 m ρ c (Proc.devRef .tc b) :=
  (k4 m ρ c b h.2).trans (up3 m ρ c b h.1)
abbrev ok5 (b : Ref sig .tc) : Prop := ok4 b ∧ b ∉ wr2
theorem up5 (b : Ref sig .tc) (h : ok5 b) : W5 m ρ c (Proc.devRef .tc b) = W1 m ρ c (Proc.devRef .tc b) :=
  (k5 m ρ c b h.2).trans (up4 m ρ c b h.1)
abbrev ok6 (b : Ref sig .tc) : Prop := ok5 b ∧ ∀ w, Pipeline.arrRef spec2 w ≠ b
theorem up6 (b : Ref sig .tc) (h : ok6 b) : W6 m ρ c (Proc.devRef .tc b) = W1 m ρ c (Proc.devRef .tc b) :=
  (k6 m ρ c b h.2).trans (up5 m ρ c b h.1)
abbrev ok7 (b : Ref sig .tc) : Prop := ok6 b ∧ ∀ w, Pipeline.arrRef spec3 w ≠ b
theorem up7 (b : Ref sig .tc) (h : ok7 b) : W7 m ρ c (Proc.devRef .tc b) = W1 m ρ c (Proc.devRef .tc b) :=
  (k7 m ρ c b h.2).trans (up6 m ρ c b h.1)
abbrev ok8 (b : Ref sig .tc) : Prop := ok7 b ∧ b ∉ wr4
theorem up8 (b : Ref sig .tc) (h : ok8 b) : W8 m ρ c (Proc.devRef .tc b) = W1 m ρ c (Proc.devRef .tc b) :=
  (k8 m ρ c b h.2).trans (up7 m ρ c b h.1)
abbrev ok9 (b : Ref sig .tc) : Prop := ok8 b ∧ ∀ w, Pipeline.arrRef spec4 w ≠ b
theorem up9 (b : Ref sig .tc) (h : ok9 b) : W9 m ρ c (Proc.devRef .tc b) = W1 m ρ c (Proc.devRef .tc b) :=
  (k9 m ρ c b h.2).trans (up8 m ρ c b h.1)
abbrev ok10 (b : Ref sig .tc) : Prop := ok9 b ∧ b ∉ wr5
theorem up10 (b : Ref sig .tc) (h : ok10 b) : W10 m ρ c (Proc.devRef .tc b) = W1 m ρ c (Proc.devRef .tc b) :=
  (k10 m ρ c b h.2).trans (up9 m ρ c b h.1)
abbrev ok11 (b : Ref sig .tc) : Prop := ok10 b ∧ ∀ w, Pipeline.arrRef spec5 w ≠ b
theorem up11 (b : Ref sig .tc) (h : ok11 b) : W11 m ρ c (Proc.devRef .tc b) = W1 m ρ c (Proc.devRef .tc b) :=
  (k11 m ρ c b h.2).trans (up10 m ρ c b h.1)
abbrev ok12 (b : Ref sig .tc) : Prop := ok11 b ∧ b ∉ wr6
theorem up12 (b : Ref sig .tc) (h : ok12 b) : W12 m ρ c (Proc.devRef .tc b) = W1 m ρ c (Proc.devRef .tc b) :=
  (k12 m ρ c b h.2).trans (up11 m ρ c b h.1)
abbrev ok13 (b : Ref sig .tc) : Prop := ok12 b ∧ ∀ w, Pipeline.arrRef spec6 w ≠ b
theorem up13 (b : Ref sig .tc) (h : ok13 b) : W13 m ρ c (Proc.devRef .tc b) = W1 m ρ c (Proc.devRef .tc b) :=
  (k13 m ρ c b h.2).trans (up12 m ρ c b h.1)
abbrev ok14 (b : Ref sig .tc) : Prop := ok13 b ∧ b ∉ wr7
theorem up14 (b : Ref sig .tc) (h : ok14 b) : W14 m ρ c (Proc.devRef .tc b) = W1 m ρ c (Proc.devRef .tc b) :=
  (k14 m ρ c b h.2).trans (up13 m ρ c b h.1)

/-! ## The two buffers a region reads on the way: an input array holds at the region's exit what it held at entry -/
theorem in1_v28 : W4 m ρ c (Proc.devRef .tc main_v28) = W3 m ρ c (Proc.devRef .tc main_v28) :=
  (W4_arr m ρ c 1).trans (((dat1 (V3 m ρ) c).arrAt_in 1 rfl _).trans (A_eq1 (V3 m ρ) c 1))
theorem in2_v12 : W6 m ρ c (Proc.devRef .tc main_v12) = W5 m ρ c (Proc.devRef .tc main_v12) :=
  (W6_arr m ρ c 2).trans (((dat2 (V5 m ρ) c).arrAt_in 2 rfl _).trans (A_eq2 (V5 m ρ) c 2))

/-! Region 0 reads the two arguments as launched. -/
theorem r0_arg0 : V1 m ρ c main_arg0 = m ((c : Thread nD τ).loc main_arg0) :=
  to0 m ρ c main_arg0 (by decide)
theorem r0_arg3 : V1 m ρ c main_arg3 = m ((c : Thread nD τ).loc main_arg3) :=
  to0 m ρ c main_arg3 (by decide)

/-! The first gather reads the row indices the first stretch made. -/
theorem h1_v1 : W2 m ρ c (Proc.devRef .tc main_v1) = W1 m ρ c (Proc.devRef .tc main_v1) :=
  up2 m ρ c main_v1 (by decide)

/-! Region 1 reads the edge coefficients the first stretch made. -/
theorem r1_v28 : V3 m ρ c main_v28 = W1 m ρ c (Proc.devRef .tc main_v28) :=
  up3 m ρ c main_v28 (by decide)

/-! The first scatter-add reads the column indices and, for the bias row, the argument. -/
theorem h2_v3 : W4 m ρ c (Proc.devRef .tc main_v3) = W1 m ρ c (Proc.devRef .tc main_v3) :=
  up4 m ρ c main_v3 (by decide)
theorem h2_arg4 : W4 m ρ c (Proc.devRef .tc main_arg4) = m ((c : Thread nD τ).loc main_arg4) :=
  (up4 m ρ c main_arg4 (by decide)).trans (to0 m ρ c main_arg4 (by decide))

/-! Region 2 reads region 0's product and the squared coefficients. -/
theorem r2_v29 : V5 m ρ c main_v29 = W2 m ρ c (Proc.devRef .tc main_v29) :=
  (k5 m ρ c main_v29 (by decide)).trans ((k4 m ρ c main_v29 (by decide)).trans (k3 m ρ c main_v29 (by decide)))
theorem r2_v12 : V5 m ρ c main_v12 = W1 m ρ c (Proc.devRef .tc main_v12) :=
  up5 m ρ c main_v12 (by decide)

/-! Region 3 reads the second weight matrix as launched. -/
theorem r3_arg5 : V6 m ρ c main_arg5 = m ((c : Thread nD τ).loc main_arg5) :=
  (up6 m ρ c main_arg5 (by decide)).trans (to0 m ρ c main_arg5 (by decide))

/-! The second gather. -/
theorem h4_v1 : W7 m ρ c (Proc.devRef .tc main_v1) = W1 m ρ c (Proc.devRef .tc main_v1) :=
  up7 m ρ c main_v1 (by decide)

/-! Region 4. -/
theorem r4_v28 : V8 m ρ c main_v28 = W1 m ρ c (Proc.devRef .tc main_v28) :=
  (k8 m ρ c main_v28 (by decide)).trans ((k7 m ρ c main_v28 (by decide)).trans ((k6 m ρ c main_v28 (by decide)).trans ((k5 m ρ c main_v28 (by decide)).trans ((in1_v28 m ρ c).trans (up3 m ρ c main_v28 (by decide))))))

/-! The second scatter-add and bias row. -/
theorem h5_v3 : W9 m ρ c (Proc.devRef .tc main_v3) = W1 m ρ c (Proc.devRef .tc main_v3) :=
  up9 m ρ c main_v3 (by decide)
theorem h5_arg6 : W9 m ρ c (Proc.devRef .tc main_arg6) = m ((c : Thread nD τ).loc main_arg6) :=
  (up9 m ρ c main_arg6 (by decide)).trans (to0 m ρ c main_arg6 (by decide))

/-! Region 5. -/
theorem r5_v43 : V10 m ρ c main_v43 = W7 m ρ c (Proc.devRef .tc main_v43) :=
  (k10 m ρ c main_v43 (by decide)).trans ((k9 m ρ c main_v43 (by decide)).trans (k8 m ρ c main_v43 (by decide)))
theorem r5_v12 : V10 m ρ c main_v12 = W1 m ρ c (Proc.devRef .tc main_v12) :=
  (k10 m ρ c main_v12 (by decide)).trans ((k9 m ρ c main_v12 (by decide)).trans ((k8 m ρ c main_v12 (by decide)).trans ((k7 m ρ c main_v12 (by decide)).trans ((in2_v12 m ρ c).trans (up5 m ρ c main_v12 (by decide))))))

/-! The graph ids, as launched, when they are made a column. -/
theorem h6_arg2 : W11 m ρ c (Proc.devRef .tc main_arg2) = m ((c : Thread nD τ).loc main_arg2) :=
  (up11 m ρ c main_arg2 (by decide)).trans (to0 m ρ c main_arg2 (by decide))

/-! Region 6 reads region 5's result. -/
theorem r6_v56 : V12 m ρ c main_v56 = W11 m ρ c (Proc.devRef .tc main_v56) :=
  k12 m ρ c main_v56 (by decide)

/-! The last stretch. -/
theorem h7_arg2 : W13 m ρ c (Proc.devRef .tc main_arg2) = m ((c : Thread nD τ).loc main_arg2) :=
  (up13 m ρ c main_arg2 (by decide)).trans (to0 m ρ c main_arg2 (by decide))
theorem h7_arg8 : W13 m ρ c (Proc.devRef .tc main_arg8) = m ((c : Thread nD τ).loc main_arg8) :=
  (up13 m ρ c main_arg8 (by decide)).trans (to0 m ρ c main_arg8 (by decide))
theorem h7_arg10 : W13 m ρ c (Proc.devRef .tc main_arg10) = m ((c : Thread nD τ).loc main_arg10) :=
  (up13 m ρ c main_arg10 (by decide)).trans (to0 m ρ c main_arg10 (by decide))

/-! Region 7 reads the head's weights as launched. -/
theorem r7_arg7 : V14 m ρ c main_arg7 = m ((c : Thread nD τ).loc main_arg7) :=
  (up14 m ρ c main_arg7 (by decide)).trans (to0 m ρ c main_arg7 (by decide))
theorem r7_arg9 : V14 m ρ c main_arg9 = m ((c : Thread nD τ).loc main_arg9) :=
  (up14 m ρ c main_arg9 (by decide)).trans (to0 m ρ c main_arg9 (by decide))

end Cert.KernelIdeal.Keep

end
-- ==== Proof.Reshape.lean ====
/- Adding a unit axis to a one-axis array is the same array whether it is written as a reshape or as a
   broadcast into the longer shape: both read the operand at the one coordinate that is not on the unit axis. -/
import proofs.«422269_j16982300688846_2_alg».proof.Proof.Gen.KernelIdeal
import proofs.«422269_j16982300688846_2_alg».proof.Proof.Gen.ReferenceIdeal
import Idealize.ShloMosaic.Lib.Pipeline.Value
import Idealize.ShloMosaic.Lib.ValueIdx

noncomputable section

namespace Cert.Reshape

open Idealize.ShloMosaic

variable {α : Type}

/-- A trailing unit axis, any length: at (i, u) the reshape reads the operand at the entry whose row-major position is
    i * 1 + u = i (the unit coordinate u is 0), and the broadcast along axis 0 reads it at coordinate i as well
    (when the length is itself 1 the broadcast reads coordinate 0, which is then i). -/
theorem col {a : ℕ} (x : (⟨1, ![a]⟩ : Shape).Idx → α)
    (hs : (⟨1, ![a]⟩ : Shape).ShapeCasts ⟨2, ![a, 1]⟩)
    (hb : (⟨1, ![a]⟩ : Shape).BroadcastsInDim ⟨2, ![a, 1]⟩ (![0] : Fin 1 → Fin 2)) :
    shapeCast ⟨2, ![a, 1]⟩ x hs = broadcastInDim ⟨2, ![a, 1]⟩ (![0] : Fin 1 → Fin 2) hb x := by
  funext j
  obtain ⟨i, u, rfl⟩ : ∃ (i : Fin a) (u : Fin 1), j = ValueIdx.ix2 i u := ⟨j 0, j 1, ValueIdx.eq_ix2 j⟩
  have hu : u.val = 0 := by omega
  have hi : i.val < a := i.isLt
  refine (shapeCast_apply x hs _ (ValueIdx.ix1 i) ?_).trans (broadcastInDim_apply _ hb x _ (ValueIdx.ix1 i) ?_).symm
  · rw [Shape.rowMajor_val_two, Shape.rowMajor_val_one]
    show i.val = i.val * 1 + u.val
    omega
  · intro b
    match b with
    | ⟨0, _⟩ =>
      show i.val = if a = 1 then 0 else i.val
      split <;> omega

/-- A leading unit axis, any length: at (u, i) the reshape reads the operand at row-major position u * a + i = i,
    and the broadcast along axis 1 reads it at coordinate i as well. -/
theorem row {a : ℕ} (x : (⟨1, ![a]⟩ : Shape).Idx → α)
    (hs : (⟨1, ![a]⟩ : Shape).ShapeCasts ⟨2, ![1, a]⟩)
    (hb : (⟨1, ![a]⟩ : Shape).BroadcastsInDim ⟨2, ![1, a]⟩ (![1] : Fin 1 → Fin 2)) :
    shapeCast ⟨2, ![1, a]⟩ x hs = broadcastInDim ⟨2, ![1, a]⟩ (![1] : Fin 1 → Fin 2) hb x := by
  funext j
  obtain ⟨u, i, rfl⟩ : ∃ (u : Fin 1) (i : Fin a), j = ValueIdx.ix2 u i := ⟨j 0, j 1, ValueIdx.eq_ix2 j⟩
  have hu : u.val = 0 := by omega
  have hi : i.val < a := i.isLt
  refine (shapeCast_apply x hs _ (ValueIdx.ix1 i) ?_).trans (broadcastInDim_apply _ hb x _ (ValueIdx.ix1 i) ?_).symm
  · rw [Shape.rowMajor_val_two, Shape.rowMajor_val_one]
    show i.val = u.val * a + i.val
    rw [hu, Nat.zero_mul, Nat.zero_add]
  · intro b
    match b with
    | ⟨0, _⟩ =>
      show i.val = if a = 1 then 0 else i.val
      split <;> omega

/-- [100000] to [100000, 1]. -/
theorem col_N (x : Cert.KernelIdeal.S100000.Idx → α) :
    shapeCast Cert.KernelIdeal.S100000x1 x Cert.KernelIdeal.Gen.shapeCasts_S100000_S100000x1
      = broadcastInDim Cert.ReferenceIdeal.S100000x1 ![0] Cert.ReferenceIdeal.Gen.bcast_S100000_S100000x1_0 x := by
  exact col x _ _

/-- [1600000] to [1600000, 1]. -/
theorem col_E (x : Cert.KernelIdeal.S1600000.Idx → α) :
    shapeCast Cert.KernelIdeal.S1600000x1 x Cert.KernelIdeal.Gen.shapeCasts_S1600000_S1600000x1
      = broadcastInDim Cert.ReferenceIdeal.S1600000x1 ![0] Cert.ReferenceIdeal.Gen.bcast_S1600000_S1600000x1_0 x := by
  exact col x _ _

/-- [64] to [1, 64]. -/
theorem row_64 (x : Cert.KernelIdeal.S64.Idx → α) :
    shapeCast Cert.KernelIdeal.S1x64 x Cert.KernelIdeal.Gen.shapeCasts_S64_S1x64
      = broadcastInDim Cert.ReferenceIdeal.S1x64 ![1] Cert.ReferenceIdeal.Gen.bcast_S64_S1x64_1 x := by
  exact row x _ _

/-- [8] to [1, 8]. -/
theorem row_8 (x : Cert.KernelIdeal.S8.Idx → α) :
    shapeCast Cert.KernelIdeal.S1x8 x Cert.KernelIdeal.Gen.shapeCasts_S8_S1x8
      = broadcastInDim Cert.ReferenceIdeal.S1x8 ![1] Cert.ReferenceIdeal.Gen.bcast_S8_S1x8_1 x := by
  exact row x _ _

end Cert.Reshape

end
-- ==== Proof.Spec.lean ====
/-
  The five array functions this program is built from, each written once as a function of whole arrays, in the
  host's vocabulary: a row-by-matrix product, a per-row scaling, the node update
  max(agg + h * d2 + b, 0), the per-graph sum of node rows (a scatter-add of rows by graph id), and the head
  (two affine layers with a max(., 0) between, then a row-wise log-softmax).  Both programs are compositions of
  these with the same gathers and scatter-adds between them.
-/
import proofs.«422269_j16982300688846_2_alg».proof.Proof.Gen.ReferenceIdeal
import Idealize.ShloMosaic.PureOps.Ideal

noncomputable section

namespace Cert.Spec

open Cert.ReferenceIdeal Cert.ReferenceIdeal.Gen Idealize.ShloMosaic

variable {F : FTy → Type} [FloatOps F]

/-- Rows times a 64 x 64 matrix. -/
def lin (x : FVec F S100000x64 .f32) (w : FVec F S64x64 .f32) : FVec F S100000x64 .f32 :=
  Host.dotGeneral dot_S100000x64_S64x64_S100000x64_1_0_0_1_n_n none x w

/-- Every row of `hr` times that row's scalar. -/
def scale (hr : FVec F S1600000x64 .f32) (nrm : FVec F S1600000x1 .f32) : FVec F S1600000x64 .f32 :=
  mulf hr (broadcastInDim S1600000x64 ![0, 1] bcast_S1600000x1_S1600000x64_0_1 nrm)

/-- The node update: max(agg + h * d2 + b, 0), `d2` one scalar per row and `b` one per column. -/
def fin (agg h : FVec F S100000x64 .f32) (d2 : FVec F S100000x1 .f32) (b : FVec F S1x64 .f32) : FVec F S100000x64 .f32 :=
  maximumf
    (addf (addf agg (mulf h (broadcastInDim S100000x64 ![0, 1] bcast_S100000x1_S100000x64_0_1 d2)))
      (broadcastInDim S100000x64 ![0, 1] bcast_S1x64_S100000x64_0_1 b))
    (broadcastInDim S100000x64 ![] bcast_S_S100000x64 (constant S_ .f32 0x00000000#32))

/-- Row `g` of the result is the sum of the rows of `h` whose graph id is `g`. -/
def pool (h : FVec F S100000x64 .f32) (bt : IVec S100000x1 32) : FVec F S64x64 .f32 :=
  Host.scatterAdd scatter_S64x64_S100000x1_S100000x64_1_0_0_1
    (broadcastInDim S64x64 ![] bcast_S_S64x64 (constant S_ .f32 0x00000000#32)) bt h

/-- The head's hidden layer: max(p W1 + b1, 0). -/
def hidden (p w1 : FVec F S64x64 .f32) (b1 : FVec F S1x64 .f32) : FVec F S64x64 .f32 :=
  maximumf
    (addf (Host.dotGeneral dot_S64x64_S64x64_S64x64_1_0_0_1_n_n none p w1)
      (broadcastInDim S64x64 ![0, 1] bcast_S1x64_S64x64_0_1 b1))
    (broadcastInDim S64x64 ![] bcast_S_S64x64 (constant S_ .f32 0x00000000#32))

/-- The head's logits: z W2 + b2. -/
def logits (z : FVec F S64x64 .f32) (w2 : FVec F S64x8 .f32) (b2 : FVec F S1x8 .f32) : FVec F S64x8 .f32 :=
  addf (Host.dotGeneral dot_S64x64_S64x8_S64x8_1_0_0_1_n_n none z w2)
    (broadcastInDim S64x8 ![0, 1] bcast_S1x8_S64x8_0_1 b2)

/-- A row's entries less the row's maximum. -/
def shifted (o : FVec F S64x8 .f32) : FVec F S64x8 .f32 :=
  subf o (broadcastInDim S64x8 ![0, 1] bcast_S64x1_S64x8_0_1 (broadcastInDim S64x1 ![0] bcast_S64_S64x1_0
    (maximumf (broadcastInDim S64 ![] bcast_S_S64 (constant S_ .f32 0xFF800000#32))
      (Host.reduce FloatOps.maximumf o (constant S_ .f32 0xFF800000#32) reducesTo_S64x8_S64_d1 h_S_))))

/-- Row-wise log-softmax: the shifted row less the logarithm of the sum of its exponentials. -/
def logSoftmax (o : FVec F S64x8 .f32) : FVec F S64x8 .f32 :=
  subf (shifted o) (broadcastInDim S64x8 ![0, 1] bcast_S64x1_S64x8_0_1 (Host.log (broadcastInDim S64x1 ![0] bcast_S64_S64x1_0
    (Host.reduceAdd (Host.exp (shifted o)) (constant S_ .f32 0x00000000#32) reducesTo_S64x8_S64_d1 h_S_))))

/-- The whole head. -/
def head (p w1 : FVec F S64x64 .f32) (b1 : FVec F S1x64 .f32) (w2 : FVec F S64x8 .f32) (b2 : FVec F S1x8 .f32) : FVec F S64x8 .f32 :=
  logSoftmax (logits (hidden p w1 b1) w2 b2)

end Cert.Spec

end
-- ==== Proof.RefSpec.lean ====
/- The reference program's stages, grouped: each of the reference's big stages is one of the five array functions
   of the specification applied to earlier stages, and the second layer recomputes the edge coefficients and the
   squared degree factors of the first with the same operations. -/
import proofs.«422269_j16982300688846_2_alg».proof.Proof.Gen.ReferenceIdeal.Read
import proofs.«422269_j16982300688846_2_alg».proof.Proof.Spec

set_option maxRecDepth 16384

noncomputable section

namespace Cert.RefSpec

open Cert.ReferenceIdeal Cert.ReferenceIdeal.Gen Cert.ReferenceIdeal.Read Idealize.ShloMosaic

variable {F : FTy → Type} [FloatOps F]
variable (x0 : (⟨S100000x64, .f32⟩ : BufTy).Contents (Elt F)) (x1 : (⟨S2x1600000, .i32⟩ : BufTy).Contents (Elt F)) (x2 : (⟨S100000, .i32⟩ : BufTy).Contents (Elt F))
  (x3 : (⟨S64x64, .f32⟩ : BufTy).Contents (Elt F)) (x4 : (⟨S64, .f32⟩ : BufTy).Contents (Elt F)) (x5 : (⟨S64x64, .f32⟩ : BufTy).Contents (Elt F)) (x6 : (⟨S64, .f32⟩ : BufTy).Contents (Elt F))
  (x7 : (⟨S64x64, .f32⟩ : BufTy).Contents (Elt F)) (x8 : (⟨S64, .f32⟩ : BufTy).Contents (Elt F)) (x9 : (⟨S64x8, .f32⟩ : BufTy).Contents (Elt F)) (x10 : (⟨S8, .f32⟩ : BufTy).Contents (Elt F))

theorem v11_eq : val_main_v11 (F := F) x0 x3 = Cert.Spec.lin x0 x3 := by
  unfold val_main_v11 Cert.Spec.lin
  rfl

theorem v36_eq : val_main_v36 (F := F) x0 x1 x3 = Cert.Spec.scale (val_main_v33 (F := F) x0 x1 x3) (val_main_v34 (F := F) x1) := by
  unfold val_main_v36 val_main_v35 Cert.Spec.scale
  rfl

theorem v48_eq : val_main_v48 (F := F) x0 x1 x3 x4
    = Cert.Spec.fin (val_main_v39 (F := F) x0 x1 x3) (val_main_v11 (F := F) x0 x3) (val_main_v41 (F := F) x1) (val_main_v45 (F := F) x4) := by
  unfold val_main_v48 val_main_v47 val_main_v44 val_main_v43 val_main_v42 val_main_v46 val_main_call0_v0 val_main_call0_cst
    Cert.Spec.fin
  rfl

theorem v49_eq : val_main_v49 (F := F) x0 x1 x3 x4 x5 = Cert.Spec.lin (val_main_v48 (F := F) x0 x1 x3 x4) x5 := by
  unfold val_main_v49 Cert.Spec.lin
  rfl

/-- The second layer's gather indices are the first layer's. -/
theorem v70_eq : val_main_v70 (F := F) x1 = val_main_v32 (F := F) x1 := by
  unfold val_main_v70 val_main_v69 val_main_v66 val_main_v65 val_main_c_12 val_main_v68 val_main_v67 val_main_c_13
    val_main_v32 val_main_v31 val_main_v28 val_main_v27 val_main_c_5 val_main_v30 val_main_v29 val_main_c_6
  rfl

/-- The second layer's edge coefficients are the first layer's. -/
theorem v72_eq : val_main_v72 (F := F) x1 = val_main_v34 (F := F) x1 := by
  unfold val_main_v72 val_main_v64
    val_main_v56 val_main_v55 val_main_v54 val_main_v51 val_main_v50 val_main_c_8 val_main_v53 val_main_v52 val_main_c_9
    val_main_v63 val_main_v62 val_main_v61 val_main_v58 val_main_v57 val_main_c_10 val_main_v60 val_main_v59 val_main_c_11
    val_main_v34 val_main_v26
    val_main_v18 val_main_v17 val_main_v16 val_main_v13 val_main_v12 val_main_c val_main_v15 val_main_v14 val_main_c_2
    val_main_v25 val_main_v24 val_main_v23 val_main_v20 val_main_v19 val_main_c_3 val_main_v22 val_main_v21 val_main_c_4
  rfl

theorem v74_eq : val_main_v74 (F := F) x0 x1 x3 x4 x5 = Cert.Spec.scale (val_main_v71 (F := F) x0 x1 x3 x4 x5) (val_main_v34 (F := F) x1) := by
  unfold val_main_v74 val_main_v73 Cert.Spec.scale
  rw [v72_eq]

/-- The second layer's squared degree factors are the first layer's. -/
theorem v79_eq : val_main_v79 (F := F) x1 = val_main_v41 (F := F) x1 := by
  unfold val_main_v79 val_main_v78 val_main_v41 val_main_v40
  rfl

theorem v86_eq : val_main_v86 (F := F) x0 x1 x3 x4 x5 x6
    = Cert.Spec.fin (val_main_v77 (F := F) x0 x1 x3 x4 x5) (val_main_v49 (F := F) x0 x1 x3 x4 x5) (val_main_v41 (F := F) x1) (val_main_v83 (F := F) x6) := by
  unfold val_main_v86 val_main_v85 val_main_v82 val_main_v81 val_main_v80 val_main_v84 val_main_call1_v0 val_main_call1_cst
    Cert.Spec.fin
  rw [v79_eq]

theorem v89_eq : val_main_v89 (F := F) x0 x1 x2 x3 x4 x5 x6 = Cert.Spec.pool (val_main_v86 (F := F) x0 x1 x3 x4 x5 x6) (val_main_v88 (F := F) x2) := by
  unfold val_main_v89 val_main_v87 val_main_cst_15 Cert.Spec.pool
  rfl

theorem v108_eq : val_main_v108 (F := F) x0 x1 x2 x3 x4 x5 x6 x7 x8 x9 x10
    = Cert.Spec.head (val_main_v98 (F := F) x0 x1 x2 x3 x4 x5 x6) x7 (val_main_v100 (F := F) x8) x9 (val_main_v105 (F := F) x10) := by
  unfold val_main_v108 val_main_call3_v10 val_main_call3_v9 val_main_call3_v8 val_main_call3_v7 val_main_call3_cst_1 val_main_call3_v6
    val_main_call3_v5 val_main_call3_v4 val_main_call3_v3 val_main_call3_v2 val_main_call3_v1 val_main_call3_cst_0
    val_main_call3_v0 val_main_call3_cst
    val_main_v107 val_main_v106 val_main_v104 val_main_v103 val_main_call2_v0 val_main_call2_cst val_main_v102 val_main_v101 val_main_v99
    Cert.Spec.head Cert.Spec.logSoftmax Cert.Spec.shifted Cert.Spec.logits Cert.Spec.hidden
  rfl

end Cert.RefSpec

end
-- ==== Proof.RegLin.lean ====
/- The two row-by-matrix regions: after all ten tiles are written back, the output array is the product of the
   whole input rows with the weight matrix. -/
import proofs.«422269_j16982300688846_2_alg».proof.Proof.Gen.KernelIdeal.Frame
import proofs.«422269_j16982300688846_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegLin
open Cert.KernelIdeal Cert.KernelIdeal.Gen Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Row `i 0`, column `k` of the tall operand. -/
abbrev lrow {n : Nat} (i : (⟨2, ![n, 64]⟩ : Shape).Idx) (k : Fin 64) : (⟨2, ![n, 64]⟩ : Shape).Idx := fun a => match a with
  | ⟨0, _⟩ => ⟨(i 0).val, (i 0).isLt⟩
  | ⟨1, _⟩ => ⟨k.val, k.isLt⟩
/-- Row `k`, column `i 1` of the matrix. -/
abbrev rcol {n : Nat} (i : (⟨2, ![n, 64]⟩ : Shape).Idx) (k : Fin 64) : S64x64.Idx := fun a => match a with
  | ⟨0, _⟩ => ⟨k.val, k.isLt⟩
  | ⟨1, _⟩ => ⟨(i 1).val, (i 1).isLt⟩

/-! The operand indices of the two products, axis by axis. -/

theorem whole_l0 (i : Cert.ReferenceIdeal.S100000x64.Idx) (q : Cert.ReferenceIdeal.dot_S100000x64_S64x64_S100000x64_1_0_0_1_n_n.contr.Idx) : (Cert.ReferenceIdeal.dot_S100000x64_S64x64_S100000x64_1_0_0_1_n_n.lhsIdx i q 0).val = (i 0).val := by
  unfold DotDims.lhsIdx
  rw [dif_neg (show ¬(0 : Fin Cert.ReferenceIdeal.S100000x64.rank) ∈ Cert.ReferenceIdeal.dot_S100000x64_S64x64_S100000x64_1_0_0_1_n_n.lhsBatch by decide), dif_pos (show (0 : Fin Cert.ReferenceIdeal.S100000x64.rank) ∈ Cert.ReferenceIdeal.dot_S100000x64_S64x64_S100000x64_1_0_0_1_n_n.lhsNonContracting by decide)]
  rfl
theorem whole_l1 (i : Cert.ReferenceIdeal.S100000x64.Idx) (q : Cert.ReferenceIdeal.dot_S100000x64_S64x64_S100000x64_1_0_0_1_n_n.contr.Idx) : (Cert.ReferenceIdeal.dot_S100000x64_S64x64_S100000x64_1_0_0_1_n_n.lhsIdx i q 1).val = (q ⟨0, by decide⟩).val :=
  Cert.ReferenceIdeal.dot_S100000x64_S64x64_S100000x64_1_0_0_1_n_n.lhsIdx_val_of_single rfl i q
theorem whole_r0 (i : Cert.ReferenceIdeal.S100000x64.Idx) (q : Cert.ReferenceIdeal.dot_S100000x64_S64x64_S100000x64_1_0_0_1_n_n.contr.Idx) : (Cert.ReferenceIdeal.dot_S100000x64_S64x64_S100000x64_1_0_0_1_n_n.rhsIdx i q 0).val = (q ⟨0, by decide⟩).val :=
  Cert.ReferenceIdeal.dot_S100000x64_S64x64_S100000x64_1_0_0_1_n_n.rhsIdx_val_of_single rfl i q
theorem whole_r1 (i : Cert.ReferenceIdeal.S100000x64.Idx) (q : Cert.ReferenceIdeal.dot_S100000x64_S64x64_S100000x64_1_0_0_1_n_n.contr.Idx) : (Cert.ReferenceIdeal.dot_S100000x64_S64x64_S100000x64_1_0_0_1_n_n.rhsIdx i q 1).val = (i 1).val := by
  unfold DotDims.rhsIdx
  rw [dif_neg (show ¬(1 : Fin Cert.ReferenceIdeal.S64x64.rank) ∈ Cert.ReferenceIdeal.dot_S100000x64_S64x64_S100000x64_1_0_0_1_n_n.rhsBatch by decide), dif_pos (show (1 : Fin Cert.ReferenceIdeal.S64x64.rank) ∈ Cert.ReferenceIdeal.dot_S100000x64_S64x64_S100000x64_1_0_0_1_n_n.rhsNonContracting by decide)]
  rfl

theorem tile_l0 (i : S10000x64.Idx) (q : dot_S10000x64_S64x64_S10000x64_1_0_0_1_n_n.contr.Idx) : (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem tile_l1 (i : S10000x64.Idx) (q : dot_S10000x64_S64x64_S10000x64_1_0_0_1_n_n.contr.Idx) : (dot_S10000x64_S64x64_S10000x64_1_0_0_1_n_n.lhsIdx i q 1).val = (q ⟨0, by decide⟩).val :=
  dot_S10000x64_S64x64_S10000x64_1_0_0_1_n_n.lhsIdx_val_of_single rfl i q
theorem tile_r0 (i : S10000x64.Idx) (q : dot_S10000x64_S64x64_S10000x64_1_0_0_1_n_n.contr.Idx) : (dot_S10000x64_S64x64_S10000x64_1_0_0_1_n_n.rhsIdx i q 0).val = (q ⟨0, by decide⟩).val :=
  dot_S10000x64_S64x64_S10000x64_1_0_0_1_n_n.rhsIdx_val_of_single rfl i q
theorem tile_r1 (i : S10000x64.Idx) (q : dot_S10000x64_S64x64_S10000x64_1_0_0_1_n_n.contr.Idx) : (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- The whole product at an element: the sum over `k` of x[i, k] * w[k, j]. -/
theorem lin_apply (x : FVec Ideal Cert.ReferenceIdeal.S100000x64 .f32) (w : FVec Ideal Cert.ReferenceIdeal.S64x64 .f32) (i : Cert.ReferenceIdeal.S100000x64.Idx) :
    Cert.Spec.lin (F := Ideal) x w i = ∑ k : Fin 64, x (lrow i k) * w (rcol i k) := by
  unfold Cert.Spec.lin
  simp only [Host.dotGeneral]
  rw [Ideal.dotGeneral_apply, ← Equiv.sum_comp (ValueIdx.contrEquiv1 Cert.ReferenceIdeal.dot_S100000x64_S64x64_S100000x64_1_0_0_1_n_n 64 rfl rfl).symm]
  refine Finset.sum_congr rfl fun k _ => ?_
  have hk := ValueIdx.contrEquiv1_symm_val Cert.ReferenceIdeal.dot_S100000x64_S64x64_S100000x64_1_0_0_1_n_n 64 rfl rfl k
  have el : Cert.ReferenceIdeal.dot_S100000x64_S64x64_S100000x64_1_0_0_1_n_n.lhsIdx i ((ValueIdx.contrEquiv1 Cert.ReferenceIdeal.dot_S100000x64_S64x64_S100000x64_1_0_0_1_n_n 64 rfl rfl).symm k) = lrow i k := funext fun a => Fin.ext (by
    match a with
    | ⟨0, _⟩ => exact whole_l0 _ _
    | ⟨1, _⟩ => exact (whole_l1 _ _).trans hk)
  have er : Cert.ReferenceIdeal.dot_S100000x64_S64x64_S100000x64_1_0_0_1_n_n.rhsIdx i ((ValueIdx.contrEquiv1 Cert.ReferenceIdeal.dot_S100000x64_S64x64_S100000x64_1_0_0_1_n_n 64 rfl rfl).symm k) = rcol i k := funext fun a => Fin.ext (by
    match a with
    | ⟨0, _⟩ => exact (whole_r0 _ _).trans hk
    | ⟨1, _⟩ => exact whole_r1 _ _)
  rw [el, er]

/-- One block's product at an element: the same sum over the block's rows. -/
theorem blockmul_apply (x : FVec Ideal S10000x64 .f32) (w : FVec Ideal S64x64 .f32) (j : S10000x64.Idx) :
    matmul dot_S10000x64_S64x64_S10000x64_1_0_0_1_n_n none (truncf .bf16 x bitsLt_bf16_f32) (truncf .bf16 w bitsLt_bf16_f32) (constant S10000x64 .f32 0x00000000#32) j
      = ∑ k : Fin 64, x (lrow j k) * w (rcol j k) := by
  simp only [matmul]
  rw [Ideal.matmul_constant_zero_apply, ← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx j ((ValueIdx.contrEquiv1 dot_S10000x64_S64x64_S10000x64_1_0_0_1_n_n 64 rfl rfl).symm k) = lrow j k := funext fun a => Fin.ext (by
    match a with
    | ⟨0, _⟩ => exact tile_l0 _ _
    | ⟨1, _⟩ => exact (tile_l1 _ _).trans hk)
  have er : dot_S10000x64_S64x64_S10000x64_1_0_0_1_n_n.rhsIdx j ((ValueIdx.contrEquiv1 dot_S10000x64_S64x64_S10000x64_1_0_0_1_n_n 64 rfl rfl).symm k) = rcol j k := funext fun a => Fin.ext (by
    match a with
    | ⟨0, _⟩ => exact (tile_r0 _ _).trans hk
    | ⟨1, _⟩ => exact tile_r1 _ _)
  rw [el, er]
  rfl

/-- Region 0's payload at an element. -/
theorem pay0_apply (x : Vec Ideal S10000x64 .f32) (w : Vec Ideal S64x64 .f32) (j : S10000x64.Idx) :
    k0_pay1 x w j = ∑ k : Fin 64, x (lrow j k) * w (rcol j k) := blockmul_apply x w j

/-- Region 3's payload at an element. -/
theorem pay3_apply (x : Vec Ideal S10000x64 .f32) (w : Vec Ideal S64x64 .f32) (j : S10000x64.Idx) :
    k3_pay1 x w j = ∑ k : Fin 64, x (lrow j k) * w (rcol j k) := by
  unfold k3_pay1
  rw [shapeCast_self]
  exact blockmul_apply x w j

/-! ## Region 0 -/

/-- The index maps of region 0, decided over its ten points: the operand's and the result's blocks are block `t` of
    ten down the rows, the matrix's block is the whole matrix. -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) ≤ 9
    ∧ win0_2.index t (1 : Fin 2) = 0 :=
  (by decide +kernel : ∀ t : Fin grid0.N, _)

/-- Every one of the ten row blocks is some point's. -/
theorem idx_onto0 : ∀ q0 : Fin 10, ∃ t : Fin cfg0.N, win0_2.index t = ![q0.val, 0] :=
  (by decide +kernel : ∀ q0 : Fin 10, ∃ t : Fin grid0.N, win0_2.index t = ![q0.val, 0])

/-- What point `t` writes back is block `t` of the whole product. -/
theorem flushed0_eq (c : Dev nD) (t : Fin cfg0.N) :
    (dat0 (F := Ideal) V c).flushed 2 t
      = ((cfg0.win 2).blk t).view.read (Elt Ideal) (Cert.Spec.lin (F := Ideal) (V c main_arg0) (V c main_arg3)) := by
  show (cfg0.win 2).cut (grid0.coords t) ((dat0 V c).after 2 t) = _
  rw [after0_2]
  unfold out0_2
  rw [View.canon_unit_zero hz]
  simp only [View.ld_unit_zero (S := S10000x64) hz, View.ld_unit_zero (S := S64x64) hz]
  obtain ⟨e0, e1, e2, e3, e4, e5⟩ := idx_facts0 t
  funext j
  show k0_pay1 (iblk0 V c 0 t) (iblk0 V c 1 t) j = Cert.Spec.lin (F := Ideal) (V c main_arg0) (V c main_arg3) (((cfg0.win 2).blk t).view.emb j)
  rw [pay0_apply, lin_apply]
  refine Finset.sum_congr rfl fun k _ => ?_
  have h0 : ((cfg0.win 0).blk t).view.emb (lrow j k) = lrow (((cfg0.win 2).blk t).view.emb j) k := by
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 64 + 1 * k.val = k.val; omega
  have h1 : ((cfg0.win 1).blk t).view.emb (rcol j k) = rcol (((cfg0.win 2).blk t).view.emb j) k := by
    funext a; apply Fin.ext
    match a with
    | ⟨0, _⟩ => show win0_1.index t (0 : Fin 2) * 64 + 1 * k.val = k.val; omega
    | ⟨1, _⟩ => show win0_1.index t (1 : Fin 2) * 64 + 1 * (j 1).val = win0_2.index t (1 : Fin 2) * 64 + 1 * (j 1).val; omega
  refine congrArg₂ (· * ·) ?_ ?_
  · show V c main_arg0 (((cfg0.win 0).blk t).view.emb (lrow j k)) = V c main_arg0 (lrow (((cfg0.win 2).blk t).view.emb j) k)
    rw [h0]
  · show V c main_arg3 (((cfg0.win 1).blk t).view.emb (rcol j k)) = V c main_arg3 (rcol (((cfg0.win 2).blk t).view.emb j) k)
    rw [h1]

/-- An index of the result is in point `t`'s block iff each coordinate is in the block's range on its axis. -/
theorem mem_blk0 (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v29).slice (win0_2.rect t)).set ↔ _
  rw [View.set_slice_whole, Rect.mem_set_unit]
  exact Iff.rfl

/-- Every index of the result is in some point's block: row `r` is in block `r / 10000`. -/
theorem cover0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := idx_onto0 ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- Region 0: the array it leaves is the rows of its first operand times its second. -/
theorem lin0_val (c : Dev nD) :
    (dat0 (F := Ideal) V c).arrAt 2 cfg0.N = Cert.Spec.lin (F := Ideal) (V c main_arg0) (V c main_arg3) :=
  (dat0 (F := Ideal) V c).arrAt_eq_of_cover 2 _ (fun t _ => flushed0_eq V c t) cover0

/-! ## Region 3 -/

/-- The index maps of region 3, decided over its ten points: the operand's and the result's blocks are block `t` of
    ten down the rows, the matrix's block is the whole matrix. -/
theorem idx_facts3 : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (0 : Fin 2) ≤ 9
    ∧ win3_2.index t (1 : Fin 2) = 0 :=
  (by decide +kernel : ∀ t : Fin grid3.N, _)

/-- Every one of the ten row blocks is some point's. -/
theorem idx_onto3 : ∀ q0 : Fin 10, ∃ t : Fin cfg3.N, win3_2.index t = ![q0.val, 0] :=
  (by decide +kernel : ∀ q0 : Fin 10, ∃ t : Fin grid3.N, win3_2.index t = ![q0.val, 0])

/-- What point `t` writes back is block `t` of the whole product. -/
theorem flushed3_eq (c : Dev nD) (t : Fin cfg3.N) :
    (dat3 (F := Ideal) V c).flushed 2 t
      = ((cfg3.win 2).blk t).view.read (Elt Ideal) (Cert.Spec.lin (F := Ideal) (V c main_v42) (V c main_arg5)) := by
  show (cfg3.win 2).cut (grid3.coords t) ((dat3 V c).after 2 t) = _
  rw [after3_2]
  unfold out3_2
  rw [View.canon_unit_zero hz]
  simp only [View.ld_unit_zero (S := S10000x64) hz, View.ld_unit_zero (S := S64x64) hz]
  obtain ⟨e0, e1, e2, e3, e4, e5⟩ := idx_facts3 t
  funext j
  show k3_pay1 (iblk3 V c 0 t) (iblk3 V c 1 t) j = Cert.Spec.lin (F := Ideal) (V c main_v42) (V c main_arg5) (((cfg3.win 2).blk t).view.emb j)
  rw [pay3_apply, lin_apply]
  refine Finset.sum_congr rfl fun k _ => ?_
  have h0 : ((cfg3.win 0).blk t).view.emb (lrow j k) = lrow (((cfg3.win 2).blk t).view.emb j) k := by
    funext a; apply Fin.ext
    match a with
    | ⟨0, _⟩ => show win3_0.index t (0 : Fin 2) * 10000 + 1 * (j 0).val = win3_2.index t (0 : Fin 2) * 10000 + 1 * (j 0).val; omega
    | ⟨1, _⟩ => show win3_0.index t (1 : Fin 2) * 64 + 1 * k.val = k.val; omega
  have h1 : ((cfg3.win 1).blk t).view.emb (rcol j k) = rcol (((cfg3.win 2).blk t).view.emb j) k := by
    funext a; apply Fin.ext
    match a with
    | ⟨0, _⟩ => show win3_1.index t (0 : Fin 2) * 64 + 1 * k.val = k.val; omega
    | ⟨1, _⟩ => show win3_1.index t (1 : Fin 2) * 64 + 1 * (j 1).val = win3_2.index t (1 : Fin 2) * 64 + 1 * (j 1).val; omega
  refine congrArg₂ (· * ·) ?_ ?_
  · show V c main_v42 (((cfg3.win 0).blk t).view.emb (lrow j k)) = V c main_v42 (lrow (((cfg3.win 2).blk t).view.emb j) k)
    rw [h0]
  · show V c main_arg5 (((cfg3.win 1).blk t).view.emb (rcol j k)) = V c main_arg5 (rcol (((cfg3.win 2).blk t).view.emb j) k)
    rw [h1]

/-- An index of the result is in point `t`'s block iff each coordinate is in the block's range on its axis. -/
theorem mem_blk3 (t : Fin cfg3.N) (i : S100000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v43).slice (win3_2.rect t)).set ↔ _
  rw [View.set_slice_whole, Rect.mem_set_unit]
  exact Iff.rfl

/-- Every index of the result is in some point's block: row `r` is in block `r / 10000`. -/
theorem cover3 (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  obtain ⟨t, ht⟩ := idx_onto3 ⟨(i 0).val / 10000, by omega⟩
  have q0 : win3_2.index t (0 : Fin 2) = (i 0).val / 10000 := congrFun ht 0
  have q1 : win3_2.index t (1 : Fin 2) = 0 := congrFun ht 1
  refine ⟨t, flush3_2 t, ?_⟩
  rw [mem_blk3]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 64 ≤ (i 1).val ∧ (i 1).val < win3_2.index t (1 : Fin 2) * 64 + 64; omega

/-- Region 3: the same kernel on the second layer's operands. -/
theorem lin3_val (c : Dev nD) :
    (dat3 (F := Ideal) V c).arrAt 2 cfg3.N = Cert.Spec.lin (F := Ideal) (V c main_v42) (V c main_arg5) :=
  (dat3 (F := Ideal) V c).arrAt_eq_of_cover 2 _ (fun t _ => flushed3_eq V c t) cover3

end Cert.KernelIdeal.RegLin
end
-- ==== Proof.RegScale.lean ====
/- The two edge-scaling regions: after all two hundred tiles are written back, every row of the gathered
   features has been multiplied by that edge's coefficient. -/
import proofs.«422269_j16982300688846_2_alg».proof.Proof.Gen.KernelIdeal.Frame
import proofs.«422269_j16982300688846_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegScale
open Cert.KernelIdeal Cert.KernelIdeal.Gen Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

open Idealize.ShloMosaic.ValueIdx

/-! ## One element of the tile's product, one element of the whole product -/

/-- The zero offset of a whole-tile access. -/
theorem origin : (![0, 0] : Fin 2 → Nat) = fun _ => 0 := funext fun a => by fin_cases a <;> rfl

/-- Element (e, f) of the scaled 8000-row tile: the feature at (e, f) times the coefficient of row e. -/
theorem tile_scaled_apply (x : Vec Ideal S8000x64 .f32) (s : Vec Ideal S8000x1 .f32) (e : Fin 8000) (f : Fin 64) :
    mulf (F := Ideal) (φ := .f32) (shapeCast S8000x64 x shapeCasts_S8000x64_S8000x64)
        (broadcastTo S8000x64 (shapeCast S8000x1 s shapeCasts_S8000x1_S8000x1) broadcasts_S8000x1_S8000x64) (ix2 e f)
      = x (ix2 e f) * s (ix2 e (0 : Fin 1)) := by
  rw [shapeCast_self, shapeCast_self, mulf_apply]
  refine congrArg (fun z => x (ix2 e f) * z) ?_
  refine broadcastTo_apply s broadcasts_S8000x1_S8000x64 (ix2 e f) (ix2 e (0 : Fin 1)) ?_
  intro a
  match a with
  | ⟨0, _⟩ => rfl
  | ⟨1, _⟩ => rfl

/-- Element (e, f) of the whole scaled array: the feature at (e, f) times the coefficient of row e. -/
theorem scale_apply (hr : FVec Ideal Cert.ReferenceIdeal.S1600000x64 .f32) (nrm : FVec Ideal Cert.ReferenceIdeal.S1600000x1 .f32)
    (e : Fin 1600000) (f : Fin 64) :
    Cert.Spec.scale (F := Ideal) hr nrm (ix2 e f) = hr (ix2 e f) * nrm (ix2 e (0 : Fin 1)) := by
  unfold Cert.Spec.scale
  rw [mulf_apply]
  refine congrArg (fun z => hr (ix2 e f) * z) ?_
  refine broadcastInDim_apply _ _ nrm (ix2 e f) (ix2 e (0 : Fin 1)) ?_
  intro a
  match a with
  | ⟨0, _⟩ => rfl
  | ⟨1, _⟩ => rfl

/-- The same, at any index of the tile. -/
theorem tile_scaled_at (x : Vec Ideal S8000x64 .f32) (s : Vec Ideal S8000x1 .f32) (j : S8000x64.Idx) :
    mulf (F := Ideal) (φ := .f32) (shapeCast S8000x64 x shapeCasts_S8000x64_S8000x64)
        (broadcastTo S8000x64 (shapeCast S8000x1 s shapeCasts_S8000x1_S8000x1) broadcasts_S8000x1_S8000x64) j
      = x j * s (ix2 (n0 := 8000) (j 0) (0 : Fin 1)) := by
  rw [eq_ix2 j]
  exact tile_scaled_apply x s (j 0) (j 1)

/-- The same, at any index of the array. -/
theorem scale_at (hr : FVec Ideal Cert.ReferenceIdeal.S1600000x64 .f32) (nrm : FVec Ideal Cert.ReferenceIdeal.S1600000x1 .f32)
    (i : Cert.ReferenceIdeal.S1600000x64.Idx) :
    Cert.Spec.scale (F := Ideal) hr nrm i = hr i * nrm (ix2 (n0 := 1600000) (i 0) (0 : Fin 1)) := by
  rw [eq_ix2 i]
  exact scale_apply hr nrm (i 0) (i 1)

/-- Equal places give equal products. -/
theorem prod_congr_at (hr : FVec Ideal S1600000x64 .f32) (nrm : FVec Ideal S1600000x1 .f32)
    (a a' : S1600000x64.Idx) (b b' : S1600000x1.Idx) (ha : a = a') (hb : b = b') : hr a * nrm b = hr a' * nrm b' := by
  rw [ha, hb]

/-! ## Region 1 -/

/-- Tile t of each of the three windows is rows 8000 t .. 8000 t + 7999, all columns. -/
theorem tiles1 : ∀ t : Fin cfg1.N,
    win1_0.index t (0 : Fin 2) = win1_2.index t (0 : Fin 2)
    ∧ win1_0.index t (1 : Fin 2) = win1_2.index t (1 : Fin 2)
    ∧ win1_1.index t (0 : Fin 2) = win1_2.index t (0 : Fin 2)
    ∧ win1_1.index t (1 : Fin 2) = 0
    ∧ win1_2.index t (0 : Fin 2) = t.val
    ∧ win1_2.index t (1 : Fin 2) = 0 :=
  (by decide +kernel : ∀ t : Fin grid1.N, _)

/-- What point t writes back is tile t of the scaled array. -/
theorem flushed1_eq (c : Dev nD) (t : Fin cfg1.N) :
    (dat1 (F := Ideal) V c).flushed 2 t
      = ((cfg1.win 2).blk t).view.read (Elt Ideal) (Cert.Spec.scale (F := Ideal) (V c main_v36) (V c main_v28)) := by
  show (cfg1.win 2).cut (grid1.coords t) ((dat1 V c).after 2 t) = _
  rw [after1_2]
  unfold out1_2
  rw [View.canon_unit_zero origin]
  simp only [View.ld_unit_zero (S := S8000x64) origin, View.ld_unit_zero (S := S8000x1) origin]
  obtain ⟨e0, e1, e2, e3, e4, e5⟩ := tiles1 t
  funext j
  show k1_pay1 (F := Ideal) (iblk1 V c 0 t) (iblk1 V c 1 t) j
      = Cert.Spec.scale (F := Ideal) (V c main_v36) (V c main_v28) (((cfg1.win 2).blk t).view.emb j)
  refine (tile_scaled_at (iblk1 V c 0 t) (iblk1 V c 1 t) j).trans ?_
  refine Eq.trans ?_ (scale_at (V c main_v36) (V c main_v28) (((cfg1.win 2).blk t).view.emb j)).symm
  have h0 : ((cfg1.win 0).blk t).view.emb j = ((cfg1.win 2).blk t).view.emb j := by
    funext a; apply Fin.ext
    match a with
    | ⟨0, _⟩ => show win1_0.index t (0 : Fin 2) * 8000 + 1 * (j 0).val = win1_2.index t (0 : Fin 2) * 8000 + 1 * (j 0).val; omega
    | ⟨1, _⟩ => show win1_0.index t (1 : Fin 2) * 64 + 1 * (j 1).val = win1_2.index t (1 : Fin 2) * 64 + 1 * (j 1).val; omega
  have h1 : ((cfg1.win 1).blk t).view.emb (ix2 (n0 := 8000) (j 0) (0 : Fin 1))
      = ix2 (n0 := 1600000) ((((cfg1.win 2).blk t).view.emb j) 0) (0 : Fin 1) := by
    funext a; apply Fin.ext
    match a with
    | ⟨0, _⟩ => show win1_1.index t (0 : Fin 2) * 8000 + 1 * (j 0).val = win1_2.index t (0 : Fin 2) * 8000 + 1 * (j 0).val; omega
    | ⟨1, _⟩ => show win1_1.index t (1 : Fin 2) * 1 + 1 * 0 = 0; omega
  exact prod_congr_at (V c main_v36) (V c main_v28) (((cfg1.win 0).blk t).view.emb j) (((cfg1.win 2).blk t).view.emb j)
    (((cfg1.win 1).blk t).view.emb (ix2 (n0 := 8000) (j 0) (0 : Fin 1)))
    (ix2 (n0 := 1600000) ((((cfg1.win 2).blk t).view.emb j) 0) (0 : Fin 1)) h0 h1

/-- An index of the array is in tile t iff each coordinate is in the tile's range on its axis. -/
theorem mem_tile1 (t : Fin cfg1.N) (i : S1600000x64.Idx) :
    i ∈ ((cfg1.win 2).blk t).view.set ↔ ∀ a : Fin 2, win1_2.index t a * S8000x64.size a ≤ (i a).val ∧ (i a).val < win1_2.index t a * S8000x64.size a + S8000x64.size a := by
  show i ∈ ((View.whole main_v37).slice (win1_2.rect t)).set ↔ _
  rw [View.set_slice_whole, Rect.mem_set_unit]
  exact Iff.rfl

/-- Row r of the array lies in tile r / 8000. -/
theorem cover1 (i : S1600000x64.Idx) :
    ∃ t : Fin cfg1.N, (cfg1.win 2).flush t = true ∧ i ∈ ((cfg1.win 2).blk t).view.set := by
  have hi0 : (i 0).val < 1600000 := (i 0).isLt
  have hi1 : (i 1).val < 64 := (i 1).isLt
  have hN : (i 0).val / 8000 < cfg1.N := by
    show (i 0).val / 8000 < grid1.N
    rw [N_1]; omega
  obtain ⟨e0, e1, e2, e3, e4, e5⟩ := tiles1 ⟨(i 0).val / 8000, hN⟩
  have e4' : win1_2.index ⟨(i 0).val / 8000, hN⟩ (0 : Fin 2) = (i 0).val / 8000 := e4
  refine ⟨⟨(i 0).val / 8000, hN⟩, flush1_2 _, ?_⟩
  rw [mem_tile1]
  intro a
  match a with
  | ⟨0, _⟩ =>
    show win1_2.index ⟨(i 0).val / 8000, hN⟩ (0 : Fin 2) * 8000 ≤ (i 0).val ∧ (i 0).val < win1_2.index ⟨(i 0).val / 8000, hN⟩ (0 : Fin 2) * 8000 + 8000
    omega
  | ⟨1, _⟩ =>
    show win1_2.index ⟨(i 0).val / 8000, hN⟩ (1 : Fin 2) * 64 ≤ (i 1).val ∧ (i 1).val < win1_2.index ⟨(i 0).val / 8000, hN⟩ (1 : Fin 2) * 64 + 64
    omega

/-- Region 1. -/
theorem scale1_val (c : Dev nD) :
    (dat1 (F := Ideal) V c).arrAt 2 cfg1.N = Cert.Spec.scale (F := Ideal) (V c main_v36) (V c main_v28) :=
  (dat1 (F := Ideal) V c).arrAt_eq_of_cover 2 _ (fun t _ => flushed1_eq V c t) cover1

/-! ## Region 4 -/

/-- Tile t of each of the three windows is rows 8000 t .. 8000 t + 7999, all columns. -/
theorem tiles4 : ∀ t : Fin cfg4.N,
    win4_0.index t (0 : Fin 2) = win4_2.index t (0 : Fin 2)
    ∧ win4_0.index t (1 : Fin 2) = win4_2.index t (1 : Fin 2)
    ∧ win4_1.index t (0 : Fin 2) = win4_2.index t (0 : Fin 2)
    ∧ win4_1.index t (1 : Fin 2) = 0
    ∧ win4_2.index t (0 : Fin 2) = t.val
    ∧ win4_2.index t (1 : Fin 2) = 0 :=
  (by decide +kernel : ∀ t : Fin grid4.N, _)

/-- What point t writes back is tile t of the scaled array. -/
theorem flushed4_eq (c : Dev nD) (t : Fin cfg4.N) :
    (dat4 (F := Ideal) V c).flushed 2 t
      = ((cfg4.win 2).blk t).view.read (Elt Ideal) (Cert.Spec.scale (F := Ideal) (V c main_v50) (V c main_v28)) := by
  show (cfg4.win 2).cut (grid4.coords t) ((dat4 V c).after 2 t) = _
  rw [after4_2]
  unfold out4_2
  rw [View.canon_unit_zero origin]
  simp only [View.ld_unit_zero (S := S8000x64) origin, View.ld_unit_zero (S := S8000x1) origin]
  obtain ⟨e0, e1, e2, e3, e4, e5⟩ := tiles4 t
  funext j
  show k4_pay1 (F := Ideal) (iblk4 V c 0 t) (iblk4 V c 1 t) j
      = Cert.Spec.scale (F := Ideal) (V c main_v50) (V c main_v28) (((cfg4.win 2).blk t).view.emb j)
  refine (tile_scaled_at (iblk4 V c 0 t) (iblk4 V c 1 t) j).trans ?_
  refine Eq.trans ?_ (scale_at (V c main_v50) (V c main_v28) (((cfg4.win 2).blk t).view.emb j)).symm
  have h0 : ((cfg4.win 0).blk t).view.emb j = ((cfg4.win 2).blk t).view.emb j := by
    funext a; apply Fin.ext
    match a with
    | ⟨0, _⟩ => show win4_0.index t (0 : Fin 2) * 8000 + 1 * (j 0).val = win4_2.index t (0 : Fin 2) * 8000 + 1 * (j 0).val; omega
    | ⟨1, _⟩ => show win4_0.index t (1 : Fin 2) * 64 + 1 * (j 1).val = win4_2.index t (1 : Fin 2) * 64 + 1 * (j 1).val; omega
  have h1 : ((cfg4.win 1).blk t).view.emb (ix2 (n0 := 8000) (j 0) (0 : Fin 1))
      = ix2 (n0 := 1600000) ((((cfg4.win 2).blk t).view.emb j) 0) (0 : Fin 1) := by
    funext a; apply Fin.ext
    match a with
    | ⟨0, _⟩ => show win4_1.index t (0 : Fin 2) * 8000 + 1 * (j 0).val = win4_2.index t (0 : Fin 2) * 8000 + 1 * (j 0).val; omega
    | ⟨1, _⟩ => show win4_1.index t (1 : Fin 2) * 1 + 1 * 0 = 0; omega
  exact prod_congr_at (V c main_v50) (V c main_v28) (((cfg4.win 0).blk t).view.emb j) (((cfg4.win 2).blk t).view.emb j)
    (((cfg4.win 1).blk t).view.emb (ix2 (n0 := 8000) (j 0) (0 : Fin 1)))
    (ix2 (n0 := 1600000) ((((cfg4.win 2).blk t).view.emb j) 0) (0 : Fin 1)) h0 h1

/-- An index of the array is in tile t iff each coordinate is in the tile's range on its axis. -/
theorem mem_tile4 (t : Fin cfg4.N) (i : S1600000x64.Idx) :
    i ∈ ((cfg4.win 2).blk t).view.set ↔ ∀ a : Fin 2, win4_2.index t a * S8000x64.size a ≤ (i a).val ∧ (i a).val < win4_2.index t a * S8000x64.size a + S8000x64.size a := by
  show i ∈ ((View.whole main_v51).slice (win4_2.rect t)).set ↔ _
  rw [View.set_slice_whole, Rect.mem_set_unit]
  exact Iff.rfl

/-- Row r of the array lies in tile r / 8000. -/
theorem cover4 (i : S1600000x64.Idx) :
    ∃ t : Fin cfg4.N, (cfg4.win 2).flush t = true ∧ i ∈ ((cfg4.win 2).blk t).view.set := by
  have hi0 : (i 0).val < 1600000 := (i 0).isLt
  have hi1 : (i 1).val < 64 := (i 1).isLt
  have hN : (i 0).val / 8000 < cfg4.N := by
    show (i 0).val / 8000 < grid4.N
    rw [N_4]; omega
  obtain ⟨e0, e1, e2, e3, e4, e5⟩ := tiles4 ⟨(i 0).val / 8000, hN⟩
  have e4' : win4_2.index ⟨(i 0).val / 8000, hN⟩ (0 : Fin 2) = (i 0).val / 8000 := e4
  refine ⟨⟨(i 0).val / 8000, hN⟩, flush4_2 _, ?_⟩
  rw [mem_tile4]
  intro a
  match a with
  | ⟨0, _⟩ =>
    show win4_2.index ⟨(i 0).val / 8000, hN⟩ (0 : Fin 2) * 8000 ≤ (i 0).val ∧ (i 0).val < win4_2.index ⟨(i 0).val / 8000, hN⟩ (0 : Fin 2) * 8000 + 8000
    omega
  | ⟨1, _⟩ =>
    show win4_2.index ⟨(i 0).val / 8000, hN⟩ (1 : Fin 2) * 64 ≤ (i 1).val ∧ (i 1).val < win4_2.index ⟨(i 0).val / 8000, hN⟩ (1 : Fin 2) * 64 + 64
    omega

/-- Region 4. -/
theorem scale4_val (c : Dev nD) :
    (dat4 (F := Ideal) V c).arrAt 2 cfg4.N = Cert.Spec.scale (F := Ideal) (V c main_v50) (V c main_v28) :=
  (dat4 (F := Ideal) V c).arrAt_eq_of_cover 2 _ (fun t _ => flushed4_eq V c t) cover4

end Cert.KernelIdeal.RegScale
end
-- ==== Proof.RegFin.lean ====
/- The two node-update regions: max(agg + h * d2 + b, 0), tile by tile, is the same function of the whole arrays. -/
import proofs.«422269_j16982300688846_2_alg».proof.Proof.Gen.KernelIdeal.Frame
import proofs.«422269_j16982300688846_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegFin
open Cert.KernelIdeal Cert.KernelIdeal.Gen Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

open Idealize.ShloMosaic.ValueIdx

theorem hz : (![0, 0] : Fin 2 → Nat) = fun _ => 0 := funext fun a => by fin_cases a <;> rfl

/-- The node update at one index: max((a + h * d) + b, 0). -/
def upd (a h d b : Ideal .f32) : Ideal .f32 := max ((a + h * d) + b) (Ideal.ofBits .f32 0x00000000#32)

/-- The array function at an index: row `i 0`'s scalar of `d2`, column `i 1`'s entry of `b`. -/
theorem spec_apply (agg h : FVec Ideal S100000x64 .f32) (d2 : FVec Ideal S100000x1 .f32) (b : FVec Ideal S1x64 .f32) (i : S100000x64.Idx) :
    Cert.Spec.fin agg h d2 b i = upd (agg i) (h i) (d2 (ix2 (i 0) 0)) (b (ix2 0 (i 1))) := by
  unfold Cert.Spec.fin
  rw [maximumf_apply, addf_apply, addf_apply, mulf_apply]
  rw [broadcastInDim_apply _ _ d2 i (ix2 (i 0) 0) (by intro a; match a with | ⟨0, _⟩ => rfl | ⟨1, _⟩ => rfl)]
  rw [broadcastInDim_apply _ _ b i (ix2 0 (i 1)) (by intro a; match a with | ⟨0, _⟩ => rfl | ⟨1, _⟩ => rfl)]
  rfl

/-! ## Region 2 -/

/-- The body's payload at an index of the block: the same update of the block's entries. -/
theorem pay2_apply (x0 x1 : Vec Ideal S10000x64 .f32) (x2 : Vec Ideal S10000x1 .f32) (x3 : Vec Ideal S1x64 .f32) (j : S10000x64.Idx) :
    k2_pay1 x0 x1 x2 x3 j = upd (x0 j) (x1 j) (x2 (ix2 (j 0) 0)) (x3 (ix2 0 (j 1))) := by
  unfold k2_pay1
  simp only [shapeCast_self]
  rw [maximumf_apply, addf_apply, addf_apply, mulf_apply]
  rw [broadcastTo_apply x2 _ j (ix2 (j 0) 0) (by intro a; match a with | ⟨0, _⟩ => rfl | ⟨1, _⟩ => rfl)]
  rw [broadcastTo_apply x3 _ j (ix2 0 (j 1)) (by intro a; match a with | ⟨0, _⟩ => rfl | ⟨1, _⟩ => rfl)]
  rfl

/-- The windows' block indices at every point of the grid: every row window is at the output's block row, the column
    blocks are all block 0, and the output's block row is the point's number. -/
theorem idx_facts2 : ∀ t : Fin cfg2.N,
    win2_0.index t (0 : Fin 2) = win2_4.index t (0 : Fin 2) ∧ win2_0.index t (1 : Fin 2) = 0
    ∧ win2_1.index t (0 : Fin 2) = win2_4.index t (0 : Fin 2) ∧ win2_1.index t (1 : Fin 2) = 0
    ∧ win2_2.index t (0 : Fin 2) = win2_4.index t (0 : Fin 2) ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- What point `t` writes back is block `t` of the node update of the whole arrays. -/
theorem flushed2_eq (c : Dev nD) (t : Fin cfg2.N) :
    (dat2 (F := Ideal) V c).flushed 4 t = ((cfg2.win 4).blk t).view.read (Elt Ideal) (Cert.Spec.fin (F := Ideal) (V c main_v40) (V c main_v29) (V c main_v12) (V c main_v41)) := by
  show (cfg2.win 4).cut (grid2.coords t) ((dat2 V c).after 4 t) = _
  rw [after2_4]
  unfold out2_4
  rw [View.canon_unit_zero hz]
  simp only [View.ld_unit_zero (S := S10000x64) hz, View.ld_unit_zero (S := S10000x1) hz, View.ld_unit_zero (S := S1x64) hz]
  obtain ⟨e0, e1, e2, e3, e4, e5, e6, e7, e8, e9⟩ := idx_facts2 t
  funext j
  refine (pay2_apply (iblk2 V c 0 t) (iblk2 V c 1 t) (iblk2 V c 2 t) (iblk2 V c 3 t) j).trans ?_
  refine Eq.trans ?_ (spec_apply (V c main_v40) (V c main_v29) (V c main_v12) (V c main_v41) (((cfg2.win 4).blk t).view.emb j)).symm
  show upd (V c main_v40 (((cfg2.win 0).blk t).view.emb j)) (V c main_v29 (((cfg2.win 1).blk t).view.emb j))
      (V c main_v12 (((cfg2.win 2).blk t).view.emb (ix2 (j 0) 0))) (V c main_v41 (((cfg2.win 3).blk t).view.emb (ix2 0 (j 1)))) = _
  have h0 : ((cfg2.win 0).blk t).view.emb j = ((cfg2.win 4).blk t).view.emb j := by
    funext a; apply Fin.ext
    match a with
    | ⟨0, _⟩ => show win2_0.index t (0 : Fin 2) * 10000 + 1 * (j 0).val = win2_4.index t (0 : Fin 2) * 10000 + 1 * (j 0).val; omega
    | ⟨1, _⟩ => show win2_0.index t (1 : Fin 2) * 64 + 1 * (j 1).val = win2_4.index t (1 : Fin 2) * 64 + 1 * (j 1).val; omega
  have h1 : ((cfg2.win 1).blk t).view.emb j = ((cfg2.win 4).blk t).view.emb j := by
    funext a; apply Fin.ext
    match a with
    | ⟨0, _⟩ => show win2_1.index t (0 : Fin 2) * 10000 + 1 * (j 0).val = win2_4.index t (0 : Fin 2) * 10000 + 1 * (j 0).val; omega
    | ⟨1, _⟩ => show win2_1.index t (1 : Fin 2) * 64 + 1 * (j 1).val = win2_4.index t (1 : Fin 2) * 64 + 1 * (j 1).val; omega
  have h2 : ((cfg2.win 2).blk t).view.emb (ix2 (j 0) 0) = ix2 (n0 := 100000) (n1 := 1) (((cfg2.win 4).blk t).view.emb j 0) 0 := by
    funext a; apply Fin.ext
    match a with
    | ⟨0, _⟩ => show win2_2.index t (0 : Fin 2) * 10000 + 1 * (j 0).val = win2_4.index t (0 : Fin 2) * 10000 + 1 * (j 0).val; omega
    | ⟨1, _⟩ => show win2_2.index t (1 : Fin 2) * 1 + 1 * 0 = 0; omega
  have h3 : ((cfg2.win 3).blk t).view.emb (ix2 0 (j 1)) = ix2 (n0 := 1) (n1 := 64) 0 (((cfg2.win 4).blk t).view.emb j 1) := by
    funext a; apply Fin.ext
    match a with
    | ⟨0, _⟩ => show win2_3.index t (0 : Fin 2) * 1 + 1 * 0 = 0; omega
    | ⟨1, _⟩ => show win2_3.index t (1 : Fin 2) * 64 + 1 * (j 1).val = win2_4.index t (1 : Fin 2) * 64 + 1 * (j 1).val; omega
  rw [h0, h1, h2, h3]

/-- An index of the array is in point `t`'s block iff each coordinate is in the block's range on its axis. -/
theorem mem_blk2 (t : Fin cfg2.N) (i : S100000x64.Idx) :
    i ∈ ((cfg2.win 4).blk t).view.set ↔ ∀ a : Fin 2, win2_4.index t a * S10000x64.size a ≤ (i a).val ∧ (i a).val < win2_4.index t a * S10000x64.size a + S10000x64.size a := by
  show i ∈ ((View.whole main_v42).slice (win2_4.rect t)).set ↔ _
  rw [View.set_slice_whole, Rect.mem_set_unit]
  exact Iff.rfl

/-- Every block row of the array is some point's. -/
theorem idx_onto2 : ∀ q0 : Fin 10, ∃ t : Fin cfg2.N, win2_4.index t = ![q0.val, 0] :=
  (by decide +kernel : ∀ q0 : Fin 10, ∃ t : Fin grid2.N, win2_4.index t = ![q0.val, 0])

/-- The ten blocks of 10000 rows tile the 100000 rows. -/
theorem cover2 (i : S100000x64.Idx) :
    ∃ t : Fin cfg2.N, (cfg2.win 4).flush t = true ∧ i ∈ ((cfg2.win 4).blk t).view.set := by
  have hi0 : (i 0).val < 100000 := (i 0).isLt
  have hi1 : (i 1).val < 64 := (i 1).isLt
  obtain ⟨t, ht⟩ := idx_onto2 ⟨(i 0).val / 10000, by omega⟩
  have q0 : win2_4.index t (0 : Fin 2) = (i 0).val / 10000 := congrFun ht 0
  have q1 : win2_4.index t (1 : Fin 2) = 0 := congrFun ht 1
  refine ⟨t, flush2_4 t, ?_⟩
  rw [mem_blk2]
  intro a
  match a with
  | ⟨0, _⟩ => show win2_4.index t (0 : Fin 2) * 10000 ≤ (i 0).val ∧ (i 0).val < win2_4.index t (0 : Fin 2) * 10000 + 10000; omega
  | ⟨1, _⟩ => show win2_4.index t (1 : Fin 2) * 64 ≤ (i 1).val ∧ (i 1).val < win2_4.index t (1 : Fin 2) * 64 + 64; omega

/-- Region 2. -/
theorem fin2_val (c : Dev nD) :
    (dat2 (F := Ideal) V c).arrAt 4 cfg2.N = Cert.Spec.fin (F := Ideal) (V c main_v40) (V c main_v29) (V c main_v12) (V c main_v41) :=
  (dat2 (F := Ideal) V c).arrAt_eq_of_cover 4 _ (fun t _ => flushed2_eq V c t) (fun i => cover2 i)

/-! ## Region 5 -/

/-- The body's payload at an index of the block: the same update of the block's entries. -/
theorem pay5_apply (x0 x1 : Vec Ideal S10000x64 .f32) (x2 : Vec Ideal S10000x1 .f32) (x3 : Vec Ideal S1x64 .f32) (j : S10000x64.Idx) :
    k5_pay1 x0 x1 x2 x3 j = upd (x0 j) (x1 j) (x2 (ix2 (j 0) 0)) (x3 (ix2 0 (j 1))) := by
  unfold k5_pay1
  simp only [shapeCast_self]
  rw [maximumf_apply, addf_apply, addf_apply, mulf_apply]
  rw [broadcastTo_apply x2 _ j (ix2 (j 0) 0) (by intro a; match a with | ⟨0, _⟩ => rfl | ⟨1, _⟩ => rfl)]
  rw [broadcastTo_apply x3 _ j (ix2 0 (j 1)) (by intro a; match a with | ⟨0, _⟩ => rfl | ⟨1, _⟩ => rfl)]
  rfl

/-- The windows' block indices at every point of the grid: every row window is at the output's block row, the column
    blocks are all block 0, and the output's block row is the point's number. -/
theorem idx_facts5 : ∀ t : Fin cfg5.N,
    win5_0.index t (0 : Fin 2) = win5_4.index t (0 : Fin 2) ∧ win5_0.index t (1 : Fin 2) = 0
    ∧ win5_1.index t (0 : Fin 2) = win5_4.index t (0 : Fin 2) ∧ win5_1.index t (1 : Fin 2) = 0
    ∧ win5_2.index t (0 : Fin 2) = win5_4.index t (0 : Fin 2) ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- What point `t` writes back is block `t` of the node update of the whole arrays. -/
theorem flushed5_eq (c : Dev nD) (t : Fin cfg5.N) :
    (dat5 (F := Ideal) V c).flushed 4 t = ((cfg5.win 4).blk t).view.read (Elt Ideal) (Cert.Spec.fin (F := Ideal) (V c main_v54) (V c main_v43) (V c main_v12) (V c main_v55)) := by
  show (cfg5.win 4).cut (grid5.coords t) ((dat5 V c).after 4 t) = _
  rw [after5_4]
  unfold out5_4
  rw [View.canon_unit_zero hz]
  simp only [View.ld_unit_zero (S := S10000x64) hz, View.ld_unit_zero (S := S10000x1) hz, View.ld_unit_zero (S := S1x64) hz]
  obtain ⟨e0, e1, e2, e3, e4, e5, e6, e7, e8, e9⟩ := idx_facts5 t
  funext j
  refine (pay5_apply (iblk5 V c 0 t) (iblk5 V c 1 t) (iblk5 V c 2 t) (iblk5 V c 3 t) j).trans ?_
  refine Eq.trans ?_ (spec_apply (V c main_v54) (V c main_v43) (V c main_v12) (V c main_v55) (((cfg5.win 4).blk t).view.emb j)).symm
  show upd (V c main_v54 (((cfg5.win 0).blk t).view.emb j)) (V c main_v43 (((cfg5.win 1).blk t).view.emb j))
      (V c main_v12 (((cfg5.win 2).blk t).view.emb (ix2 (j 0) 0))) (V c main_v55 (((cfg5.win 3).blk t).view.emb (ix2 0 (j 1)))) = _
  have h0 : ((cfg5.win 0).blk t).view.emb j = ((cfg5.win 4).blk t).view.emb j := by
    funext a; apply Fin.ext
    match a with
    | ⟨0, _⟩ => show win5_0.index t (0 : Fin 2) * 10000 + 1 * (j 0).val = win5_4.index t (0 : Fin 2) * 10000 + 1 * (j 0).val; omega
    | ⟨1, _⟩ => show win5_0.index t (1 : Fin 2) * 64 + 1 * (j 1).val = win5_4.index t (1 : Fin 2) * 64 + 1 * (j 1).val; omega
  have h1 : ((cfg5.win 1).blk t).view.emb j = ((cfg5.win 4).blk t).view.emb j := by
    funext a; apply Fin.ext
    match a with
    | ⟨0, _⟩ => show win5_1.index t (0 : Fin 2) * 10000 + 1 * (j 0).val = win5_4.index t (0 : Fin 2) * 10000 + 1 * (j 0).val; omega
    | ⟨1, _⟩ => show win5_1.index t (1 : Fin 2) * 64 + 1 * (j 1).val = win5_4.index t (1 : Fin 2) * 64 + 1 * (j 1).val; omega
  have h2 : ((cfg5.win 2).blk t).view.emb (ix2 (j 0) 0) = ix2 (n0 := 100000) (n1 := 1) (((cfg5.win 4).blk t).view.emb j 0) 0 := by
    funext a; apply Fin.ext
    match a with
    | ⟨0, _⟩ => show win5_2.index t (0 : Fin 2) * 10000 + 1 * (j 0).val = win5_4.index t (0 : Fin 2) * 10000 + 1 * (j 0).val; omega
    | ⟨1, _⟩ => show win5_2.index t (1 : Fin 2) * 1 + 1 * 0 = 0; omega
  have h3 : ((cfg5.win 3).blk t).view.emb (ix2 0 (j 1)) = ix2 (n0 := 1) (n1 := 64) 0 (((cfg5.win 4).blk t).view.emb j 1) := by
    funext a; apply Fin.ext
    match a with
    | ⟨0, _⟩ => show win5_3.index t (0 : Fin 2) * 1 + 1 * 0 = 0; omega
    | ⟨1, _⟩ => show win5_3.index t (1 : Fin 2) * 64 + 1 * (j 1).val = win5_4.index t (1 : Fin 2) * 64 + 1 * (j 1).val; omega
  rw [h0, h1, h2, h3]

/-- An index of the array is in point `t`'s block iff each coordinate is in the block's range on its axis. -/
theorem mem_blk5 (t : Fin cfg5.N) (i : S100000x64.Idx) :
    i ∈ ((cfg5.win 4).blk t).view.set ↔ ∀ a : Fin 2, win5_4.index t a * S10000x64.size a ≤ (i a).val ∧ (i a).val < win5_4.index t a * S10000x64.size a + S10000x64.size a := by
  show i ∈ ((View.whole main_v56).slice (win5_4.rect t)).set ↔ _
  rw [View.set_slice_whole, Rect.mem_set_unit]
  exact Iff.rfl

/-- Every block row of the array is some point's. -/
theorem idx_onto5 : ∀ q0 : Fin 10, ∃ t : Fin cfg5.N, win5_4.index t = ![q0.val, 0] :=
  (by decide +kernel : ∀ q0 : Fin 10, ∃ t : Fin grid5.N, win5_4.index t = ![q0.val, 0])

/-- The ten blocks of 10000 rows tile the 100000 rows. -/
theorem cover5 (i : S100000x64.Idx) :
    ∃ t : Fin cfg5.N, (cfg5.win 4).flush t = true ∧ i ∈ ((cfg5.win 4).blk t).view.set := by
  have hi0 : (i 0).val < 100000 := (i 0).isLt
  have hi1 : (i 1).val < 64 := (i 1).isLt
  obtain ⟨t, ht⟩ := idx_onto5 ⟨(i 0).val / 10000, by omega⟩
  have q0 : win5_4.index t (0 : Fin 2) = (i 0).val / 10000 := congrFun ht 0
  have q1 : win5_4.index t (1 : Fin 2) = 0 := congrFun ht 1
  refine ⟨t, flush5_4 t, ?_⟩
  rw [mem_blk5]
  intro a
  match a with
  | ⟨0, _⟩ => show win5_4.index t (0 : Fin 2) * 10000 ≤ (i 0).val ∧ (i 0).val < win5_4.index t (0 : Fin 2) * 10000 + 10000; omega
  | ⟨1, _⟩ => show win5_4.index t (1 : Fin 2) * 64 ≤ (i 1).val ∧ (i 1).val < win5_4.index t (1 : Fin 2) * 64 + 64; omega

/-- Region 5. -/
theorem fin5_val (c : Dev nD) :
    (dat5 (F := Ideal) V c).arrAt 4 cfg5.N = Cert.Spec.fin (F := Ideal) (V c main_v54) (V c main_v43) (V c main_v12) (V c main_v55) :=
  (dat5 (F := Ideal) V c).arrAt_eq_of_cover 4 _ (fun t _ => flushed5_eq V c t) (fun i => cover5 i)

end Cert.KernelIdeal.RegFin
end
-- ==== Proof.PoolSpec.lean ====
/- The scatter-add of rows by graph id, read at an entry: row g, column f of the result is the sum over all nodes
   n of the entry (n, f) of the operand when node n's graph id is g, and of nothing otherwise. -/
import proofs.«422269_j16982300688846_2_alg».proof.Proof.Spec
import Idealize.ShloMosaic.Lib.ValueIdx
import Idealize.ShloMosaic.PureOps.Ideal.Laws

noncomputable section

namespace Cert.PoolSpec

open Cert.ReferenceIdeal Cert.ReferenceIdeal.Gen Idealize.ShloMosaic Idealize.ShloMosaic.ValueIdx

/-- The scatter's dimension numbers: update (n, f') lands on row (graph id of n), column f'. -/
private abbrev poolDims : ScatterDims S64x64 S100000x1 S100000x64 := scatter_S64x64_S100000x1_S100000x64_1_0_0_1

/-- Update (n, f') reads its one start-index component at entry (n, 0) of the graph ids. -/
theorem siIdx_eq (n : Fin 100000) (f' : Fin 64) (c : Fin poolDims.scatterDimsToOperandDims.length) :
    poolDims.siIdx (ix2 n f') c = ix2 n (0 : Fin 1) := by
  funext b
  refine Fin.ext ?_
  match b with
  | ⟨0, _⟩ => rfl
  | ⟨1, _⟩ =>
    have hc : c.val < 1 := c.isLt
    show c.val = 0
    omega

/-- On the row axis the window starts at the graph id of n, read signed. -/
theorem start0 (bt : IVec S100000x1 32) (n : Fin 100000) (f' : Fin 64) :
    poolDims.start (ix2 n f') bt (0 : Fin 2) = (bt (ix2 n (0 : Fin 1))).toInt := by
  unfold ScatterDims.start
  rw [dif_pos (show (0 : Fin 2) ∈ poolDims.scatterDimsToOperandDims from List.mem_singleton.mpr rfl), siIdx_eq]

/-- On the column axis, which no start index names, the window starts at 0. -/
theorem start1 (bt : IVec S100000x1 32) (n : Fin 100000) (f' : Fin 64) :
    poolDims.start (ix2 n f') bt (1 : Fin 2) = 0 := by
  unfold ScatterDims.start
  rw [dif_neg (show (1 : Fin 2) ∉ poolDims.scatterDimsToOperandDims by decide)]

/-- The row axis is an inserted axis: window coordinate 0. -/
theorem window0 (n : Fin 100000) (f' : Fin 64) : poolDims.window (ix2 n f') (0 : Fin 2) = 0 := by
  unfold ScatterDims.window
  rw [dif_neg (show (0 : Fin 2) ∉ poolDims.sKept by decide)]

/-- The column axis carries the update's column. -/
theorem window1 (n : Fin 100000) (f' : Fin 64) : poolDims.window (ix2 n f') (1 : Fin 2) = f'.val := by
  unfold ScatterDims.window
  rw [dif_pos (show (1 : Fin 2) ∈ poolDims.sKept by decide)]
  rfl

/-- Start plus window on the row axis: the graph id of n. -/
theorem sum0 (bt : IVec S100000x1 32) (n : Fin 100000) (f' : Fin 64) :
    poolDims.start (ix2 n f') bt (0 : Fin 2) + (poolDims.window (ix2 n f') (0 : Fin 2) : Int) = (bt (ix2 n (0 : Fin 1))).toInt := by
  rw [start0, window0]; simp

/-- Start plus window on the column axis: f'. -/
theorem sum1 (bt : IVec S100000x1 32) (n : Fin 100000) (f' : Fin 64) :
    poolDims.start (ix2 n f') bt (1 : Fin 2) + (poolDims.window (ix2 n f') (1 : Fin 2) : Int) = (f'.val : Int) := by
  rw [start1, window1]; simp

/-- A 32-bit word read signed is g (below 64) exactly when it is the word of g. -/
theorem toInt_eq_iff (b : BitVec 32) (g : Nat) (hg : g < 64) : b.toInt = (g : Int) ↔ b = BitVec.ofNat 32 g := by
  constructor
  · intro h
    apply BitVec.eq_of_toNat_eq
    rw [BitVec.toInt_eq_toNat_cond] at h
    rw [BitVec.toNat_ofNat]
    have := b.isLt
    split at h <;> omega
  · rintro rfl
    rw [BitVec.toInt_eq_toNat_cond, BitVec.toNat_ofNat]
    split <;> omega

/-- Update (n, f') lands on entry (g, f) exactly when n's graph id, read signed, is g and f' = f; a graph id outside
    [0, 64) lands nowhere. -/
theorem resultIdx_iff (bt : IVec S100000x1 32) (n : Fin 100000) (f' g f : Fin 64) :
    poolDims.resultIdx? (ix2 n f') bt = some (ix2 g f) ↔ (bt (ix2 n (0 : Fin 1))).toInt = (g.val : Int) ∧ f' = f := by
  have hg := g.isLt
  have hf := f.isLt
  have hf' := f'.isLt
  unfold ScatterDims.resultIdx?
  split
  · rename_i hin
    rw [Option.some.injEq]
    constructor
    · intro he
      have h0 : (poolDims.start (ix2 n f') bt (0 : Fin 2) + (poolDims.window (ix2 n f') (0 : Fin 2) : Int)).toNat = g.val :=
        congrArg (fun k => (k (0 : Fin 2)).val) he
      have h1 : (poolDims.start (ix2 n f') bt (1 : Fin 2) + (poolDims.window (ix2 n f') (1 : Fin 2) : Int)).toNat = f.val :=
        congrArg (fun k => (k (1 : Fin 2)).val) he
      have hin0 := (hin (0 : Fin 2)).1
      rw [sum0] at h0 hin0
      rw [sum1] at h1
      exact ⟨by omega, Fin.ext (by omega)⟩
    · rintro ⟨hT, rfl⟩
      funext a
      refine Fin.ext ?_
      revert a
      refine Fin.forall_fin_two.2 ⟨?_, ?_⟩
      · show (poolDims.start (ix2 n f') bt (0 : Fin 2) + (poolDims.window (ix2 n f') (0 : Fin 2) : Int)).toNat = g.val
        rw [sum0]; omega
      · show (poolDims.start (ix2 n f') bt (1 : Fin 2) + (poolDims.window (ix2 n f') (1 : Fin 2) : Int)).toNat = f'.val
        rw [sum1]; omega
  · rename_i hout
    constructor
    · intro he; cases he
    · rintro ⟨hT, rfl⟩
      refine absurd (Fin.forall_fin_two.2 ⟨?_, ?_⟩) hout
      · rw [sum0]
        show 0 ≤ _ ∧ _ < ((64 : Nat) : Int)
        omega
      · rw [sum1]
        show 0 ≤ _ ∧ _ < ((64 : Nat) : Int)
        omega

/-- Entry (g, f) of the pooled sums: the graph id is compared as a 32-bit word with the word of g (g < 64). -/
theorem pool_apply (h : FVec Ideal S100000x64 .f32) (bt : IVec S100000x1 32) (g f : Fin 64) :
    Cert.Spec.pool (F := Ideal) h bt (ix2 g f)
      = ∑ n : Fin 100000, if bt (ix2 n (0 : Fin 1)) = BitVec.ofNat 32 g.val then (h (ix2 n f) : EReal) else 0 := by
  -- the operand scattered into is all zeros
  have hz : (broadcastInDim S64x64 ![] bcast_S_S64x64 (constant (F := Ideal) S_ .f32 0x00000000#32)) (ix2 g f) = (0 : EReal) :=
    Ideal.ofBits_zero_f32
  unfold Cert.Spec.pool Host.scatterAdd
  rw [Ideal.hostScatterAdd_def]
  unfold Ideal.hostScatterAdd
  -- the sum over the updates landing on (g, f), as a double sum over (n, f') of an indicator
  rw [hz, zero_add, Finset.sum_filter, sum_idx2]
  refine Finset.sum_congr rfl fun n _ => ?_
  simp only [resultIdx_iff, ← toInt_eq_iff _ g.val g.isLt]
  -- the inner sum over f' keeps the one term f' = f
  by_cases hT : (bt (ix2 n (0 : Fin 1))).toInt = (g.val : Int)
  · simp only [hT, true_and, if_true]
    exact Finset.sum_ite_eq' Finset.univ f (fun b => h (ix2 n b)) |>.trans (if_pos (Finset.mem_univ f))
  · simp only [hT, false_and, if_false]
    exact Finset.sum_const_zero

end Cert.PoolSpec

end
-- ==== Proof.RegPool.lean ====
/- The pooling region: an accumulator zeroed at the first tile and increased at every tile by the product of the
   tile's one-hot graph-membership matrix (transposed) with the tile's rows.  After the last tile row g holds the
   sum of the rows whose graph id is g: the scatter-add of rows by graph id. -/
import proofs.«422269_j16982300688846_2_alg».proof.Proof.Gen.KernelIdeal.Frame
import proofs.«422269_j16982300688846_2_alg».proof.Proof.Spec
import proofs.«422269_j16982300688846_2_alg».proof.Proof.PoolSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegPool
open Cert.KernelIdeal Cert.KernelIdeal.Gen Idealize.ShloMosaic Idealize.ShloMosaic.TcCoe Idealize.SL.Sem
open Idealize.ShloMosaic.Pipeline (Dat Cfg Window)

/-! ## What one grid point leaves in the accumulator, as a function of what it found there -/

section Pieces
variable {F : FTy → Type} [FloatOps F]

theorem hz2 : (![0, 0] : Fin 2 → Nat) = fun _ => 0 := funext fun a => by fin_cases a <;> rfl

/-- At a later tile the accumulator xo becomes xo plus the tile's contribution. -/
theorem out_B (c : Dev nD) (i : grid6.Coords) (a1 : Memref sig .tc .vmem S10000x64 .f32) (h1 : a1.IsWhole)
    (a2 : Memref sig .tc .vmem S10000x1 .i32) (h2 : a2.IsWhole) (a3 : Memref sig .tc .vmem S64x64 .f32) (h3 : a3.IsWhole)
    (hc : ¬cond6_0 i) (x : Vec F S10000x64 .f32) (bt : Vec F S10000x1 .i32) (xo : Vec F S64x64 .f32) :
    out6_B_2 c i a1 h1 a2 h2 a3 h3 hc x bt xo = k6_pay2 x bt xo := by
  unfold out6_B_2
  rw [View.read_writes_eq_canon _ _ _ (cover6_B_2 c i a1 h1 a2 h2 a3 h3 hc x bt xo)]
  unfold kernelRun6_B
  dsimp only
  rw [View.canon_unit_zero hz2]
  simp only [View.readAt_eq_ld, h1.read_unread, h2.read_unread, h3.read_unread, View.ld_unit_zero (S := S10000x64) hz2,
    View.ld_unit_zero (S := S10000x1) hz2, View.ld_unit_zero (S := S64x64) hz2]

/-- At the first tile the accumulator is first set to the zero block, then increased by the tile's contribution. -/
theorem out_A (c : Dev nD) (i : grid6.Coords) (a1 : Memref sig .tc .vmem S10000x64 .f32) (h1 : a1.IsWhole)
    (a2 : Memref sig .tc .vmem S10000x1 .i32) (h2 : a2.IsWhole) (a3 : Memref sig .tc .vmem S64x64 .f32) (h3 : a3.IsWhole)
    (hc : cond6_0 i) (x : Vec F S10000x64 .f32) (bt : Vec F S10000x1 .i32) :
    out6_A_2 c i a1 h1 a2 h2 a3 h3 hc x bt = k6_pay2 x bt (k6_pay1 (F := F)) := by
  unfold out6_A_2
  rw [View.read_writes_eq_canon _ _ _ (cover6_A_2 c i a1 h1 a2 h2 a3 h3 hc x bt)]
  unfold kernelRun6_A
  dsimp only
  sl_unfold_words
  rw [View.canon_cons_unit_zero (S := S64x64) hz2, View.readCov_unit_zero (S := S64x64) _ hz2]
  simp only [View.readAt_eq_ld, h1.read_unread, h2.read_unread, View.ld_unit_zero (S := S10000x64) hz2,
    View.ld_unit_zero (S := S10000x1) hz2, View.ld_unit_zero (S := S64x64) hz2]
end Pieces

/-! ## One tile's contribution at an entry -/

section Pay
open Idealize.ShloMosaic.ValueIdx

/-- The pooling product's dimension numbers: both operands contract their row axis. -/
abbrev D6 : DotDims S10000x64 S10000x64 S64x64 := dot_S10000x64_S10000x64_S64x64_0_0_1_1_n_n

theorem lhs6_0 (j : S64x64.Idx) (q : D6.contr.Idx) : (D6.lhsIdx j q 0).val = (q ⟨0, by decide⟩).val :=
  D6.lhsIdx_val_of_single rfl j q
theorem lhs6_1 (j : S64x64.Idx) (q : D6.contr.Idx) : (D6.lhsIdx j q 1).val = (j 0).val := by
  unfold DotDims.lhsIdx
  rw [dif_neg (show ¬(1 : Fin S10000x64.rank) ∈ D6.lhsBatch by decide), dif_pos (show (1 : Fin S10000x64.rank) ∈ D6.lhsNonContracting by decide)]
  rfl
theorem rhs6_0 (j : S64x64.Idx) (q : D6.contr.Idx) : (D6.rhsIdx j q 0).val = (q ⟨0, by decide⟩).val :=
  D6.rhsIdx_val_of_single rfl j q
theorem rhs6_1 (j : S64x64.Idx) (q : D6.contr.Idx) : (D6.rhsIdx j q 1).val = (j 1).val := by
  unfold DotDims.rhsIdx
  rw [dif_neg (show ¬(1 : Fin S10000x64.rank) ∈ D6.rhsBatch by decide), dif_pos (show (1 : Fin S10000x64.rank) ∈ D6.rhsNonContracting by decide)]
  rfl

/-- A comparison word, widened and read as a real, is 1 when the two words agree and 0 otherwise. -/
theorem hot_scalar (a b : BitVec 32) :
    ((((IntOp.cmpi .eq a b).setWidth 32 : BitVec 32).toInt : ℝ) : EReal) = if a = b then 1 else 0 := by
  by_cases h : a = b
  · subst h
    rw [if_pos rfl]
    have : IntOp.cmpi .eq a a = 1#1 := by simp [IntOp.cmpi]
    rw [this]
    simp
  · rw [if_neg h]
    have hb : (a == b) = false := beq_eq_false_iff_ne.mpr h
    have : IntOp.cmpi .eq a b = 0#1 := by simp [IntOp.cmpi, hb]
    rw [this]
    simp

/-- The membership matrix of a tile at (row r, graph g): 1 when row r's graph id is g, else 0. -/
theorem hot_apply (bt : IVec S10000x1 32) (r : Fin 10000) (g : Fin 64) :
    (truncf .bf16 (sitofp (F := Ideal) .f32 (extui 32 (cmpi .eq
        (broadcastTo S10000x64 (shapeCast S10000x1 bt shapeCasts_S10000x1_S10000x1) broadcasts_S10000x1_S10000x64)
        (iota .tc S10000x64 32 [1] iota_S10000x64_d1_w32)) natLt_1_32)) bitsLt_bf16_f32) (ix2 r g)
      = if bt (ix2 r 0) = BitVec.ofNat 32 g.val then 1 else 0 := by
  show ((((IntOp.cmpi .eq (broadcastTo S10000x64 (shapeCast S10000x1 bt shapeCasts_S10000x1_S10000x1) broadcasts_S10000x1_S10000x64 (ix2 r g))
      (iota .tc S10000x64 32 [1] iota_S10000x64_d1_w32 (ix2 r g))).setWidth 32 : BitVec 32).toInt : ℝ) : EReal) = _
  rw [hot_scalar, shapeCast_self, iota_single_apply,
    broadcastTo_apply bt broadcasts_S10000x1_S10000x64 (ix2 r g) (ix2 r (0 : Fin 1)) (fun a => by
      match a with
      | ⟨0, _⟩ => rfl
      | ⟨1, _⟩ => rfl)]

/-- One tile's update at (g, f): the accumulator plus the sum, over the tile's rows, of the rows whose graph id is g. -/
theorem pay2_apply (x : Vec Ideal S10000x64 .f32) (bt : Vec Ideal S10000x1 .i32) (acc : Vec Ideal S64x64 .f32) (g f : Fin 64) :
    k6_pay2 (F := Ideal) x bt acc (ix2 g f)
      = acc (ix2 g f) + ∑ r : Fin 10000, (if bt (ix2 r 0) = BitVec.ofNat 32 g.val then (1 : EReal) else 0) * x (ix2 r f) := by
  unfold k6_pay2
  dsimp only
  refine (addf_apply _ _ _).trans ?_
  rw [shapeCast_self]
  refine congrArg (acc (ix2 g f) + ·) ?_
  refine (Ideal.matmul_constant_zero_apply D6 none _ _ (ix2 g f)).trans ?_
  rw [← Equiv.sum_comp (contrEquiv1 D6 10000 rfl rfl).symm]
  refine Finset.sum_congr rfl fun r _ => ?_
  have hk := contrEquiv1_symm_val D6 10000 rfl rfl r
  have el : D6.lhsIdx (ix2 g f) ((contrEquiv1 D6 10000 rfl rfl).symm r) = ix2 r g :=
    Shape.idx_ext₂ ((lhs6_0 _ _).trans hk) (lhs6_1 _ _)
  have er : D6.rhsIdx (ix2 g f) ((contrEquiv1 D6 10000 rfl rfl).symm r) = ix2 r f :=
    Shape.idx_ext₂ ((rhs6_0 _ _).trans hk) (rhs6_1 _ _)
  rw [el, er, hot_apply, shapeCast_self]
  rfl
end Pay

/-! ## The tiles are consecutive row ranges of the two arrays -/

section Blocks
open Idealize.ShloMosaic.ValueIdx
variable (V : (c : Dev nD) → (b : Ref sig .tc) → Buf (Elt Ideal) ((c : Thread nD τ).loc b))

/-- Tile t of the node rows and of the graph-id column, and the two whole arrays. -/
abbrev hblk (c : Dev nD) (t : Fin cfg6.N) : Vec Ideal S10000x64 .f32 := iblk6 V c 0 t
abbrev bblk (c : Dev nD) (t : Fin cfg6.N) : Vec Ideal S10000x1 .i32 := iblk6 V c 1 t
abbrev harr (c : Dev nD) : Vec Ideal S100000x64 .f32 := V c main_v56
abbrev barr (c : Dev nD) : Vec Ideal S100000x1 .i32 := V c main_v57

/-- The index maps over the grid: tile t of the two operands starts at row block t; the accumulator's block never moves. -/
theorem idx_facts6 : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0 :=
  (by decide +kernel : ∀ t : Fin grid6.N, win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0)

theorem row_lt (t : Fin cfg6.N) (r : Fin 10000) : 10000 * t.val + r.val < 100000 := by
  have h1 := t.isLt; have h2 : cfg6.N = 10 := N_6; have h3 := r.isLt; omega

/-- Row r of tile t is row 10000 t + r of the array. -/
theorem hblk_apply (c : Dev nD) (t : Fin cfg6.N) (r : Fin 10000) (f : Fin 64) :
    hblk V c t (ix2 r f) = harr V c (ix2 ⟨10000 * t.val + r.val, row_lt t r⟩ f) := by
  obtain ⟨e0, e1, -⟩ := idx_facts6 t
  show iblk6 V c 0 t (ix2 r f) = V c main_v56 _
  unfold iblk6
  rw [View.read_apply]
  show V c main_v56 _ = V c main_v56 _
  congr 1
  funext a; apply Fin.ext
  match a with
  | ⟨0, _⟩ => show win6_0.index t (0 : Fin 2) * 10000 + 1 * r.val = 10000 * t.val + r.val; rw [e0]; omega
  | ⟨1, _⟩ => show win6_0.index t (1 : Fin 2) * 64 + 1 * f.val = f.val; rw [e1]; omega

theorem bblk_apply (c : Dev nD) (t : Fin cfg6.N) (r : Fin 10000) :
    bblk V c t (ix2 r (0 : Fin 1)) = barr V c (ix2 ⟨10000 * t.val + r.val, row_lt t r⟩ (0 : Fin 1)) := by
  obtain ⟨-, -, e0, e1, -⟩ := idx_facts6 t
  show iblk6 V c 1 t (ix2 r (0 : Fin 1)) = V c main_v57 _
  unfold iblk6
  rw [View.read_apply]
  show V c main_v57 _ = V c main_v57 _
  congr 1
  funext a; apply Fin.ext
  match a with
  | ⟨0, _⟩ => show win6_1.index t (0 : Fin 2) * 10000 + 1 * r.val = 10000 * t.val + r.val; rw [e0]; omega
  | ⟨1, _⟩ => show win6_1.index t (1 : Fin 2) * 1 + 1 * 0 = 0; rw [e1]
end Blocks

/-! ## The accumulator after each tile: the sum of the shares of the rows seen so far -/

section Accumulate
open Idealize.ShloMosaic.ValueIdx
variable (V : (c : Dev nD) → (b : Ref sig .tc) → Buf (Elt Ideal) ((c : Thread nD τ).loc b))

/-- Row n's entry in column f, and row n's graph id (nothing past the last row). -/
def rowAt (h : Vec Ideal S100000x64 .f32) (f : Fin 64) (n : ℕ) : EReal :=
  if hn : n < 100000 then h (ix2 ⟨n, hn⟩ f) else 0
def gidAt (bt : Vec Ideal S100000x1 .i32) (n : ℕ) : BitVec 32 :=
  if hn : n < 100000 then bt (ix2 ⟨n, hn⟩ (0 : Fin 1)) else 0#32
/-- Row n's share of entry (g, f): its entry in column f when its graph id is g, nothing otherwise. -/
def share (h : Vec Ideal S100000x64 .f32) (bt : Vec Ideal S100000x1 .i32) (g f : Fin 64) (n : ℕ) : EReal :=
  if gidAt bt n = BitVec.ofNat 32 g.val then rowAt h f n else 0

/-- Tile t's contribution to entry (g, f) is the sum of the shares of rows 10000 t .. 10000 t + 9999:
    a 0/1 factor times an entry is the entry or nothing. -/
theorem tile_sum (c : Dev nD) (t : Fin cfg6.N) (g f : Fin 64) :
    ∑ r : Fin 10000, (if bblk V c t (ix2 r (0 : Fin 1)) = BitVec.ofNat 32 g.val then (1 : EReal) else 0) * hblk V c t (ix2 r f)
      = ∑ n ∈ Finset.Ico (10000 * t.val) (10000 * t.val + 10000), share (harr V c) (barr V c) g f n := by
  rw [Finset.sum_Ico_eq_sum_range, Nat.add_sub_cancel_left,
    ← Fin.sum_univ_eq_sum_range (fun k => share (harr V c) (barr V c) g f (10000 * t.val + k)) 10000]
  refine Finset.sum_congr rfl fun r _ => ?_
  rw [hblk_apply, bblk_apply]
  unfold share gidAt rowAt
  rw [dif_pos (row_lt t r), dif_pos (row_lt t r), ite_mul, one_mul, zero_mul]

/-- The block the first tile starts from is zero everywhere. -/
theorem pay1_apply (i : S64x64.Idx) : k6_pay1 (F := Ideal) i = 0 := by
  show Ideal.ofBits .f32 0x00000000#32 = 0
  exact Ideal.ofBits_zero_f32

/-- After tile n the accumulator's entry (g, f) is the sum of the shares of the first 10000 (n + 1) rows:
    by induction on the tile, the first one starting from zero and each later one from what the one before left. -/
theorem outsAt_eq (c : Dev nD) : ∀ (n : ℕ) (hn : n < cfg6.N) (g f : Fin 64),
    outsAt6 V c n hn (ix2 g f) = ∑ k ∈ Finset.range (10000 * n + 10000), share (harr V c) (barr V c) g f k
  | 0, hn, g, f => by
    refine (congrFun ((outsAt6_A V c ⟨0, hn⟩ rfl).trans
      (out_A (F := Ideal) c (grid6.coords ⟨0, hn⟩) (ms6_0 ⟨0, hn⟩) (hs6_0 ⟨0, hn⟩) (ms6_1 ⟨0, hn⟩) (hs6_1 ⟨0, hn⟩)
        (ms6_2 ⟨0, hn⟩) (hs6_2 ⟨0, hn⟩) ((hcond6_0 ⟨0, hn⟩).mpr rfl) (hblk V c ⟨0, hn⟩) (bblk V c ⟨0, hn⟩))) (ix2 g f)).trans ?_
    refine (pay2_apply (hblk V c ⟨0, hn⟩) (bblk V c ⟨0, hn⟩) (k6_pay1 (F := Ideal)) g f).trans ?_
    rw [pay1_apply, zero_add, tile_sum, Finset.range_eq_Ico]
    rfl
  | n + 1, hn, g, f => by
    have hN : cfg6.N = 10 := N_6
    have hB : ¬(⟨n + 1, hn⟩ : Fin cfg6.N).val % 10 = 0 := by dsimp only; omega
    refine (congrFun ((outsAt6_B V c ⟨n + 1, hn⟩ hB).trans
      (out_B (F := Ideal) c (grid6.coords ⟨n + 1, hn⟩) (ms6_0 ⟨n + 1, hn⟩) (hs6_0 ⟨n + 1, hn⟩) (ms6_1 ⟨n + 1, hn⟩) (hs6_1 ⟨n + 1, hn⟩)
        (ms6_2 ⟨n + 1, hn⟩) (hs6_2 ⟨n + 1, hn⟩) (fun h => hB ((hcond6_0 ⟨n + 1, hn⟩).mp h)) (hblk V c ⟨n + 1, hn⟩) (bblk V c ⟨n + 1, hn⟩)
        (outsAt6 V c n (Nat.lt_of_succ_lt hn)))) (ix2 g f)).trans ?_
    refine (pay2_apply (hblk V c ⟨n + 1, hn⟩) (bblk V c ⟨n + 1, hn⟩) (outsAt6 V c n (Nat.lt_of_succ_lt hn)) g f).trans ?_
    rw [outsAt_eq c n (Nat.lt_of_succ_lt hn) g f, tile_sum]
    show ∑ k ∈ Finset.range (10000 * n + 10000), share (harr V c) (barr V c) g f k
        + ∑ k ∈ Finset.Ico (10000 * (n + 1)) (10000 * (n + 1) + 10000), share (harr V c) (barr V c) g f k = _
    rw [show 10000 * n + 10000 = 10000 * (n + 1) from by omega]
    exact Finset.sum_range_add_sum_Ico _ (by omega)
end Accumulate

/-! ## The one write-back, after the last tile, is the whole result array -/

section Final
open Idealize.ShloMosaic.ValueIdx
variable (V : (c : Dev nD) → (b : Ref sig .tc) → Buf (Elt Ideal) ((c : Thread nD τ).loc b))

/-- The accumulator after the last tile, as contents of the result array (its one block is the array). -/
abbrev result (c : Dev nD) : Buf (Elt Ideal) ((c : Thread nD τ).loc main_v58) :=
  outsAt6 V c 9 (by rw [show cfg6.N = 10 from N_6]; decide)

/-- Only the last point writes back, and what it writes is the accumulator. -/
theorem flushed_eq (c : Dev nD) (t : Fin cfg6.N) (hf : (cfg6.win 2).flush t = true) :
    (dat6 V c).flushed 2 t = ((cfg6.win 2).blk t).view.read (Elt Ideal) (result V c) := by
  have hN : cfg6.N = 10 := N_6
  have h9 : t.val = 9 := by have := (flush6_2 t).mp hf; have := t.isLt; omega
  obtain rfl : t = t6_9 := Fin.ext h9
  show (cfg6.win 2).cut (grid6.coords t6_9) ((dat6 V c).after 2 t6_9) = _
  rw [after6_2]
  have hz' : (fun a => win6_2.index t6_9 a * main_v58.ty.shape.size a) = fun _ => 0 := funext fun a => by fin_cases a <;> decide
  exact (Memref.read_access_unit_zero (Elt Ideal) main_v58 hz' (fun a => by rw [congrFun hz' a]; simp) (result V c)).symm

/-- So the result array ends holding the accumulator after the last tile: that point's block covers it. -/
theorem final (c : Dev nD) : (dat6 V c).arrAt 2 cfg6.N = result V c :=
  (dat6 V c).arrAt_eq_of_cover 2 (result V c) (flushed_eq V c) fun i =>
    ⟨t6_9, (flush6_2 t6_9).mpr rfl, by
      show i ∈ ((View.whole main_v58).slice (win6_2.rect t6_9)).set
      rw [View.set_slice_whole, Rect.mem_set_unit]
      intro a
      have h0 : (i 0 : Nat) < 64 := (i 0).isLt
      have h1 : (i 1 : Nat) < 64 := (i 1).isLt
      match a with
      | ⟨0, _⟩ =>
        show win6_2.index t6_9 0 * win6_2.size 0 ≤ (i 0 : Nat) ∧ (i 0 : Nat) < win6_2.index t6_9 0 * win6_2.size 0 + win6_2.xsize (grid6.coords t6_9) 0
        rw [show win6_2.index t6_9 0 * win6_2.size 0 = 0 from by decide +kernel, show win6_2.xsize (grid6.coords t6_9) 0 = 64 from by decide +kernel]; omega
      | ⟨1, _⟩ =>
        show win6_2.index t6_9 1 * win6_2.size 1 ≤ (i 1 : Nat) ∧ (i 1 : Nat) < win6_2.index t6_9 1 * win6_2.size 1 + win6_2.xsize (grid6.coords t6_9) 1
        rw [show win6_2.index t6_9 1 * win6_2.size 1 = 0 from by decide +kernel, show win6_2.xsize (grid6.coords t6_9) 1 = 64 from by decide +kernel]; omega⟩

/-- The accumulator after the last tile is the per-graph sum of the rows: all 100000 rows have been seen, and
    the sum of their shares is the scatter-add's entry. -/
theorem result_eq (c : Dev nD) :
    (result V c : Vec Ideal S64x64 .f32) = Cert.Spec.pool (F := Ideal) (V c main_v56) (V c main_v57) := by
  funext i
  obtain ⟨g, f, rfl⟩ : ∃ (g f : Fin 64), i = ix2 g f := ⟨i 0, i 1, eq_ix2 i⟩
  refine (outsAt_eq V c 9 _ g f).trans ?_
  rw [Cert.PoolSpec.pool_apply]
  show ∑ k ∈ Finset.range 100000, share (harr V c) (barr V c) g f k = _
  rw [← Fin.sum_univ_eq_sum_range (share (harr V c) (barr V c) g f) 100000]
  refine Finset.sum_congr rfl fun n _ => ?_
  unfold share gidAt rowAt
  rw [dif_pos n.isLt, dif_pos n.isLt]
end Final

variable (V : (c : Dev nD) → (b : Ref sig .tc) → Buf (Elt Ideal) ((c : Thread nD τ).loc b))

/-- Region 6. -/
theorem pool6_val (c : Dev nD) :
    (dat6 (F := Ideal) V c).arrAt 2 cfg6.N = Cert.Spec.pool (F := Ideal) (V c main_v56) (V c main_v57) := by
  rw [final V c]
  exact result_eq V c

end Cert.KernelIdeal.RegPool
end
-- ==== Proof.RegHead.lean ====
/- The head region (one grid point): two affine layers with max(., 0) between, then the row-wise log-softmax. -/
import proofs.«422269_j16982300688846_2_alg».proof.Proof.Gen.KernelIdeal.Frame
import proofs.«422269_j16982300688846_2_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.KernelVsHost

noncomputable section

namespace Cert.KernelIdeal.RegHead
open Cert.KernelIdeal Cert.KernelIdeal.Gen Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

/-! ## The body's arithmetic against the head of the specification, at the ideal values -/

section Pay

/-- A one-row matrix laid down 64 rows of 64: the two spellings of the broadcast agree. -/
theorem bcast_rows_64x64 (x : FVec Ideal S1x64 .f32) (hb : S1x64.Broadcasts S64x64)
    (hd : S1x64.BroadcastsInDim S64x64 ![0, 1]) :
    broadcastTo S64x64 x hb = broadcastInDim S64x64 ![0, 1] hd x := by
  funext j
  have e1 := broadcastTo_apply x hb j (ValueIdx.ix2 (0 : Fin 1) (j 1 : Fin 64)) (by
    intro a
    match a with
    | ⟨0, _⟩ => rfl
    | ⟨1, _⟩ => rfl)
  have e2 := broadcastInDim_apply ![0, 1] hd x j (ValueIdx.ix2 (0 : Fin 1) (j 1 : Fin 64)) (by
    intro a
    match a with
    | ⟨0, _⟩ => rfl
    | ⟨1, _⟩ => rfl)
  exact e1.trans e2.symm

/-- A one-row matrix laid down 64 rows of 8. -/
theorem bcast_rows_64x8 (x : FVec Ideal S1x8 .f32) (hb : S1x8.Broadcasts S64x8)
    (hd : S1x8.BroadcastsInDim S64x8 ![0, 1]) :
    broadcastTo S64x8 x hb = broadcastInDim S64x8 ![0, 1] hd x := by
  funext j
  have e1 := broadcastTo_apply x hb j (ValueIdx.ix2 (0 : Fin 1) (j 1 : Fin 8)) (by
    intro a
    match a with
    | ⟨0, _⟩ => rfl
    | ⟨1, _⟩ => rfl)
  have e2 := broadcastInDim_apply ![0, 1] hd x j (ValueIdx.ix2 (0 : Fin 1) (j 1 : Fin 8)) (by
    intro a
    match a with
    | ⟨0, _⟩ => rfl
    | ⟨1, _⟩ => rfl)
  exact e1.trans e2.symm

/-- A one-column matrix laid along 8 columns. -/
theorem bcast_cols_64x8 (x : FVec Ideal S64x1 .f32) (hb : S64x1.Broadcasts S64x8)
    (hd : S64x1.BroadcastsInDim S64x8 ![0, 1]) :
    broadcastTo S64x8 x hb = broadcastInDim S64x8 ![0, 1] hd x := by
  funext j
  have e1 := broadcastTo_apply x hb j (ValueIdx.ix2 (j 0 : Fin 64) (0 : Fin 1)) (by
    intro a
    match a with
    | ⟨0, _⟩ => rfl
    | ⟨1, _⟩ => rfl)
  have e2 := broadcastInDim_apply ![0, 1] hd x j (ValueIdx.ix2 (j 0 : Fin 64) (0 : Fin 1)) (by
    intro a
    match a with
    | ⟨0, _⟩ => rfl
    | ⟨1, _⟩ => rfl)
  exact e1.trans e2.symm

/-- A vector of 64 entries stood up as one column: the cast is the broadcast along axis 0. -/
theorem cast_col_64 (x : FVec Ideal S64 .f32) (hc : S64.ShapeCasts S64x1)
    (hd : S64.BroadcastsInDim S64x1 ![0]) :
    shapeCast S64x1 x hc = broadcastInDim S64x1 ![0] hd x := by
  funext j
  have e1 := shapeCast_apply x hc j (ValueIdx.ix1 (j 0 : Fin 64)) (by
    rw [Shape.rowMajor_val_two, Shape.rowMajor_val_one]
    have h1 : (j 1).val < 1 := (j 1).isLt
    show (j 0).val = (j 0).val * 1 + (j 1).val
    omega)
  have e2 := broadcastInDim_apply ![0] hd x j (ValueIdx.ix1 (j 0 : Fin 64)) (by
    intro a
    match a with
    | ⟨0, _⟩ => rfl)
  exact e1.trans e2.symm

end Pay

section Pay2

/-- The row maximum: the fold of max from -inf over the 8 columns on both sides; the host's further max with -inf changes nothing. -/
theorem rowmax_eq (o : FVec Ideal S64x8 .f32)
    (h' : S64x8.ReducesTo [1] S64) (hu : 0 < S_.numel) (hd : S_.BroadcastsInDim S64 ![]) :
    multiReduction .maximumf [1] S64 o 0xFF800000#32 reduces_S64x8_S64 (.inl rfl) rfl
      = maximumf (broadcastInDim S64 ![] hd (constant S_ .f32 0xFF800000#32))
          (Host.reduce FloatOps.maximumf o (constant S_ .f32 0xFF800000#32) h' hu) := by
  funext j
  have hbot : Ideal.ofBits .f32 0xFF800000#32 = ⊥ := by simp [Ideal.ofBits, Ideal.ieee]
  refine (Ideal.multiReduction_maximumf_single o _ reduces_S64x8_S64 _ _ j).trans ?_
  refine Eq.trans ?_ (max_eq_right (a := Ideal.ofBits .f32 0xFF800000#32)
    (b := Host.reduce FloatOps.maximumf o (constant S_ .f32 0xFF800000#32) h' hu j) (by rw [hbot]; exact bot_le)).symm
  rw [Host.reduce_eq_fold_single FloatOps.maximumf o _ h' reduces_S64x8_S64 hu j]
  rfl

/-- The row sum: zero plus the sum over the 8 columns on both sides. -/
theorem rowsum_eq (e : FVec Ideal S64x8 .f32)
    (h' : S64x8.ReducesTo [1] S64) (hu : 0 < S_.numel) :
    multiReduction .add [1] S64 e 0x00000000#32 reduces_S64x8_S64 (.inl rfl) rfl
      = Host.reduceAdd e (constant S_ .f32 0x00000000#32) h' hu :=
  multiReduction_add_eq_hostReduceAdd e _ reduces_S64x8_S64 _ _ _ h' hu
    (show Ideal.ofBits .f32 0x00000000#32 = 0 from Ideal.ofBits_zero_f32)

end Pay2

section Pay3

/-- Rounding to sixteen bits changes nothing at the ideal values. -/
theorem truncf_bf16_eq {s : Shape} (v : FVec Ideal s .f32) (h : FTy.bf16.bits < FTy.f32.bits) :
    (truncf .bf16 v h : FVec Ideal s .bf16) = v := rfl

/-- The exponential and the logarithm are the same functions on both sides. -/
theorem exp_eq_hostExp {s : Shape} (v : FVec Ideal s .f32) : exp v = Host.exp v := rfl
theorem log_eq_hostLog {s : Shape} (v : FVec Ideal s .f32) : log v = Host.log v := rfl

/-- The body's arithmetic is the head of the specification: two affine layers with max(., 0) between, then each row less
    its maximum, less the logarithm of the sum of the exponentials of that difference. -/
theorem pay_eq (p w1 : FVec Ideal S64x64 .f32) (b1 : FVec Ideal S1x64 .f32) (w2 : FVec Ideal S64x8 .f32)
    (b2 : FVec Ideal S1x8 .f32) :
    k7_pay1 p w1 b1 w2 b2 = Cert.Spec.head p w1 b1 w2 b2 := by
  unfold k7_pay1 Cert.Spec.head Cert.Spec.logSoftmax Cert.Spec.shifted Cert.Spec.logits Cert.Spec.hidden
  simp only [shapeCast_self, truncf_bf16_eq, matmul_zero_eq_dotGeneral]
  rw [bcast_rows_64x64 b1 _ Cert.ReferenceIdeal.Gen.bcast_S1x64_S64x64_0_1,
    bcast_rows_64x8 b2 _ Cert.ReferenceIdeal.Gen.bcast_S1x8_S64x8_0_1,
    rowmax_eq _ Cert.ReferenceIdeal.Gen.reducesTo_S64x8_S64_d1 Cert.ReferenceIdeal.Gen.h_S_
      Cert.ReferenceIdeal.Gen.bcast_S_S64,
    cast_col_64 _ _ Cert.ReferenceIdeal.Gen.bcast_S64_S64x1_0,
    bcast_cols_64x8 _ _ Cert.ReferenceIdeal.Gen.bcast_S64x1_S64x8_0_1,
    exp_eq_hostExp,
    rowsum_eq _ Cert.ReferenceIdeal.Gen.reducesTo_S64x8_S64_d1 Cert.ReferenceIdeal.Gen.h_S_,
    cast_col_64 _ _ Cert.ReferenceIdeal.Gen.bcast_S64_S64x1_0,
    log_eq_hostLog,
    bcast_cols_64x8 _ _ Cert.ReferenceIdeal.Gen.bcast_S64x1_S64x8_0_1]
  rfl

end Pay3
/-- The zero offset on two axes. -/
theorem hz2 : (![0, 0] : Fin 2 → Nat) = fun _ => 0 := funext fun a => by fin_cases a <;> rfl

/-- At the one grid point every window's block index is zero on both axes. -/
theorem idx_facts7 : ∀ t : Fin cfg7.N,
    win7_0.index t (0 : Fin 2) = 0 ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0 :=
  (by decide +kernel : ∀ t : Fin grid7.N, _)

/-- Each input window's block at the one point is its whole array. -/
theorem iblk7_0_eq (c : Dev nD) (t : Fin cfg7.N) : iblk7 (F := Ideal) V c 0 t = V c main_v67 := by
  funext j
  show V c main_v67 (((cfg7.win 0).blk t).view.emb j) = V c main_v67 j
  refine congrArg (V c main_v67) ?_
  obtain ⟨e0, e1, -⟩ := idx_facts7 t
  funext a; apply Fin.ext
  match a with
  | ⟨0, _⟩ => show win7_0.index t (0 : Fin 2) * 64 + 1 * (j 0).val = (j 0).val; omega
  | ⟨1, _⟩ => show win7_0.index t (1 : Fin 2) * 64 + 1 * (j 1).val = (j 1).val; omega

theorem iblk7_1_eq (c : Dev nD) (t : Fin cfg7.N) : iblk7 (F := Ideal) V c 1 t = V c main_arg7 := by
  funext j
  show V c main_arg7 (((cfg7.win 1).blk t).view.emb j) = V c main_arg7 j
  refine congrArg (V c main_arg7) ?_
  obtain ⟨-, -, e0, e1, -⟩ := idx_facts7 t
  funext a; apply Fin.ext
  match a with
  | ⟨0, _⟩ => show win7_1.index t (0 : Fin 2) * 64 + 1 * (j 0).val = (j 0).val; omega
  | ⟨1, _⟩ => show win7_1.index t (1 : Fin 2) * 64 + 1 * (j 1).val = (j 1).val; omega

theorem iblk7_2_eq (c : Dev nD) (t : Fin cfg7.N) : iblk7 (F := Ideal) V c 2 t = V c main_v68 := by
  funext j
  show V c main_v68 (((cfg7.win 2).blk t).view.emb j) = V c main_v68 j
  refine congrArg (V c main_v68) ?_
  obtain ⟨-, -, -, -, e0, e1, -⟩ := idx_facts7 t
  funext a; apply Fin.ext
  match a with
  | ⟨0, _⟩ => show win7_2.index t (0 : Fin 2) * 1 + 1 * (j 0).val = (j 0).val; omega
  | ⟨1, _⟩ => show win7_2.index t (1 : Fin 2) * 64 + 1 * (j 1).val = (j 1).val; omega

theorem iblk7_3_eq (c : Dev nD) (t : Fin cfg7.N) : iblk7 (F := Ideal) V c 3 t = V c main_arg9 := by
  funext j
  show V c main_arg9 (((cfg7.win 3).blk t).view.emb j) = V c main_arg9 j
  refine congrArg (V c main_arg9) ?_
  obtain ⟨-, -, -, -, -, -, e0, e1, -⟩ := idx_facts7 t
  funext a; apply Fin.ext
  match a with
  | ⟨0, _⟩ => show win7_3.index t (0 : Fin 2) * 64 + 1 * (j 0).val = (j 0).val; omega
  | ⟨1, _⟩ => show win7_3.index t (1 : Fin 2) * 8 + 1 * (j 1).val = (j 1).val; omega

theorem iblk7_4_eq (c : Dev nD) (t : Fin cfg7.N) : iblk7 (F := Ideal) V c 4 t = V c main_v69 := by
  funext j
  show V c main_v69 (((cfg7.win 4).blk t).view.emb j) = V c main_v69 j
  refine congrArg (V c main_v69) ?_
  obtain ⟨-, -, -, -, -, -, -, -, e0, e1, -⟩ := idx_facts7 t
  funext a; apply Fin.ext
  match a with
  | ⟨0, _⟩ => show win7_4.index t (0 : Fin 2) * 1 + 1 * (j 0).val = (j 0).val; omega
  | ⟨1, _⟩ => show win7_4.index t (1 : Fin 2) * 8 + 1 * (j 1).val = (j 1).val; omega

/-- What the one point writes back is the head of the specification, read through the output window's block. -/
theorem flushed5_eq (c : Dev nD) (t : Fin cfg7.N) :
    (dat7 (F := Ideal) V c).flushed 5 t = ((cfg7.win 5).blk t).view.read (Elt Ideal)
      (Cert.Spec.head (F := Ideal) (V c main_v67) (V c main_arg7) (V c main_v68) (V c main_arg9) (V c main_v69)) := by
  show (cfg7.win 5).cut (grid7.coords t) ((dat7 V c).after 5 t) = _
  rw [after7_5]
  unfold out7_5
  rw [View.canon_unit_zero hz2]
  simp only [View.ld_unit_zero (S := S64x64) hz2, View.ld_unit_zero (S := S1x64) hz2, View.ld_unit_zero (S := S64x8) hz2,
    View.ld_unit_zero (S := S1x8) hz2]
  rw [iblk7_0_eq V c t, iblk7_1_eq V c t, iblk7_2_eq V c t, iblk7_3_eq V c t, iblk7_4_eq V c t, pay_eq]
  funext j
  show Cert.Spec.head (F := Ideal) (V c main_v67) (V c main_arg7) (V c main_v68) (V c main_arg9) (V c main_v69)
      ((cfg7.win 5).xinj (grid7.coords t) j)
    = Cert.Spec.head (F := Ideal) (V c main_v67) (V c main_arg7) (V c main_v68) (V c main_arg9) (V c main_v69)
      (((cfg7.win 5).blk t).view.emb j)
  refine congrArg (Cert.Spec.head (F := Ideal) (V c main_v67) (V c main_arg7) (V c main_v68) (V c main_arg9) (V c main_v69)) ?_
  obtain ⟨-, -, -, -, -, -, -, -, -, -, e0, e1⟩ := idx_facts7 t
  funext a; apply Fin.ext
  match a with
  | ⟨0, _⟩ => show (j 0).val = win7_5.index t (0 : Fin 2) * 64 + 1 * (j 0).val; omega
  | ⟨1, _⟩ => show (j 1).val = win7_5.index t (1 : Fin 2) * 8 + 1 * (j 1).val; omega

/-- An index of the output array is in the point's block iff each coordinate is in the block's range on its axis. -/
theorem mem_blk5 (t : Fin cfg7.N) (i : S64x8.Idx) :
    i ∈ ((cfg7.win 5).blk t).view.set ↔ ∀ a : Fin 2, win7_5.index t a * S64x8.size a ≤ (i a).val ∧ (i a).val < win7_5.index t a * S64x8.size a + S64x8.size a := by
  show i ∈ ((View.whole main_v70).slice (win7_5.rect t)).set ↔ _
  rw [View.set_slice_whole, Rect.mem_set_unit]
  exact Iff.rfl

/-- The one block covers the whole output array. -/
theorem cover5 (i : S64x8.Idx) : ∃ t : Fin cfg7.N, (cfg7.win 5).flush t = true ∧ i ∈ ((cfg7.win 5).blk t).view.set := by
  refine ⟨t7_0, flush7_5 t7_0, ?_⟩
  rw [mem_blk5]
  obtain ⟨-, -, -, -, -, -, -, -, -, -, e0, e1⟩ := idx_facts7 t7_0
  intro a
  match a with
  | ⟨0, _⟩ =>
    show win7_5.index t7_0 (0 : Fin 2) * 64 ≤ (i 0).val ∧ (i 0).val < win7_5.index t7_0 (0 : Fin 2) * 64 + 64
    have h0 : (i 0).val < 64 := (i 0).isLt
    omega
  | ⟨1, _⟩ =>
    show win7_5.index t7_0 (1 : Fin 2) * 8 ≤ (i 1).val ∧ (i 1).val < win7_5.index t7_0 (1 : Fin 2) * 8 + 8
    have h1 : (i 1).val < 8 := (i 1).isLt
    omega

/-- Region 7. -/
theorem head7_val (c : Dev nD) :
    (dat7 (F := Ideal) V c).arrAt 5 cfg7.N
      = Cert.Spec.head (F := Ideal) (V c main_v67) (V c main_arg7) (V c main_v68) (V c main_arg9) (V c main_v69) :=
  (dat7 (F := Ideal) V c).arrAt_eq_of_cover 5 _ (fun t _ => flushed5_eq V c t) cover5

end Cert.KernelIdeal.RegHead
end
-- ==== Proof.Chain.lean ====
/- The kernel's @main read segment by segment.  At every boundary between two segments, the buffer the next
   segment reads holds the reference's stage of the same name-by-meaning: the projected features, the gathered rows,
   the scaled messages, their scatter-add, the updated nodes (twice), the per-graph sums, their means, and last
   the log-softmax of the head.  Host stretches are the reference's own operations; a kernel region is one of the
   five array functions of the specification, as the reference's stage is. -/
import proofs.«422269_j16982300688846_2_alg».proof.Proof.KRun
import proofs.«422269_j16982300688846_2_alg».proof.Proof.Host
import proofs.«422269_j16982300688846_2_alg».proof.Proof.Keep
import proofs.«422269_j16982300688846_2_alg».proof.Proof.Reshape
import proofs.«422269_j16982300688846_2_alg».proof.Proof.RefSpec
import proofs.«422269_j16982300688846_2_alg».proof.Proof.RegLin
import proofs.«422269_j16982300688846_2_alg».proof.Proof.RegScale
import proofs.«422269_j16982300688846_2_alg».proof.Proof.RegFin
import proofs.«422269_j16982300688846_2_alg».proof.Proof.RegPool
import proofs.«422269_j16982300688846_2_alg».proof.Proof.RegHead

set_option maxRecDepth 16384

noncomputable section

namespace Cert.KernelIdeal.Chain

open Cert.KernelIdeal Cert.KernelIdeal.Gen Idealize.ShloMosaic Idealize.ShloMosaic.TcCoe Idealize.SL.Sem Idealize.ShloMosaic.StableHlo
open Cert.ReferenceIdeal.Read

variable (m : (ℓ : Loc nD τ sig) → Buf (Elt Ideal) ℓ) (ρ : Dev nD → PrngReg) (c : Dev nD)

/-! ## After the first stretch -/

theorem w1_v1 : W1 m ρ c (Proc.devRef .tc main_v1) = val_main_v1 (F := Ideal) (m ((c : Thread nD τ).loc main_arg1)) :=
  Host.host0_v1 (W0 m ρ c)

theorem w1_v3 : W1 m ρ c (Proc.devRef .tc main_v3) = val_main_v3 (F := Ideal) (m ((c : Thread nD τ).loc main_arg1)) :=
  Host.host0_v3 (W0 m ρ c)

/-- The squared degree factors, a column: the reference's broadcast of the same vector. -/
theorem w1_v12 : W1 m ρ c (Proc.devRef .tc main_v12) = val_main_v41 (F := Ideal) (m ((c : Thread nD τ).loc main_arg1)) :=
  (Host.host0_v12 (W0 m ρ c)).trans (Cert.Reshape.col_N _)

/-- The edge coefficients, a column: the reference's broadcast of the same vector. -/
theorem w1_v28 : W1 m ρ c (Proc.devRef .tc main_v28) = val_main_v34 (F := Ideal) (m ((c : Thread nD τ).loc main_arg1)) :=
  (Host.host0_v28 (W0 m ρ c)).trans (Cert.Reshape.col_E _)

/-! ## Layer one -/

/-- Region 0 leaves x W1. -/
theorem w2_v29 : W2 m ρ c (Proc.devRef .tc main_v29) = val_main_v11 (F := Ideal) (m ((c : Thread nD τ).loc main_arg0)) (m ((c : Thread nD τ).loc main_arg3)) := by
  have h := RegLin.lin0_val (V1 m ρ) c
  rw [Keep.r0_arg0 m ρ c, Keep.r0_arg3 m ρ c] at h
  exact (W2_arr m ρ c 2).trans (h.trans (Cert.RefSpec.v11_eq _ _).symm)

/-- The gathered rows. -/
theorem w3_v36 : W3 m ρ c (Proc.devRef .tc main_v36) = val_main_v33 (F := Ideal) (m ((c : Thread nD τ).loc main_arg0)) (m ((c : Thread nD τ).loc main_arg1)) (m ((c : Thread nD τ).loc main_arg3)) :=
  Host.host1_v36 (W2 m ρ c) _ _ _ (w2_v29 m ρ c) ((Keep.h1_v1 m ρ c).trans (w1_v1 m ρ c))

/-- Region 1 leaves the scaled messages. -/
theorem w4_v37 : W4 m ρ c (Proc.devRef .tc main_v37) = val_main_v36 (F := Ideal) (m ((c : Thread nD τ).loc main_arg0)) (m ((c : Thread nD τ).loc main_arg1)) (m ((c : Thread nD τ).loc main_arg3)) := by
  have h := RegScale.scale1_val (V3 m ρ) c
  rw [show V3 m ρ c main_v36 = _ from w3_v36 m ρ c, (Keep.r1_v28 m ρ c).trans (w1_v28 m ρ c)] at h
  exact (W4_arr m ρ c 2).trans (h.trans (Cert.RefSpec.v36_eq _ _ _).symm)

/-- Their scatter-add at the target columns. -/
theorem w5_v40 : W5 m ρ c (Proc.devRef .tc main_v40) = val_main_v39 (F := Ideal) (m ((c : Thread nD τ).loc main_arg0)) (m ((c : Thread nD τ).loc main_arg1)) (m ((c : Thread nD τ).loc main_arg3)) :=
  Host.host2_v40 (W4 m ρ c) _ _ _ ((Keep.h2_v3 m ρ c).trans (w1_v3 m ρ c)) (w4_v37 m ρ c)

/-- The bias as a row. -/
theorem w5_v41 : W5 m ρ c (Proc.devRef .tc main_v41) = val_main_v45 (F := Ideal) (m ((c : Thread nD τ).loc main_arg4)) := by
  refine (Host.host2_v41 (W4 m ρ c)).trans ?_
  rw [Keep.h2_arg4 m ρ c]
  exact Cert.Reshape.row_64 _

/-- Region 2 leaves the first layer's nodes. -/
theorem w6_v42 : W6 m ρ c (Proc.devRef .tc main_v42) = val_main_v48 (F := Ideal) (m ((c : Thread nD τ).loc main_arg0)) (m ((c : Thread nD τ).loc main_arg1)) (m ((c : Thread nD τ).loc main_arg3)) (m ((c : Thread nD τ).loc main_arg4)) := by
  have h := RegFin.fin2_val (V5 m ρ) c
  rw [show V5 m ρ c main_v40 = _ from w5_v40 m ρ c, (Keep.r2_v29 m ρ c).trans (w2_v29 m ρ c),
    (Keep.r2_v12 m ρ c).trans (w1_v12 m ρ c), show V5 m ρ c main_v41 = _ from w5_v41 m ρ c] at h
  exact (W6_arr m ρ c 4).trans (h.trans (Cert.RefSpec.v48_eq _ _ _ _).symm)

/-! ## Layer two -/

/-- Region 3 leaves h1 W2. -/
theorem w7_v43 : W7 m ρ c (Proc.devRef .tc main_v43) = val_main_v49 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  have h := RegLin.lin3_val (V6 m ρ) c
  rw [show V6 m ρ c main_v42 = _ from w6_v42 m ρ c, Keep.r3_arg5 m ρ c] at h
  exact (W7_arr m ρ c 2).trans (h.trans (Cert.RefSpec.v49_eq _ _ _ _ _).symm)

theorem w8_v50 : W8 m ρ c (Proc.devRef .tc main_v50) = val_main_v71 (F := Ideal) (m ((c : Thread nD τ).loc main_arg0)) (m ((c : Thread nD τ).loc main_arg1)) (m ((c : Thread nD τ).loc main_arg3)) (m ((c : Thread nD τ).loc main_arg4)) (m ((c : Thread nD τ).loc main_arg5)) :=
  Host.host4_v50 (W7 m ρ c) _ _ _ _ _ (w7_v43 m ρ c) ((Keep.h4_v1 m ρ c).trans (w1_v1 m ρ c))

theorem w9_v51 : W9 m ρ c (Proc.devRef .tc main_v51) = val_main_v74 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  have h := RegScale.scale4_val (V8 m ρ) c
  rw [show V8 m ρ c main_v50 = _ from w8_v50 m ρ c, (Keep.r4_v28 m ρ c).trans (w1_v28 m ρ c)] at h
  exact (W9_arr m ρ c 2).trans (h.trans (Cert.RefSpec.v74_eq _ _ _ _ _).symm)

theorem w10_v54 : W10 m ρ c (Proc.devRef .tc main_v54) = val_main_v77 (F := Ideal) (m ((c : Thread nD τ).loc main_arg0)) (m ((c : Thread nD τ).loc main_arg1)) (m ((c : Thread nD τ).loc main_arg3)) (m ((c : Thread nD τ).loc main_arg4)) (m ((c : Thread nD τ).loc main_arg5)) :=
  Host.host5_v54 (W9 m ρ c) _ _ _ _ _ ((Keep.h5_v3 m ρ c).trans (w1_v3 m ρ c)) (w9_v51 m ρ c)

theorem w10_v55 : W10 m ρ c (Proc.devRef .tc main_v55) = val_main_v83 (F := Ideal) (m ((c : Thread nD τ).loc main_arg6)) := by
  refine (Host.host5_v55 (W9 m ρ c)).trans ?_
  rw [Keep.h5_arg6 m ρ c]
  exact Cert.Reshape.row_64 _

/-- Region 5 leaves the second layer's nodes. -/
theorem w11_v56 : W11 m ρ c (Proc.devRef .tc main_v56) = val_main_v86 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  have h := RegFin.fin5_val (V10 m ρ) c
  rw [show V10 m ρ c main_v54 = _ from w10_v54 m ρ c, (Keep.r5_v43 m ρ c).trans (w7_v43 m ρ c),
    (Keep.r5_v12 m ρ c).trans (w1_v12 m ρ c), show V10 m ρ c main_v55 = _ from w10_v55 m ρ c] at h
  exact (W11_arr m ρ c 4).trans (h.trans (Cert.RefSpec.v86_eq _ _ _ _ _ _).symm)

/-! ## Pooling and the head -/

/-- The graph ids as a column. -/
theorem w12_v57 : W12 m ρ c (Proc.devRef .tc main_v57) = val_main_v88 (F := Ideal) (m ((c : Thread nD τ).loc main_arg2)) := by
  refine (Host.host6_v57 (W11 m ρ c)).trans ?_
  rw [Keep.h6_arg2 m ρ c]
  exact Cert.Reshape.col_N _

/-- Region 6 leaves the per-graph sums. -/
theorem w13_v58 : W13 m ρ c (Proc.devRef .tc main_v58) = val_main_v89 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  have h := RegPool.pool6_val (V12 m ρ) c
  rw [(Keep.r6_v56 m ρ c).trans (w11_v56 m ρ c), show V12 m ρ c main_v57 = _ from w12_v57 m ρ c] at h
  exact (W13_arr m ρ c 2).trans (h.trans (Cert.RefSpec.v89_eq _ _ _ _ _ _ _).symm)

/-- The per-graph means. -/
theorem w14_v67 : W14 m ρ c (Proc.devRef .tc main_v67) = val_main_v98 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  Host.host7_v67 (W13 m ρ c) _ _ _ _ _ _ _ (w13_v58 m ρ c) (Keep.h7_arg2 m ρ c)

theorem w14_v68 : W14 m ρ c (Proc.devRef .tc main_v68) = val_main_v100 (F := Ideal) (m ((c : Thread nD τ).loc main_arg8)) := by
  refine (Host.host7_v68 (W13 m ρ c)).trans ?_
  rw [Keep.h7_arg8 m ρ c]
  exact Cert.Reshape.row_64 _

theorem w14_v69 : W14 m ρ c (Proc.devRef .tc main_v69) = val_main_v105 (F := Ideal) (m ((c : Thread nD τ).loc main_arg10)) := by
  refine (Host.host7_v69 (W13 m ρ c)).trans ?_
  rw [Keep.h7_arg10 m ρ c]
  exact Cert.Reshape.row_8 _

/-- Region 7 leaves the reference's result. -/
theorem w15_v70 : W15 m ρ c (Proc.devRef .tc main_v70) = val_main_v108 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  have h := RegHead.head7_val (V14 m ρ) c
  rw [show V14 m ρ c main_v67 = _ from w14_v67 m ρ c, Keep.r7_arg7 m ρ c, show V14 m ρ c main_v68 = _ from w14_v68 m ρ c,
    Keep.r7_arg9 m ρ c, show V14 m ρ c main_v69 = _ from w14_v69 m ρ c] at h
  exact (W15_arr m ρ c 5).trans (h.trans (Cert.RefSpec.v108_eq _ _ _ _ _ _ _ _ _ _ _).symm)

/-! ## The run -/

/-- Every weakly fair execution of the idealized kernel's @main terminates with its result buffer at the
    reference's last stage of the argument arrays, and the arguments unchanged. -/
theorem run : θ_run defs (onTc (τ := τ) (main (F := Ideal))) ⟨m, fun _ => 0, ρ⟩ (fun r => ∀ c : Dev nD,
      r.2.mem ((c.tc : Thread nD τ).loc main_v70) = val_main_v108 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (w15_v70 m ρ c), (h c).2⟩) (Gen.run_named m ρ)

end Cert.KernelIdeal.Chain

end
-- ==== Proof.lean ====
/- Two-layer graph convolution, mean pooling per graph and a two-layer head with a row-wise log-softmax: the
   Pallas program against its jnp reference, as extended reals.

   Both programs compute, from the edge list, the inverse square roots of the node degrees (a scatter-add of ones,
   plus one) and the per-edge coefficients dinv[row] * dinv[col]; then twice: project the node features by a 64 x 64
   matrix, gather the projected rows at the edges' source nodes, scale each gathered row by its edge coefficient,
   scatter-add the rows at the edges' target nodes, and update every node to
   max(agg + h * dinv^2 + b, 0); then sum the node rows of each graph, divide by max(count, 1), and apply the head.
   The gathers, scatter-adds, degree arithmetic and the mean's quotient are host operations in BOTH programs, the
   same ones.  What differs is that the kernel computes the projections, the scaling, the node update, the per-graph
   sums and the head in tiles inside kernel regions: a product of a tile of rows with the matrix is the tile of the
   product; scaling and the node update are pointwise in the row; the per-graph sums are accumulated tile by tile as
   the product of a tile's transposed one-hot membership matrix (entries 0 or 1, and 0 * x = 0 on the extended
   reals) with the tile's rows, which adds to row g exactly the tile's rows of graph g: the scatter-add of rows by
   graph id; the head is one tile.  Sums of extended reals may be regrouped freely (addition is commutative and
   associative there), and rounding to bf16 before a product is the identity at the ideal instance, so no
   finiteness of the inputs is used: the precondition is not opened.

   The value proof follows @main's fifteen segments (Proof/Chain.lean): at each boundary the buffer the next
   segment reads is the reference's stage of the same meaning. The kernel regions' arrays are read off the frame
   run's proof data (Proof/Reg*.lean), the host stretches are evaluated (Proof/Host.lean), buffers read several
   segments after they were made are carried (Proof/Keep.lean).  The three frames are the generated ones (the
   reference's is its generated run with the result dropped); no rewrite was made by the ideal pass. -/
import proofs.«422269_j16982300688846_2_alg».proof.Defs
import proofs.«422269_j16982300688846_2_alg».proof.Proof.Gen.Kernel
import proofs.«422269_j16982300688846_2_alg».proof.Proof.Gen.Kernel.Skeleton
import proofs.«422269_j16982300688846_2_alg».proof.Proof.Gen.Kernel.Launch
import proofs.«422269_j16982300688846_2_alg».proof.Proof.Gen.Kernel.Points
import proofs.«422269_j16982300688846_2_alg».proof.Proof.Gen.Kernel.Frame
import proofs.«422269_j16982300688846_2_alg».proof.Proof.Gen.KernelIdeal
import proofs.«422269_j16982300688846_2_alg».proof.Proof.Gen.KernelIdeal.Skeleton
import proofs.«422269_j16982300688846_2_alg».proof.Proof.Gen.KernelIdeal.Launch
import proofs.«422269_j16982300688846_2_alg».proof.Proof.Gen.KernelIdeal.Points
import proofs.«422269_j16982300688846_2_alg».proof.Proof.Gen.KernelIdeal.Frame
import proofs.«422269_j16982300688846_2_alg».proof.Proof.Gen.ReferenceIdeal
import proofs.«422269_j16982300688846_2_alg».proof.Proof.Gen.Pre_finite_inputs
import proofs.«422269_j16982300688846_2_alg».proof.Proof.Gen.ReferenceIdeal.Run
import proofs.«422269_j16982300688846_2_alg».proof.Proof.Gen.ReferenceIdeal.Read
import proofs.«422269_j16982300688846_2_alg».proof.Proof.Chain
import Idealize.ShloMosaic.Adequacy
import Idealize.ShloMosaic.Init

set_option maxRecDepth 16384

noncomputable section

namespace Cert.Proof

open Idealize.ShloMosaic Idealize.SL.Sem

/-- The word-level kernel runs and keeps its arguments. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is host operations only: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both idealized programs end with the reference's last stage of the (agreeing) argument arrays. -/
theorem algebraic : Cert.algebraic_KernelIdeal_ReferenceIdeal := by
  intro m ρ m' ρ' _ hagree
  refine ⟨fun c => Cert.ReferenceIdeal.Read.val_main_v108 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    Cert.KernelIdeal.Chain.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v108_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
